-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S4x128x128 : Shape := ⟨3, ![4, 128, 128]⟩
abbrev S128 : Shape := ⟨1, ![128]⟩
abbrev S128x96 : Shape := ⟨2, ![128, 96]⟩
abbrev S4x128x96 : Shape := ⟨3, ![4, 128, 96]⟩
abbrev S96 : Shape := ⟨1, ![96]⟩
abbrev S_ : Shape := ⟨0, ![]⟩
abbrev S1x600000 : Shape := ⟨2, ![1, 600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S128x96 : S_.BroadcastsInDim S128x96 (![] : Fin 0 → Fin S128x96.rank)
  reducesTo_S128x96_S_d0_1 : S128x96.ReducesTo [0, 1] S_
  bcast_S_S4x128x96 : S_.BroadcastsInDim S4x128x96 (![] : Fin 0 → Fin S4x128x96.rank)
  reducesTo_S4x128x96_S_d0_1_2 : S4x128x96.ReducesTo [0, 1, 2] S_
  bcast_S_S96 : S_.BroadcastsInDim S96 (![] : Fin 0 → Fin S96.rank)
  reducesTo_S96_S_d0 : S96.ReducesTo [0] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_arg2 : IVec S600000 32) (main_v33 : IVec S_ 1) : IVec S_ 1 :=
  let main_v34 : IVec S1x600000 32 := (extractStridedSlice S1x600000 ![1, 0] · slices_S2x600000_S1x600000_1_0) main_arg1
  let main_v35 : IVec S600000 32 := shapeCast S600000 main_v34 shapeCasts_S1x600000_S600000
  let main_c_12 : IVec S_ 32 := constantI S_ 32 0#32
  let main_v36 : IVec S600000 32 := broadcastInDim S600000 ![] bcast_S_S600000 main_c_12
  let main_v37 : IVec S600000 1 := cmpi .sge main_v35 main_v36
  let main_v38 : IVec S1x600000 32 := (extractStridedSlice S1x600000 ![1, 0] · slices_S2x600000_S1x600000_1_0) main_arg1
  let main_v39 : IVec S600000 32 := shapeCast S600000 main_v38 shapeCasts_S1x600000_S600000
  let main_c_13 : IVec S_ 32 := constantI S_ 32 50000#32
  let main_v40 : IVec S600000 32 := broadcastInDim S600000 ![] bcast_S_S600000 main_c_13
  let main_v41 : IVec S600000 1 := cmpi .slt main_v39 main_v40
  let main_v42 : IVec S600000 1 := andi main_v37 main_v41
  let main_c_14 : IVec S_ 1 := constantI S_ 1 1#1
  let main_v43 : IVec S_ 1 := (fun x v => Host.reduce IntOp.andi x v reducesTo_S600000_S_d0 h_S_) main_v42 main_c_14
  let main_v44 : IVec S_ 1 := andi main_v33 main_v43
  let main_c_15 : IVec S_ 32 := constantI S_ 32 0#32
  let main_v45 : IVec S600000 32 := broadcastInDim S600000 ![] bcast_S_S600000 main_c_15
  let main_v46 : IVec S600000 1 := cmpi .sge main_arg2 main_v45
  let main_c_16 : IVec S_ 32 := constantI S_ 32 4#32
  let main_v47 : IVec S600000 32 := broadcastInDim S600000 ![] bcast_S_S600000 main_c_16
  let main_v48 : IVec S600000 1 := cmpi .slt main_arg2 main_v47
  let main_v49 : IVec S600000 1 := andi main_v46 main_v48
  let main_c_17 : IVec S_ 1 := constantI S_ 1 1#1
  let main_v50 : IVec S_ 1 := (fun x v => Host.reduce IntOp.andi x v reducesTo_S600000_S_d0 h_S_) main_v49 main_c_17
  let main_v51 : IVec S_ 1 := andi main_v44 main_v50
  main_v51

def fn_part1 {F : FTy → Type} [FloatOps F] (main_arg1 : IVec S2x600000 32) (main_arg2 : IVec S600000 32) (main_arg6 : FVec F S128x96 .f32) (main_arg7 : FVec F S4x128x96 .f32) (main_arg8 : FVec F S96 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x96 .f32 := Host.absf main_arg6
  let main_cst_6 : FVec F S_ .f32 := constant S_ .f32 0x7F800000#32
  let main_v20 : FVec F S128x96 .f32 := broadcastInDim S128x96 ![] bcast_S_S128x96 main_cst_6
  let main_v21 : IVec S128x96 1 := cmpf .olt main_v19 main_v20
  let main_c_7 : IVec S_ 1 := constantI S_ 1 1#1
  let main_v22 : IVec S_ 1 := (fun x v => Host.reduce IntOp.andi x v reducesTo_S128x96_S_d0_1 h_S_) main_v21 main_c_7
  let main_v23 : IVec S_ 1 := andi main_v18 main_v22
  let main_v24 : FVec F S4x128x96 .f32 := Host.absf main_arg7
  let main_cst_8 : FVec F S_ .f32 := constant S_ .f32 0x7F800000#32
  let main_v25 : FVec F S4x128x96 .f32 := broadcastInDim S4x128x96 ![] bcast_S_S4x128x96 main_cst_8
  let main_v26 : IVec S4x128x96 1 := cmpf .olt main_v24 main_v25
  let main_c_9 : IVec S_ 1 := constantI S_ 1 1#1
  let main_v27 : IVec S_ 1 := (fun x v => Host.reduce IntOp.andi x v reducesTo_S4x128x96_S_d0_1_2 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg1 main_arg2 main_v33

def fn {F : FTy → Type} [FloatOps F] (main_arg0 : FVec F S50000x128 .f32) (main_arg1 : IVec S2x600000 32) (main_arg2 : IVec S600000 32) (main_arg3 : FVec F S128x128 .f32) (main_arg4 : FVec F S4x128x128 .f32) (main_arg5 : FVec F S128 .f32) (main_arg6 : FVec F S128x96 .f32) (main_arg7 : FVec F S4x128x96 .f32) (main_arg8 : FVec F S96 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S4x128x128 : Shape := ⟨3, ![4, 128, 128]⟩
abbrev S128 : Shape := ⟨1, ![128]⟩
abbrev S128x96 : Shape := ⟨2, ![128, 96]⟩
abbrev S4x128x96 : Shape := ⟨3, ![4, 128, 96]⟩
abbrev S96 : Shape := ⟨1, ![96]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S200000x128 : Shape := ⟨2, ![200000, 128]⟩
abbrev S200000 : Shape := ⟨1, ![200000]⟩
abbrev S50000x4x128 : Shape := ⟨3, ![50000, 4, 128]⟩
abbrev S50000x4 : Shape := ⟨2, ![50000, 4]⟩
abbrev S50000x4x1 : Shape := ⟨3, ![50000, 4, 1]⟩
abbrev S50000x1x128 : Shape := ⟨3, ![50000, 1, 128]⟩
abbrev S50000x640 : Shape := ⟨2, ![50000, 640]⟩
abbrev S1x128x128 : Shape := ⟨3, ![1, 128, 128]⟩
abbrev S640x128 : Shape := ⟨2, ![640, 128]⟩
abbrev S2000x640 : Shape := ⟨2, ![2000, 640]⟩
abbrev S2000x128 : Shape := ⟨2, ![2000, 128]⟩
abbrev S1x128 : Shape := ⟨2, ![1, 128]⟩
abbrev S1x128x96 : Shape := ⟨3, ![1, 128, 96]⟩
abbrev S640x96 : Shape := ⟨2, ![640, 96]⟩
abbrev S50000x96 : Shape := ⟨2, ![50000, 96]⟩
abbrev S2000x96 : Shape := ⟨2, ![2000, 96]⟩
abbrev S1x96 : Shape := ⟨2, ![1, 96]⟩

abbrev nBuf : Space → Nat
  | .hbm => 117
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S4x128x128, .f32⟩
  | .hbm, ⟨5, _⟩ => ⟨S128, .f32⟩
  | .hbm, ⟨6, _⟩ => ⟨S128x96, .f32⟩
  | .hbm, ⟨7, _⟩ => ⟨S4x128x96, .f32⟩
  | .hbm, ⟨8, _⟩ => ⟨S96, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S_, .f32⟩
  | .hbm, ⟨27, _⟩ => ⟨S200000x128, .f32⟩
  | .hbm, ⟨28, _⟩ => ⟨S600000x1, .i32⟩
  | .hbm, ⟨29, _⟩ => ⟨S200000x128, .f32⟩
  | .hbm, ⟨30, _⟩ => ⟨S_, .f32⟩
  | .hbm, ⟨31, _⟩ => ⟨S600000, .f32⟩
  | .hbm, ⟨32, _⟩ => ⟨S_, .f32⟩
  | .hbm, ⟨33, _⟩ => ⟨S200000, .f32⟩
  | .hbm, ⟨34, _⟩ => ⟨S600000x1, .i32⟩
  | .hbm, ⟨35, _⟩ => ⟨S200000, .f32⟩
  | .hbm, ⟨36, _⟩ => ⟨S50000x4x128, .f32⟩
  | .hbm, ⟨37, _⟩ => ⟨S50000x4, .f32⟩
  | .hbm, ⟨38, _⟩ => ⟨S_, .f32⟩
  | .hbm, ⟨39, _⟩ => ⟨S50000x4, .f32⟩
  | .hbm, ⟨40, _⟩ => ⟨S50000x4, .f32⟩
  | .hbm, ⟨41, _⟩ => ⟨S50000x4x1, .f32⟩
  | .hbm, ⟨42, _⟩ => ⟨S50000x4x128, .f32⟩
  | .hbm, ⟨43, _⟩ => ⟨S50000x4x128, .f32⟩
  | .hbm, ⟨44, _⟩ => ⟨S50000x1x128, .f32⟩
  | .hbm, ⟨45, _⟩ => ⟨S50000x128, .f32⟩
  | .hbm, ⟨46, _⟩ => ⟨S50000x1x128, .f32⟩
  | .hbm, ⟨47, _⟩ => ⟨S50000x128, .f32⟩
  | .hbm, ⟨48, _⟩ => ⟨S50000x1x128, .f32⟩
  | .hbm, ⟨49, _⟩ => ⟨S50000x128, .f32⟩
  | .hbm, ⟨50, _⟩ => ⟨S50000x1x128, .f32⟩
  | .hbm, ⟨51, _⟩ => ⟨S50000x128, .f32⟩
  | .hbm, ⟨52, _⟩ => ⟨S50000x640, .f32⟩
  | .hbm, ⟨53, _⟩ => ⟨S1x128x128, .f32⟩
  | .hbm, ⟨54, _⟩ => ⟨S128x128, .f32⟩
  | .hbm, ⟨55, _⟩ => ⟨S1x128x128, .f32⟩
  | .hbm, ⟨56, _⟩ => ⟨S128x128, .f32⟩
  | .hbm, ⟨57, _⟩ => ⟨S1x128x128, .f32⟩
  | .hbm, ⟨58, _⟩ => ⟨S128x128, .f32⟩
  | .hbm, ⟨59, _⟩ => ⟨S1x128x128, .f32⟩
  | .hbm, ⟨60, _⟩ => ⟨S128x128, .f32⟩
  | .hbm, ⟨61, _⟩ => ⟨S640x128, .f32⟩
  | .hbm, ⟨62, _⟩ => ⟨S50000x128, .f32⟩
  | .hbm, ⟨63, _⟩ => ⟨S1x600000, .i32⟩
  | .hbm, ⟨64, _⟩ => ⟨S600000, .i32⟩
  | .hbm, ⟨65, _⟩ => ⟨S1x600000, .i32⟩
  | .hbm, ⟨66, _⟩ => ⟨S600000, .i32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S_, .f32⟩
  | .hbm, ⟨81, _⟩ => ⟨S200000x128, .f32⟩
  | .hbm, ⟨82, _⟩ => ⟨S600000x1, .i32⟩
  | .hbm, ⟨83, _⟩ => ⟨S200000x128, .f32⟩
  | .hbm, ⟨84, _⟩ => ⟨S_, .f32⟩
  | .hbm, ⟨85, _⟩ => ⟨S600000, .f32⟩
  | .hbm, ⟨86, _⟩ => ⟨S_, .f32⟩
  | .hbm, ⟨87, _⟩ => ⟨S200000, .f32⟩
  | .hbm, ⟨88, _⟩ => ⟨S600000x1, .i32⟩
  | .hbm, ⟨89, _⟩ => ⟨S200000, .f32⟩
  | .hbm, ⟨90, _⟩ => ⟨S50000x4x128, .f32⟩
  | .hbm, ⟨91, _⟩ => ⟨S50000x4, .f32⟩
  | .hbm, ⟨92, _⟩ => ⟨S_, .f32⟩
  | .hbm, ⟨93, _⟩ => ⟨S50000x4, .f32⟩
  | .hbm, ⟨94, _⟩ => ⟨S50000x4, .f32⟩
  | .hbm, ⟨95, _⟩ => ⟨S50000x4x1, .f32⟩
  | .hbm, ⟨96, _⟩ => ⟨S50000x4x128, .f32⟩
  | .hbm, ⟨97, _⟩ => ⟨S50000x4x128, .f32⟩
  | .hbm, ⟨98, _⟩ => ⟨S50000x1x128, .f32⟩
  | .hbm, ⟨99, _⟩ => ⟨S50000x128, .f32⟩
  | .hbm, ⟨100, _⟩ => ⟨S50000x1x128, .f32⟩
  | .hbm, ⟨101, _⟩ => ⟨S50000x128, .f32⟩
  | .hbm, ⟨102, _⟩ => ⟨S50000x1x128, .f32⟩
  | .hbm, ⟨103, _⟩ => ⟨S50000x128, .f32⟩
  | .hbm, ⟨104, _⟩ => ⟨S50000x1x128, .f32⟩
  | .hbm, ⟨105, _⟩ => ⟨S50000x128, .f32⟩
  | .hbm, ⟨106, _⟩ => ⟨S50000x640, .f32⟩
  | .hbm, ⟨107, _⟩ => ⟨S1x128x96, .f32⟩
  | .hbm, ⟨108, _⟩ => ⟨S128x96, .f32⟩
  | .hbm, ⟨109, _⟩ => ⟨S1x128x96, .f32⟩
  | .hbm, ⟨110, _⟩ => ⟨S128x96, .f32⟩
  | .hbm, ⟨111, _⟩ => ⟨S1x128x96, .f32⟩
  | .hbm, ⟨112, _⟩ => ⟨S128x96, .f32⟩
  | .hbm, ⟨113, _⟩ => ⟨S1x128x96, .f32⟩
  | .hbm, ⟨114, _⟩ => ⟨S128x96, .f32⟩
  | .hbm, ⟨115, _⟩ => ⟨S640x96, .f32⟩
  | .hbm, ⟨116, _⟩ => ⟨S50000x96, .f32⟩
  | .local _ .vmem, ⟨0, _⟩ => ⟨S2000x640, .f32⟩
  | .local _ .vmem, ⟨1, _⟩ => ⟨S2000x640, .f32⟩
  | .local _ .vmem, ⟨2, _⟩ => ⟨S640x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x640, .f32⟩
  | .local _ .vmem, ⟨7, _⟩ => ⟨S2000x640, .f32⟩
  | .local _ .vmem, ⟨8, _⟩ => ⟨S640x96, .f32⟩
  | .local _ .vmem, ⟨9, _⟩ => ⟨S96, .f32⟩
  | .local _ .vmem, ⟨10, _⟩ => ⟨S2000x96, .f32⟩
  | .local _ .vmem, ⟨11, _⟩ => ⟨S2000x96, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_5 : Ref sig .tc := ⟨.hbm, 67, rfl⟩
abbrev main_v51 : Ref sig .tc := ⟨.hbm, 68, rfl⟩
abbrev main_v52 : Ref sig .tc := ⟨.hbm, 69, rfl⟩
abbrev main_c_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S640x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S_S200000 : S_.BroadcastsInDim S200000 (![] : Fin 0 → Fin S200000.rank)
  shapeCasts_S200000x128_S50000x4x128 : S200000x128.ShapeCasts S50000x4x128
  shapeCasts_S200000_S50000x4 : S200000.ShapeCasts S50000x4
  bcast_S_S50000x4 : S_.BroadcastsInDim S50000x4 (![] : Fin 0 → Fin S50000x4.rank)
  bcast_S50000x4_S50000x4x1_0_1 : S50000x4.BroadcastsInDim S50000x4x1 (![0, 1] : Fin 2 → Fin S50000x4x1.rank)
  bcast_S50000x4x1_S50000x4x128_0_1_2 : S50000x4x1.BroadcastsInDim S50000x4x128 (![0, 1, 2] : Fin 3 → Fin S50000x4x128.rank)
  slices_S50000x4x128_S50000x1x128_0_0_0 : S50000x4x128.Slices ![0, 0, 0] S50000x1x128
  shapeCasts_S50000x1x128_S50000x128 : S50000x1x128.ShapeCasts S50000x128
  slices_S50000x4x128_S50000x1x128_0_1_0 : S50000x4x128.Slices ![0, 1, 0] S50000x1x128
  slices_S50000x4x128_S50000x1x128_0_2_0 : S50000x4x128.Slices ![0, 2, 0] S50000x1x128
  slices_S50000x4x128_S50000x1x128_0_3_0 : S50000x4x128.Slices ![0, 3, 0] S50000x1x128
  concatenates_S50000x128_S50000x128_S50000x128_S50000x128_S50000x128_S50000x640_d1 : Shape.Concatenates [S50000x128, S50000x128, S50000x128, S50000x128, S50000x128] S50000x640 1
  slices_S4x128x128_S1x128x128_0_0_0 : S4x128x128.Slices ![0, 0, 0] S1x128x128
  shapeCasts_S1x128x128_S128x128 : S1x128x128.ShapeCasts S128x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  concatenates_S128x128_S128x128_S128x128_S128x128_S128x128_S640x128_d0 : Shape.Concatenates [S128x128, S128x128, S128x128, S128x128, S128x128] S640x128 0
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  bitsLt_bf16_f32 : FTy.bits .bf16 < FTy.bits .f32
  inb_S640x128_S640x128_0_0 : ∀ a, (![0, 0] : Fin 2 → Nat) a + S640x128.size a ≤ S640x128.size a
  h_S640x128 : 0 < S640x128.numel
  shapeCasts_S640x128_S640x128 : S640x128.ShapeCasts S640x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S4x128x96_S1x128x96_0_0_0 : S4x128x96.Slices ![0, 0, 0] S1x128x96
  shapeCasts_S1x128x96_S128x96 : S1x128x96.ShapeCasts S128x96
  slices_S4x128x96_S1x128x96_1_0_0 : S4x128x96.Slices ![1, 0, 0] S1x128x96
  slices_S4x128x96_S1x128x96_2_0_0 : S4x128x96.Slices ![2, 0, 0] S1x128x96
  slices_S4x128x96_S1x128x96_3_0_0 : S4x128x96.Slices ![3, 0, 0] S1x128x96
  concatenates_S128x96_S128x96_S128x96_S128x96_S128x96_S640x96_d0 : Shape.Concatenates [S128x96, S128x96, S128x96, S128x96, S128x96] S640x96 0
  inb_S640x96_S640x96_0_0 : ∀ a, (![0, 0] : Fin 2 → Nat) a + S640x96.size a ≤ S640x96.size a
  h_S640x96 : 0 < S640x96.numel
  shapeCasts_S640x96_S640x96 : S640x96.ShapeCasts S640x96
  inb_S96_S96_0 : ∀ a, (![0] : Fin 1 → Nat) a + S96.size a ≤ S96.size a
  h_S96 : 0 < S96.numel
  shapeCasts_S96_S1x96 : S96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S2000x640_S640x128_S2000x128_1_0_0_1_n_n_wf : DotDims.WF S2000x640 S640x128 S2000x128 [1] [0] [0] [1] [] []
  dot_S2000x640_S640x96_S2000x96_1_0_0_1_n_n_wf : DotDims.WF S2000x640 S640x96 S2000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x640.size a ≤ S50000x640.size a
  hwx0_0 : ∀ i : grid0.Coords, EltTy.bits .f32 = 32 ∨ (Rect.block (s := S50000x640) S2000x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x128.size a ≤ S640x128.size a
  hwx0_1 : ∀ i : grid0.Coords, EltTy.bits .f32 = 32 ∨ (Rect.block (s := S640x128) S640x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x640.size a ≤ S50000x640.size a
  hwx1_0 : ∀ i : grid1.Coords, EltTy.bits .f32 = 32 ∨ (Rect.block (s := S50000x640) S2000x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x96.size a ≤ S640x96.size a
  hwx1_1 : ∀ i : grid1.Coords, EltTy.bits .f32 = 32 ∨ (Rect.block (s := S640x96) S640x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96.size a ≤ S96.size a
  hwx1_2 : ∀ i : grid1.Coords, EltTy.bits .f32 = 32 ∨ (Rect.block (s := S96) S96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x96.size a ≤ S50000x96.size a
  hwx1_3 : ∀ i : grid1.Coords, EltTy.bits .f32 = 32 ∨ (Rect.block (s := S50000x96) S2000x96.size (cc1_transform_3 i) (hinb1_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S2000x640_S640x128_S2000x128_1_0_0_1_n_n : DotDims S2000x640 S640x128 S2000x128 where
  lhsContracting := [1]
  rhsContracting := [0]
  lhsNonContracting := [0]
  rhsNonContracting := [1]
  lhsBatch := []
  rhsBatch := []
  wf := dot_S2000x640_S640x128_S2000x128_1_0_0_1_n_n_wf
def dot_S2000x640_S640x96_S2000x96_1_0_0_1_n_n : DotDims S2000x640 S640x96 S2000x96 where
  lhsContracting := [1]
  rhsContracting := [0]
  lhsNonContracting := [0]
  rhsNonContracting := [1]
  lhsBatch := []
  rhsBatch := []
  wf := dot_S2000x640_S640x96_S2000x96_1_0_0_1_n_n_wf

abbrev win0_0 : Pipeline.Window sig grid0 :=
  Pipeline.Window.ofSpec (Memref.whole main_v36) S2000x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S640x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v83) S2000x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v92) S640x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v93) S2000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S4x128x128 : Shape := ⟨3, ![4, 128, 128]⟩
abbrev S128 : Shape := ⟨1, ![128]⟩
abbrev S128x96 : Shape := ⟨2, ![128, 96]⟩
abbrev S4x128x96 : Shape := ⟨3, ![4, 128, 96]⟩
abbrev S96 : Shape := ⟨1, ![96]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000 : Shape := ⟨1, ![50000]⟩
abbrev S50000x1 : Shape := ⟨2, ![50000, 1]⟩
abbrev S1x128x128 : Shape := ⟨3, ![1, 128, 128]⟩
abbrev S50000x96 : Shape := ⟨2, ![50000, 96]⟩
abbrev S1x96 : Shape := ⟨2, ![1, 96]⟩
abbrev S1x128x96 : Shape := ⟨3, ![1, 128, 96]⟩

abbrev nBuf : Space → Nat
  | .hbm => 246
  | .vmem => 0
  | .smem => 0
  | _ => 0

abbrev hbmTy0_0 (i : Nat) : BufTy := match i % 128 with
  | 0 => ⟨S50000x128, .f32⟩
  | 1 => ⟨S2x600000, .i32⟩
  | 2 => ⟨S600000, .i32⟩
  | 3 => ⟨S128x128, .f32⟩
  | 4 => ⟨S4x128x128, .f32⟩
  | 5 => ⟨S128, .f32⟩
  | 6 => ⟨S128x96, .f32⟩
  | 7 => ⟨S4x128x96, .f32⟩
  | 8 => ⟨S96, .f32⟩
  | 9 => ⟨S1x600000, .i32⟩
  | 10 => ⟨S600000, .i32⟩
  | 11 => ⟨S1x600000, .i32⟩
  | 12 => ⟨S600000, .i32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000x128, .f32⟩
  | 22 => ⟨S50000x128, .f32⟩
  | 23 => ⟨S1x128, .f32⟩
  | 24 => ⟨S50000x128, .f32⟩
  | 25 => ⟨S50000x128, .f32⟩
  | 26 => ⟨S_, .i32⟩
  | 27 => ⟨S600000, .i32⟩
  | 28 => ⟨S600000, .i1⟩
  | 29 => ⟨S600000, .f32⟩
  | 30 => ⟨S600000x1, .f32⟩
  | 31 => ⟨S600000x128, .f32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S_, .f32⟩
  | 38 => ⟨S50000, .f32⟩
  | 39 => ⟨S600000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S1x128x128, .f32⟩
  | 48 => ⟨S128x128, .f32⟩
  | 49 => ⟨S50000x128, .f32⟩
  | 50 => ⟨S50000x128, .f32⟩
  | 51 => ⟨S_, .i32⟩
  | 52 => ⟨S600000, .i32⟩
  | 53 => ⟨S600000, .i1⟩
  | 54 => ⟨S600000, .f32⟩
  | 55 => ⟨S600000x1, .f32⟩
  | 56 => ⟨S600000x128, .f32⟩
  | 57 => ⟨S600000x128, .f32⟩
  | 58 => ⟨S_, .f32⟩
  | 59 => ⟨S50000x128, .f32⟩
  | 60 => ⟨S600000x1, .i32⟩
  | 61 => ⟨S50000x128, .f32⟩
  | 62 => ⟨S_, .f32⟩
  | 63 => ⟨S50000, .f32⟩
  | 64 => ⟨S600000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S50000x128, .f32⟩
  | 76 => ⟨S_, .i32⟩
  | 77 => ⟨S600000, .i32⟩
  | 78 => ⟨S600000, .i1⟩
  | 79 => ⟨S600000, .f32⟩
  | 80 => ⟨S600000x1, .f32⟩
  | 81 => ⟨S600000x128, .f32⟩
  | 82 => ⟨S600000x128, .f32⟩
  | 83 => ⟨S_, .f32⟩
  | 84 => ⟨S50000x128, .f32⟩
  | 85 => ⟨S600000x1, .i32⟩
  | 86 => ⟨S50000x128, .f32⟩
  | 87 => ⟨S_, .f32⟩
  | 88 => ⟨S50000, .f32⟩
  | 89 => ⟨S600000x1, .i32⟩
  | 90 => ⟨S50000, .f32⟩
  | 91 => ⟨S_, .f32⟩
  | 92 => ⟨S50000, .f32⟩
  | 93 => ⟨S50000, .f32⟩
  | 94 => ⟨S50000x1, .f32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S50000x128, .f32⟩
  | 101 => ⟨S_, .i32⟩
  | 102 => ⟨S600000, .i32⟩
  | 103 => ⟨S600000, .i1⟩
  | 104 => ⟨S600000, .f32⟩
  | 105 => ⟨S600000x1, .f32⟩
  | 106 => ⟨S600000x128, .f32⟩
  | 107 => ⟨S600000x128, .f32⟩
  | 108 => ⟨S_, .f32⟩
  | 109 => ⟨S50000x128, .f32⟩
  | 110 => ⟨S600000x1, .i32⟩
  | 111 => ⟨S50000x128, .f32⟩
  | 112 => ⟨S_, .f32⟩
  | 113 => ⟨S50000, .f32⟩
  | 114 => ⟨S600000x1, .i32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S1x600000, .i32⟩
  | 2 => ⟨S600000, .i32⟩
  | 3 => ⟨S1x600000, .i32⟩
  | 4 => ⟨S600000, .i32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000x128, .f32⟩
  | 14 => ⟨S50000x96, .f32⟩
  | 15 => ⟨S1x96, .f32⟩
  | 16 => ⟨S50000x96, .f32⟩
  | 17 => ⟨S50000x96, .f32⟩
  | 18 => ⟨S_, .i32⟩
  | 19 => ⟨S600000, .i32⟩
  | 20 => ⟨S600000, .i1⟩
  | 21 => ⟨S600000, .f32⟩
  | 22 => ⟨S600000x1, .f32⟩
  | 23 => ⟨S600000x128, .f32⟩
  | 24 => ⟨S600000x128, .f32⟩
  | 25 => ⟨S_, .f32⟩
  | 26 => ⟨S50000x128, .f32⟩
  | 27 => ⟨S600000x1, .i32⟩
  | 28 => ⟨S50000x128, .f32⟩
  | 29 => ⟨S_, .f32⟩
  | 30 => ⟨S50000, .f32⟩
  | 31 => ⟨S600000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S1x128x96, .f32⟩
  | 40 => ⟨S128x96, .f32⟩
  | 41 => ⟨S50000x96, .f32⟩
  | 42 => ⟨S50000x96, .f32⟩
  | 43 => ⟨S_, .i32⟩
  | 44 => ⟨S600000, .i32⟩
  | 45 => ⟨S600000, .i1⟩
  | 46 => ⟨S600000, .f32⟩
  | 47 => ⟨S600000x1, .f32⟩
  | 48 => ⟨S600000x128, .f32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S_, .f32⟩
  | 55 => ⟨S50000, .f32⟩
  | 56 => ⟨S600000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S1x128x96, .f32⟩
  | 65 => ⟨S128x96, .f32⟩
  | 66 => ⟨S50000x96, .f32⟩
  | 67 => ⟨S50000x96, .f32⟩
  | 68 => ⟨S_, .i32⟩
  | 69 => ⟨S600000, .i32⟩
  | 70 => ⟨S600000, .i1⟩
  | 71 => ⟨S600000, .f32⟩
  | 72 => ⟨S600000x1, .f32⟩
  | 73 => ⟨S600000x128, .f32⟩
  | 74 => ⟨S600000x128, .f32⟩
  | 75 => ⟨S_, .f32⟩
  | 76 => ⟨S50000x128, .f32⟩
  | 77 => ⟨S600000x1, .i32⟩
  | 78 => ⟨S50000x128, .f32⟩
  | 79 => ⟨S_, .f32⟩
  | 80 => ⟨S50000, .f32⟩
  | 81 => ⟨S600000x1, .i32⟩
  | 82 => ⟨S50000, .f32⟩
  | 83 => ⟨S_, .f32⟩
  | 84 => ⟨S50000, .f32⟩
  | 85 => ⟨S50000, .f32⟩
  | 86 => ⟨S50000x1, .f32⟩
  | 87 => ⟨S50000x128, .f32⟩
  | 88 => ⟨S50000x128, .f32⟩
  | 89 => ⟨S1x128x96, .f32⟩
  | 90 => ⟨S128x96, .f32⟩
  | 91 => ⟨S50000x96, .f32⟩
  | 92 => ⟨S50000x96, .f32⟩
  | 93 => ⟨S_, .i32⟩
  | 94 => ⟨S600000, .i32⟩
  | 95 => ⟨S600000, .i1⟩
  | 96 => ⟨S600000, .f32⟩
  | 97 => ⟨S600000x1, .f32⟩
  | 98 => ⟨S600000x128, .f32⟩
  | 99 => ⟨S600000x128, .f32⟩
  | 100 => ⟨S_, .f32⟩
  | 101 => ⟨S50000x128, .f32⟩
  | 102 => ⟨S600000x1, .i32⟩
  | 103 => ⟨S50000x128, .f32⟩
  | 104 => ⟨S_, .f32⟩
  | 105 => ⟨S50000, .f32⟩
  | 106 => ⟨S600000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x128, .f32⟩
  | 113 => ⟨S50000x128, .f32⟩
  | 114 => ⟨S1x128x96, .f32⟩
  | 115 => ⟨S128x96, .f32⟩
  | 116 => ⟨S50000x96, .f32⟩
  | 117 => ⟨S50000x96, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_12 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_15 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_call0_cst : Ref sig .tc := ⟨.hbm, 126, rfl⟩
abbrev main_call0_v0 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c_16 : Ref sig .tc := ⟨.hbm, 133, rfl⟩
abbrev main_v104 : Ref sig .tc := ⟨.hbm, 134, rfl⟩
abbrev main_v105 : Ref sig .tc := ⟨.hbm, 135, rfl⟩
abbrev main_c_17 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_c_18 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_19 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_20 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_21 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_c_22 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_23 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_24 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_25 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_c_26 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_cst_27 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_28 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_29 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_c_30 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_31 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_cst_32 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_33 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S4x128x96_S1x128x96_0_0_0 : S4x128x96.Slices ![0, 0, 0] S1x128x96
  shapeCasts_S1x128x96_S128x96 : S1x128x96.ShapeCasts S128x96
  slices_S4x128x96_S1x128x96_1_0_0 : S4x128x96.Slices ![1, 0, 0] S1x128x96
  slices_S4x128x96_S1x128x96_2_0_0 : S4x128x96.Slices ![2, 0, 0] S1x128x96
  slices_S4x128x96_S1x128x96_3_0_0 : S4x128x96.Slices ![3, 0, 0] S1x128x96
  gather_S50000x128_S600000x1_S600000x128_1_0_n_n_0_1_1128_wf : GatherDims.WF S50000x128 S600000x1 S600000x128 [1] [0] [] [0] [] 1 ![1, 128]
  dot_S50000x128_S128x128_S50000x128_1_0_0_1_n_n_wf : DotDims.WF S50000x128 S128x128 S50000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x96_S50000x96_1_0_0_1_n_n_wf : DotDims.WF S50000x128 S128x96 S50000x96 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf

class Facts : Prop extends Facts₀ where

variable [Facts]
-- ==== Proof.K.Data.lean ====
/-
  The proof data of the idealized kernel program's two launches, and the contents of its buffers between
  the items of its entry function.

  Each launch is a pipeline over a grid of 25 points. Point `t` is handed rows `2000·t … 2000·t + 1999`
  of the 50000 × 640 feature array (window 0), the whole 640 × d weight array (window 1) and the whole
  bias vector (window 2), and writes rows `2000·t … 2000·t + 1999` of the 50000 × d result (window 3);
  d = 128 in the first launch and 96 in the second. The body stores one value over its whole output
  block: the payload of the three input blocks. So after the body the output's staging buffer holds that
  payload, and each input's buffer holds its block as before.

  Between the items the buffers hold: the launch memory; then what the first host stretch computes; then
  the same with the first launch's result array at what its write-backs leave; then what the second host
  stretch computes over that; then the same with the second launch's result array written.
  Everything here is stated at any float family, so the word-level program's copy is the same text.
-/
import proofs.«403790_j25340307046637_1_alg».proof.Proof.Gen.Kernel.Launch
import proofs.«403790_j25340307046637_1_alg».proof.Proof.Gen.Kernel.Skeleton
import proofs.«403790_j25340307046637_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

section Regions
/- The buffer contents when a launch is entered: a parameter here, fixed per launch further down. -/
variable (V : (c : Dev nD) → (b : Ref sig .tc) → Buf (Elt F) ((c : Thread nD τ).loc b))

/-! ## The first launch -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each block: what the body's loads and its store address. -/
abbrev r0_x : Rect S2000x640 := Rect.unit (s := S2000x640) ![0, 0] S2000x640.size inb_S2000x640_S2000x640_0_0
abbrev r0_w : Rect S640x128 := Rect.unit (s := S640x128) ![0, 0] S640x128.size inb_S640x128_S640x128_0_0
abbrev r0_b : Rect S128 := Rect.unit (s := S128) ![0] S128.size inb_S128_S128_0
abbrev r0_o : Rect S2000x128 := Rect.unit (s := S2000x128) ![0, 0] S2000x128.size inb_S2000x128_S2000x128_0_0

/-- The output's staging buffer after the body: its one store, of the payload of the three loads. -/
def out0_3 (x0 : Vec F S2000x640 .f32) (x1 : Vec F S640x128 .f32) (x2 : Vec F S128 .f32) : Vec F S2000x128 .f32 :=
  View.canon [⟨r0_o, k0_pay1 (View.ld x0 r0_x) (View.ld x1 r0_w) (View.ld x2 r0_b)⟩]

/-- The first launch's proof data: the arrays as found; after the body each input's buffer at its block, the
    output's at the payload of the input blocks; nothing of the kernel's own beside them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The second launch -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S2000x640 := Rect.unit (s := S2000x640) ![0, 0] S2000x640.size inb_S2000x640_S2000x640_0_0
abbrev r1_w : Rect S640x96 := Rect.unit (s := S640x96) ![0, 0] S640x96.size inb_S640x96_S640x96_0_0
abbrev r1_b : Rect S96 := Rect.unit (s := S96) ![0] S96.size inb_S96_S96_0
abbrev r1_o : Rect S2000x96 := Rect.unit (s := S2000x96) ![0, 0] S2000x96.size inb_S2000x96_S2000x96_0_0

/-- The output's staging buffer after the body: its one store, of the payload of the three loads. -/
def out1_3 (x0 : Vec F S2000x640 .f32) (x1 : Vec F S640x96 .f32) (x2 : Vec F S96 .f32) : Vec F S2000x96 .f32 :=
  View.canon [⟨r1_o, k1_pay1 (View.ld x0 r1_x) (View.ld x1 r1_w) (View.ld x2 r1_b)⟩]

/-- The second launch's proof data, as the first's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Regions

/-! ## The buffers between the items of the entry function -/

/-- At launch. -/
abbrev W0 : Dev nD → Valuation τ sig (Elt F) := fun c b => (s₀ m ρ).mem ((c : Dev nD), b)
/-- After the first host stretch: what the first launch is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second launch is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second launch: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The two launches' proof data, each at the contents its launch is entered from. -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.Kernel.Hand

end
-- ==== Proof.K.Frame.lean ====
/-
  The run of the idealized kernel program's entry function through its two launches.

  Each launch is a pipeline over 25 grid points whose body reads three input blocks whole, reads its output
  block (and discards what it read), and overwrites the whole output block with one value computed from the
  three inputs. Two facts about such a body carry the launch: its one store covers the output block, so what the
  block holds afterwards does not depend on what it held before; and an input block is the same in the staging
  buffer whether the pipeline fetched it at this point or left it from the point before, because an unfetched
  window is one whose block index did not move.

  With the body's triple in hand, each launch is a segment between two host stretches; the buffers' contents
  at the four boundaries are those named beside the proof data, and the entry function's run ends with every
  unscoped buffer at the last of them. The nine argument arrays are written by no host operation and by neither
  launch, so reading them back through the four boundaries gives their launch contents.
  Everything is stated at any float family.
-/
import proofs.«403790_j25340307046637_1_alg».proof.Proof.K.Data
import proofs.«403790_j25340307046637_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## Launch 0 -/

/-- The one store of the body is of the whole output block, so every index of the block lies in it. -/
theorem cover0_3 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
/-- The body on whole staging buffers: the three inputs' read `x0 x1 x2`, the output's holds anything. It reads
    the four, then overwrites the output with the payload of the three inputs; the inputs' buffers are as they
    were, and the output's reads that payload everywhere, whatever it held (the store covers it). -/
theorem sound_kernel0 (c : Dev nD) (E : Set ℕ) (i : grid0.Coords)
    (arg1 : Memref sig .tc .vmem S2000x640 .f32) (harg1 : arg1.IsWhole) (arg2 : Memref sig .tc .vmem S640x128 .f32) (harg2 : arg2.IsWhole)
    (arg3 : Memref sig .tc .vmem S128 .f32) (harg3 : arg3.IsWhole) (arg4 : Memref sig .tc .vmem S2000x128 .f32) (harg4 : arg4.IsWhole)
    (x0 : Vec F S2000x640 .f32) (x1 : Vec F S640x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__lincomb_kernel i arg1 harg1 arg2 harg2 arg3 harg3 arg4 harg4) K := by
  simp only [cc0__lincomb_kernel_eq_skeleton]; unfold cc0__lincomb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- An input window's staging buffer holds the window's block at every point, fetched there or not: where the
    pipeline does not fetch, the block index has not moved since the point before, and the body left the block in
    place. Stated for any proof data over the entry contents `V` whose body leaves the input blocks alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`: the invariant, the core's dues, and the four windows' current staging
    buffers, each at what the pipeline has brought it to; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same, the buffers at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: its input buffers hold the windows' blocks, so the triple above applies at those
    blocks; the invariant and the dues are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on its body, at every point. -/
theorem body_obligation0 (c : Dev nD) : BodyObligation (dat0 (F := F) V c) (defs₀ (F := F)) Variants.none () Set.univ := fun t => by
  rw [bigSep_W0, bigSep_W0]
  exact sound_body0 V c t

/-! ## Launch 1 -/

/-- The one store of the body is of the whole output block, so every index of the block lies in it. -/
theorem cover1_3 (p0 : Vec F S2000x96 .f32) (y : S2000x96.Idx) :
    ∃ pc ∈ ([⟨r1_o, p0⟩] : List (View.Piece (Elt F) S2000x96 .f32)), y ∈ pc.1.set :=
  View.cover_of_tiled [⟨r1_o, p0⟩] S2000x96.size (by rfl) y

set_option maxHeartbeats 1000000 in
/-- The body on whole staging buffers: the three inputs' read `x0 x1 x2`, the output's holds anything. It reads
    the four, then overwrites the output with the payload of the three inputs; the inputs' buffers are as they
    were, and the output's reads that payload everywhere, whatever it held (the store covers it). -/
theorem sound_kernel1 (c : Dev nD) (E : Set ℕ) (i : grid1.Coords)
    (arg1 : Memref sig .tc .vmem S2000x640 .f32) (harg1 : arg1.IsWhole) (arg2 : Memref sig .tc .vmem S640x96 .f32) (harg2 : arg2.IsWhole)
    (arg3 : Memref sig .tc .vmem S96 .f32) (harg3 : arg3.IsWhole) (arg4 : Memref sig .tc .vmem S2000x96 .f32) (harg4 : arg4.IsWhole)
    (x0 : Vec F S2000x640 .f32) (x1 : Vec F S640x96 .f32) (x2 : Vec F S96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__lincomb_kernel i arg1 harg1 arg2 harg2 arg3 harg3 arg4 harg4) K := by
  simp only [cc1__lincomb_kernel_eq_skeleton]; unfold cc1__lincomb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- An input window's staging buffer holds the window's block at every point, fetched there or not: where the
    pipeline does not fetch, the block index has not moved since the point before, and the body left the block in
    place. Stated for any proof data over the entry contents `V` whose body leaves the input blocks alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`: the invariant, the core's dues, and the four windows' current staging
    buffers, each at what the pipeline has brought it to; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back: the same, the buffers at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: its input buffers hold the windows' blocks, so the triple above applies at those
    blocks; the invariant and the dues are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on its body, at every point. -/
theorem body_obligation1 (c : Dev nD) : BodyObligation (dat1 (F := F) V c) (defs₀ (F := F)) Variants.none () Set.univ := fun t => by
  rw [bigSep_W1, bigSep_W1]
  exact sound_body1 V c t

end Regions

/-! ## The argument arrays at the last boundary

No host operation writes an argument array and neither launch writes one back: a launch either reads it through an
input window, whose array is never written back, or does not name it. So at the last boundary each holds what it
held at launch. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 2).trans (((dat1 (V3 m ρ) c).arrAt_in 2 rfl _).trans (A_eq1 (V3 m ρ) c 2))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The thread state between segments -/

abbrev 𝒱₀ : Variants := Variants.none
/-- No core owes another anything. -/
abbrev L : GSem nD τ sig → Finset Unit := fun _ => ∅
abbrev lv : GSem nD τ sig → Unit → ℕ := fun _ _ => 0
/-- Beside the buffers, a core carries its generator register at some state and owes nothing. -/
abbrev R (c : Dev nD) : sProp 𝕄 := iprop((∃ r, prngReg c r) ∗ ∃ W, owes (c : Thread nD τ) (0 : CellTallies nD τ sig Unit) W)
/-- A host stretch as a segment over the unscoped buffers from contents `W`: it leaves them at what its operations
    compute from `W`, and `R` rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- Launch 0 as a segment of the run, entered with every unscoped buffer at the contents before it and left with
    them at the contents after it. At entry the launch's four arrays are taken out of the unscoped buffers and the
    rest set aside; the generator register goes into the pipeline's invariant and comes back; at exit the arrays,
    at what the write-backs left, rejoin the rest. The kernel has no semaphore of its own and owes nothing. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the run, entered with every unscoped buffer at the contents before it and left with
    them at the contents after it. At entry the launch's four arrays are taken out of the unscoped buffers and the
    rest set aside; the generator register goes into the pipeline's invariant and comes back; at exit the arrays,
    at what the write-backs left, rejoin the rest. The kernel has no semaphore of its own and owes nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the run -/

/-- The entry function's four segments: host stretch, launch, host stretch, launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- The entry function is the run of the segments: both are the chain of the same four items. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()) ] from rfl]
  rfl

set_option maxHeartbeats 1000000 in
set_option backward.isDefEq.respectTransparency.types false in
/-- From any memory with zero counters, every weakly fair run of the entry function terminates without fault, and
    in every final state each unscoped buffer of the core holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) := by
  refine Pipeline.θ_run_regions_kit (pcfgs (F := F)) adm (pdats m ρ) () cellOf_inj emb₁ defs₀ 𝒱₀ L lv m ρ main (segs m ρ)
    (fun c Q => by rewrite [main_run m ρ c]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := ?hinit)
    (QY := fun c s => ∀ b ∈ Pipeline.ucRefs τ sig, s.mem (((c : Thread nD τ)).1, b) = W4 m ρ c b)
    (hfin := fun c s' => ?hfin)
    (hQ := fun s h => h)
  case hu =>
    -- the launch's ghost element is the pipelines' own, and no further resource is dealt per core
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    -- at launch a core holds its unscoped buffers at the launch memory, its generator register, and owes nothing
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case hfin =>
    -- holding every unscoped buffer at the last contents beside a final state says what that state's memory holds
    iintro ⟨⟨Hh, -⟩, HSI⟩
    unfold StableHlo.held
    imodintro
    iapply (pointsTo_read_all (Pipeline.ucRefs τ sig) (fun b => (((c : Thread nD τ)).1, b)) (W4 m ρ c) s')
    isplitl [Hh] <;> iassumption

/-- The same run, read at the second launch's result array and at the nine argument arrays. -/
theorem run_main : θ_run defs (onTc (τ := τ) (main (F := F))) ⟨m, fun _ => 0, ρ⟩ (fun r => ∀ c : Dev nD,
      r.2.mem ((c.tc : Thread nD τ).loc main_v93) = W4 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  OrdCont.mono (θ_run defs (onTc (τ := τ) (main (F := F))) ⟨m, fun _ => 0, ρ⟩) (fun r h c =>
    ⟨h c _ (mem_uc main_v93 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

/-- The frame of the program: it runs to the end, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  OrdCont.mono (θ_run defs (onTc (τ := τ) (main (F := F))) ⟨m, fun _ => 0, ρ⟩) (fun r h c => (h c).2) (run_main m ρ)

end Cert.Kernel.Hand

end
-- ==== Proof.KI.Data.lean ====
/-
  The proof data of the idealized kernel program's two launches, and the contents of its buffers between
  the items of its entry function.

  Each launch is a pipeline over a grid of 25 points. Point `t` is handed rows `2000·t … 2000·t + 1999`
  of the 50000 × 640 feature array (window 0), the whole 640 × d weight array (window 1) and the whole
  bias vector (window 2), and writes rows `2000·t … 2000·t + 1999` of the 50000 × d result (window 3);
  d = 128 in the first launch and 96 in the second. The body stores one value over its whole output
  block: the payload of the three input blocks. So after the body the output's staging buffer holds that
  payload, and each input's buffer holds its block as before.

  Between the items the buffers hold: the launch memory; then what the first host stretch computes; then
  the same with the first launch's result array at what its write-backs leave; then what the second host
  stretch computes over that; then the same with the second launch's result array written.
  Everything here is stated at any float family, so the word-level program's copy is the same text.
-/
import proofs.«403790_j25340307046637_1_alg».proof.Proof.Gen.KernelIdeal.Launch
import proofs.«403790_j25340307046637_1_alg».proof.Proof.Gen.KernelIdeal.Skeleton
import proofs.«403790_j25340307046637_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

section Regions
/- The buffer contents when a launch is entered: a parameter here, fixed per launch further down. -/
variable (V : (c : Dev nD) → (b : Ref sig .tc) → Buf (Elt F) ((c : Thread nD τ).loc b))

/-! ## The first launch -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each block: what the body's loads and its store address. -/
abbrev r0_x : Rect S2000x640 := Rect.unit (s := S2000x640) ![0, 0] S2000x640.size inb_S2000x640_S2000x640_0_0
abbrev r0_w : Rect S640x128 := Rect.unit (s := S640x128) ![0, 0] S640x128.size inb_S640x128_S640x128_0_0
abbrev r0_b : Rect S128 := Rect.unit (s := S128) ![0] S128.size inb_S128_S128_0
abbrev r0_o : Rect S2000x128 := Rect.unit (s := S2000x128) ![0, 0] S2000x128.size inb_S2000x128_S2000x128_0_0

/-- The output's staging buffer after the body: its one store, of the payload of the three loads. -/
def out0_3 (x0 : Vec F S2000x640 .f32) (x1 : Vec F S640x128 .f32) (x2 : Vec F S128 .f32) : Vec F S2000x128 .f32 :=
  View.canon [⟨r0_o, k0_pay1 (View.ld x0 r0_x) (View.ld x1 r0_w) (View.ld x2 r0_b)⟩]

/-- The first launch's proof data: the arrays as found; after the body each input's buffer at its block, the
    output's at the payload of the input blocks; nothing of the kernel's own beside them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The second launch -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S2000x640 := Rect.unit (s := S2000x640) ![0, 0] S2000x640.size inb_S2000x640_S2000x640_0_0
abbrev r1_w : Rect S640x96 := Rect.unit (s := S640x96) ![0, 0] S640x96.size inb_S640x96_S640x96_0_0
abbrev r1_b : Rect S96 := Rect.unit (s := S96) ![0] S96.size inb_S96_S96_0
abbrev r1_o : Rect S2000x96 := Rect.unit (s := S2000x96) ![0, 0] S2000x96.size inb_S2000x96_S2000x96_0_0

/-- The output's staging buffer after the body: its one store, of the payload of the three loads. -/
def out1_3 (x0 : Vec F S2000x640 .f32) (x1 : Vec F S640x96 .f32) (x2 : Vec F S96 .f32) : Vec F S2000x96 .f32 :=
  View.canon [⟨r1_o, k1_pay1 (View.ld x0 r1_x) (View.ld x1 r1_w) (View.ld x2 r1_b)⟩]

/-- The second launch's proof data, as the first's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Regions

/-! ## The buffers between the items of the entry function -/

/-- At launch. -/
abbrev W0 : Dev nD → Valuation τ sig (Elt F) := fun c b => (s₀ m ρ).mem ((c : Dev nD), b)
/-- After the first host stretch: what the first launch is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second launch is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second launch: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The two launches' proof data, each at the contents its launch is entered from. -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.KernelIdeal.Hand

end
-- ==== Proof.KI.Frame.lean ====
/-
  The run of the idealized kernel program's entry function through its two launches.

  Each launch is a pipeline over 25 grid points whose body reads three input blocks whole, reads its output
  block (and discards what it read), and overwrites the whole output block with one value computed from the
  three inputs. Two facts about such a body carry the launch: its one store covers the output block, so what the
  block holds afterwards does not depend on what it held before; and an input block is the same in the staging
  buffer whether the pipeline fetched it at this point or left it from the point before, because an unfetched
  window is one whose block index did not move.

  With the body's triple in hand, each launch is a segment between two host stretches; the buffers' contents
  at the four boundaries are those named beside the proof data, and the entry function's run ends with every
  unscoped buffer at the last of them. The nine argument arrays are written by no host operation and by neither
  launch, so reading them back through the four boundaries gives their launch contents.
  Everything is stated at any float family.
-/
import proofs.«403790_j25340307046637_1_alg».proof.Proof.KI.Data
import proofs.«403790_j25340307046637_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## Launch 0 -/

/-- The one store of the body is of the whole output block, so every index of the block lies in it. -/
theorem cover0_3 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
/-- The body on whole staging buffers: the three inputs' read `x0 x1 x2`, the output's holds anything. It reads
    the four, then overwrites the output with the payload of the three inputs; the inputs' buffers are as they
    were, and the output's reads that payload everywhere, whatever it held (the store covers it). -/
theorem sound_kernel0 (c : Dev nD) (E : Set ℕ) (i : grid0.Coords)
    (arg1 : Memref sig .tc .vmem S2000x640 .f32) (harg1 : arg1.IsWhole) (arg2 : Memref sig .tc .vmem S640x128 .f32) (harg2 : arg2.IsWhole)
    (arg3 : Memref sig .tc .vmem S128 .f32) (harg3 : arg3.IsWhole) (arg4 : Memref sig .tc .vmem S2000x128 .f32) (harg4 : arg4.IsWhole)
    (x0 : Vec F S2000x640 .f32) (x1 : Vec F S640x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__lincomb_kernel i arg1 harg1 arg2 harg2 arg3 harg3 arg4 harg4) K := by
  simp only [cc0__lincomb_kernel_eq_skeleton]; unfold cc0__lincomb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- An input window's staging buffer holds the window's block at every point, fetched there or not: where the
    pipeline does not fetch, the block index has not moved since the point before, and the body left the block in
    place. Stated for any proof data over the entry contents `V` whose body leaves the input blocks alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`: the invariant, the core's dues, and the four windows' current staging
    buffers, each at what the pipeline has brought it to; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same, the buffers at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: its input buffers hold the windows' blocks, so the triple above applies at those
    blocks; the invariant and the dues are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on its body, at every point. -/
theorem body_obligation0 (c : Dev nD) : BodyObligation (dat0 (F := F) V c) (defs₀ (F := F)) Variants.none () Set.univ := fun t => by
  rw [bigSep_W0, bigSep_W0]
  exact sound_body0 V c t

/-! ## Launch 1 -/

/-- The one store of the body is of the whole output block, so every index of the block lies in it. -/
theorem cover1_3 (p0 : Vec F S2000x96 .f32) (y : S2000x96.Idx) :
    ∃ pc ∈ ([⟨r1_o, p0⟩] : List (View.Piece (Elt F) S2000x96 .f32)), y ∈ pc.1.set :=
  View.cover_of_tiled [⟨r1_o, p0⟩] S2000x96.size (by rfl) y

set_option maxHeartbeats 1000000 in
/-- The body on whole staging buffers: the three inputs' read `x0 x1 x2`, the output's holds anything. It reads
    the four, then overwrites the output with the payload of the three inputs; the inputs' buffers are as they
    were, and the output's reads that payload everywhere, whatever it held (the store covers it). -/
theorem sound_kernel1 (c : Dev nD) (E : Set ℕ) (i : grid1.Coords)
    (arg1 : Memref sig .tc .vmem S2000x640 .f32) (harg1 : arg1.IsWhole) (arg2 : Memref sig .tc .vmem S640x96 .f32) (harg2 : arg2.IsWhole)
    (arg3 : Memref sig .tc .vmem S96 .f32) (harg3 : arg3.IsWhole) (arg4 : Memref sig .tc .vmem S2000x96 .f32) (harg4 : arg4.IsWhole)
    (x0 : Vec F S2000x640 .f32) (x1 : Vec F S640x96 .f32) (x2 : Vec F S96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__lincomb_kernel i arg1 harg1 arg2 harg2 arg3 harg3 arg4 harg4) K := by
  simp only [cc1__lincomb_kernel_eq_skeleton]; unfold cc1__lincomb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- An input window's staging buffer holds the window's block at every point, fetched there or not: where the
    pipeline does not fetch, the block index has not moved since the point before, and the body left the block in
    place. Stated for any proof data over the entry contents `V` whose body leaves the input blocks alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is handed at point `t`: the invariant, the core's dues, and the four windows' current staging
    buffers, each at what the pipeline has brought it to; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back: the same, the buffers at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: its input buffers hold the windows' blocks, so the triple above applies at those
    blocks; the invariant and the dues are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on its body, at every point. -/
theorem body_obligation1 (c : Dev nD) : BodyObligation (dat1 (F := F) V c) (defs₀ (F := F)) Variants.none () Set.univ := fun t => by
  rw [bigSep_W1, bigSep_W1]
  exact sound_body1 V c t

end Regions

/-! ## The argument arrays at the last boundary

No host operation writes an argument array and neither launch writes one back: a launch either reads it through an
input window, whose array is never written back, or does not name it. So at the last boundary each holds what it
held at launch. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 2).trans (((dat1 (V3 m ρ) c).arrAt_in 2 rfl _).trans (A_eq1 (V3 m ρ) c 2))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The thread state between segments -/

abbrev 𝒱₀ : Variants := Variants.none
/-- No core owes another anything. -/
abbrev L : GSem nD τ sig → Finset Unit := fun _ => ∅
abbrev lv : GSem nD τ sig → Unit → ℕ := fun _ _ => 0
/-- Beside the buffers, a core carries its generator register at some state and owes nothing. -/
abbrev R (c : Dev nD) : sProp 𝕄 := iprop((∃ r, prngReg c r) ∗ ∃ W, owes (c : Thread nD τ) (0 : CellTallies nD τ sig Unit) W)
/-- A host stretch as a segment over the unscoped buffers from contents `W`: it leaves them at what its operations
    compute from `W`, and `R` rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- Launch 0 as a segment of the run, entered with every unscoped buffer at the contents before it and left with
    them at the contents after it. At entry the launch's four arrays are taken out of the unscoped buffers and the
    rest set aside; the generator register goes into the pipeline's invariant and comes back; at exit the arrays,
    at what the write-backs left, rejoin the rest. The kernel has no semaphore of its own and owes nothing. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the run, entered with every unscoped buffer at the contents before it and left with
    them at the contents after it. At entry the launch's four arrays are taken out of the unscoped buffers and the
    rest set aside; the generator register goes into the pipeline's invariant and comes back; at exit the arrays,
    at what the write-backs left, rejoin the rest. The kernel has no semaphore of its own and owes nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the run -/

/-- The entry function's four segments: host stretch, launch, host stretch, launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- The entry function is the run of the segments: both are the chain of the same four items. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()) ] from rfl]
  rfl

set_option maxHeartbeats 1000000 in
set_option backward.isDefEq.respectTransparency.types false in
/-- From any memory with zero counters, every weakly fair run of the entry function terminates without fault, and
    in every final state each unscoped buffer of the core holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) := by
  refine Pipeline.θ_run_regions_kit (pcfgs (F := F)) adm (pdats m ρ) () cellOf_inj emb₁ defs₀ 𝒱₀ L lv m ρ main (segs m ρ)
    (fun c Q => by rewrite [main_run m ρ c]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := ?hinit)
    (QY := fun c s => ∀ b ∈ Pipeline.ucRefs τ sig, s.mem (((c : Thread nD τ)).1, b) = W4 m ρ c b)
    (hfin := fun c s' => ?hfin)
    (hQ := fun s h => h)
  case hu =>
    -- the launch's ghost element is the pipelines' own, and no further resource is dealt per core
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    -- at launch a core holds its unscoped buffers at the launch memory, its generator register, and owes nothing
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case hfin =>
    -- holding every unscoped buffer at the last contents beside a final state says what that state's memory holds
    iintro ⟨⟨Hh, -⟩, HSI⟩
    unfold StableHlo.held
    imodintro
    iapply (pointsTo_read_all (Pipeline.ucRefs τ sig) (fun b => (((c : Thread nD τ)).1, b)) (W4 m ρ c) s')
    isplitl [Hh] <;> iassumption

/-- The same run, read at the second launch's result array and at the nine argument arrays. -/
theorem run_main : θ_run defs (onTc (τ := τ) (main (F := F))) ⟨m, fun _ => 0, ρ⟩ (fun r => ∀ c : Dev nD,
      r.2.mem ((c.tc : Thread nD τ).loc main_v93) = W4 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  OrdCont.mono (θ_run defs (onTc (τ := τ) (main (F := F))) ⟨m, fun _ => 0, ρ⟩) (fun r h c =>
    ⟨h c _ (mem_uc main_v93 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

/-- The frame of the program: it runs to the end, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  OrdCont.mono (θ_run defs (onTc (τ := τ) (main (F := F))) ⟨m, fun _ => 0, ρ⟩) (fun r h c => (h c).2) (run_main m ρ)

end Cert.KernelIdeal.Hand

end
-- ==== Proof.Spec.lean ====
/-
  The two forms of one graph-convolution layer, index by index on the extended reals, and the
  facts that join them.

  Edges `e` carry a message row `msg e` (128 numbers), a destination node `dst e` and a relation type
  `et e`, both integers. For a node `i` and a relation `r` the layer needs the MEAN of the messages
  of the edges with `dst e = i` and `et e = r`: their sum over the larger of their count and one.

  * The kernel's program files every edge under ONE combined id `4 · dst e + et e` and reads
    node `i`, relation `r` at id `4 i + r` (`aggK`). It then contracts the 640 numbers
    `[h i, mean i 0, …, mean i 3]` with the 640 stacked weight rows in ONE sum, and adds the bias.
  * The reference files the edges under `dst e`, once per relation, each message first multiplied
    by 1 where `et e = r` and by 0 elsewhere (`aggR`). It contracts each of the five 128-blocks
    separately and adds the five sums, the bias after the first.

  When `0 ≤ dst e < 50000` and `0 ≤ et e < 4` the combined id determines the pair (division with
  remainder by 4), so the two ways of filing select the same edges; multiplying by 1 keeps a
  message and by 0 removes it; and a sum over 640 = 5 · 128 indices is the five sums over 128,
  added in any order (addition on the extended reals is commutative and associative). No other law
  is used; in particular nothing here needs the numbers to be finite.
-/
import Idealize.ShloMosaic.PureOps.Ideal
import Mathlib.Algebra.BigOperators.Fin
import Mathlib.Algebra.BigOperators.Group.Finset.Basic
import Mathlib.Logic.Equiv.Fin.Basic
import Mathlib.Tactic.Ring
import Mathlib.Tactic.Linarith

noncomputable section

namespace Cert.Spec

open Idealize.ShloMosaic

/-- The sum of the entries `u e` over the edges whose id is `s`. -/
def segSum (id : Fin 600000 → ℤ) (u : Fin 600000 → EReal) (s : ℤ) : EReal :=
  ∑ e ∈ Finset.univ.filter (fun e => id e = s), u e

/-- Kernel form of the mean of node `i`, relation `r`, feature `k`: filed under the combined id `sid`. -/
def aggK (msg : Fin 600000 → Fin 128 → EReal) (sid : Fin 600000 → ℤ) (i : Fin 50000) (r : Fin 4) (k : Fin 128) : EReal :=
  Ideal.div (segSum sid (fun e => msg e k) (4 * (i.val : ℤ) + (r.val : ℤ)))
    (max (segSum sid (fun _ => (1 : EReal)) (4 * (i.val : ℤ) + (r.val : ℤ))) 1)

/-- The reference's 0/1 weight of edge `e` for relation `r`. -/
def mask (et : Fin 600000 → ℤ) (r : Fin 4) (e : Fin 600000) : EReal := if et e = (r.val : ℤ) then 1 else 0

/-- Reference form of the same mean: filed under `dst`, each entry weighted by the relation's 0/1 mask. -/
def aggR (msg : Fin 600000 → Fin 128 → EReal) (dst et : Fin 600000 → ℤ) (i : Fin 50000) (r : Fin 4) (k : Fin 128) : EReal :=
  Ideal.div (segSum dst (fun e => msg e k * mask et r e) (i.val : ℤ))
    (max (segSum dst (fun e => mask et r e) (i.val : ℤ)) 1)

variable {D : ℕ}

/-- The five 128-blocks of the kernel's 640-wide feature row of node `i`: the node's own features, then its
    mean for each relation. -/
def featP (h : Fin 50000 → Fin 128 → EReal) (a : Fin 50000 → Fin 4 → Fin 128 → EReal) (i : Fin 50000) : Fin 5 → Fin 128 → EReal
  | ⟨0, _⟩ => h i
  | ⟨1, _⟩ => a i 0
  | ⟨2, _⟩ => a i 1
  | ⟨3, _⟩ => a i 2
  | _ => a i 3

/-- The five 128-blocks of the stacked 640-row weight array. -/
def wP (wroot : Fin 128 → Fin D → EReal) (wrel : Fin 4 → Fin 128 → Fin D → EReal) : Fin 5 → Fin 128 → Fin D → EReal
  | ⟨0, _⟩ => wroot
  | ⟨1, _⟩ => wrel 0
  | ⟨2, _⟩ => wrel 1
  | ⟨3, _⟩ => wrel 2
  | _ => wrel 3

/-- Kernel form of the layer before its activation: ONE contraction over the 640 stacked indices, index `k'` in
    block `k' / 128` at offset `k' % 128`; then the bias. -/
def layerK (h : Fin 50000 → Fin 128 → EReal) (a : Fin 50000 → Fin 4 → Fin 128 → EReal)
    (wroot : Fin 128 → Fin D → EReal) (wrel : Fin 4 → Fin 128 → Fin D → EReal) (b : Fin D → EReal)
    (i : Fin 50000) (j : Fin D) : EReal :=
  (∑ k' : Fin 640, featP h a i ⟨k'.val / 128, by have := k'.isLt; omega⟩ ⟨k'.val % 128, Nat.mod_lt _ (by decide)⟩
      * wP wroot wrel ⟨k'.val / 128, by have := k'.isLt; omega⟩ ⟨k'.val % 128, Nat.mod_lt _ (by decide)⟩ j) + b j

/-- Reference form of the layer: the node's own features contracted with the root weights, plus the bias, plus each
    relation's mean contracted with that relation's weights, added in that order. -/
def layerR (h : Fin 50000 → Fin 128 → EReal) (a : Fin 50000 → Fin 4 → Fin 128 → EReal)
    (wroot : Fin 128 → Fin D → EReal) (wrel : Fin 4 → Fin 128 → Fin D → EReal) (b : Fin D → EReal)
    (i : Fin 50000) (j : Fin D) : EReal :=
  ((((∑ k : Fin 128, h i k * wroot k j) + b j) + ∑ k : Fin 128, a i 0 k * wrel 0 k j) + ∑ k : Fin 128, a i 1 k * wrel 1 k j)
      + ∑ k : Fin 128, a i 2 k * wrel 2 k j
    + ∑ k : Fin 128, a i 3 k * wrel 3 k j

/-! ## The facts that join the two forms -/

/-- Filing under the combined id selects the edges of node `i`, relation `r`; filing under the destination with the
    relation's 0/1 weight does the same: for in-range destinations and types, `4 · dst e + et e = 4 i + r` exactly when
    `dst e = i` and `et e = r`. -/
theorem segSum_combined (dst et sid : Fin 600000 → ℤ) (u : Fin 600000 → EReal)
    (hsid : ∀ e, sid e = 4 * dst e + et e) (het : ∀ e, 0 ≤ et e ∧ et e < 4)
    (i : Fin 50000) (r : Fin 4) :
    segSum sid u (4 * (i.val : ℤ) + (r.val : ℤ)) = segSum dst (fun e => u e * mask et r e) (i.val : ℤ) := by
  unfold segSum
  rw [Finset.sum_filter, Finset.sum_filter]
  refine Finset.sum_congr rfl fun e _ => ?_
  have hr : (r.val : ℤ) < 4 := by exact_mod_cast r.isLt
  have hr0 : (0 : ℤ) ≤ (r.val : ℤ) := Int.natCast_nonneg _
  obtain ⟨h0, h4⟩ := het e
  unfold mask
  by_cases hd : dst e = (i.val : ℤ)
  · by_cases ht : et e = (r.val : ℤ)
    · rw [if_pos (by rw [hsid, hd, ht]), if_pos hd, if_pos ht, mul_one]
    · rw [if_neg (by rw [hsid, hd]; omega), if_pos hd, if_neg ht, mul_zero]
  · rw [if_neg (by rw [hsid]; omega), if_neg hd]

/-- The two forms of the mean agree. -/
theorem aggK_eq_aggR (msg : Fin 600000 → Fin 128 → EReal) (dst et sid : Fin 600000 → ℤ)
    (hsid : ∀ e, sid e = 4 * dst e + et e) (het : ∀ e, 0 ≤ et e ∧ et e < 4)
    (i : Fin 50000) (r : Fin 4) (k : Fin 128) :
    aggK msg sid i r k = aggR msg dst et i r k := by
  unfold aggK aggR
  rw [segSum_combined dst et sid (fun e => msg e k) hsid het i r,
    segSum_combined dst et sid (fun _ => (1 : EReal)) hsid het i r]
  simp only [one_mul]

/-- A sum over 640 indices, each read as block `k' / 128` and offset `k' % 128`, is the five block sums. -/
theorem sum_640 (g : Fin 5 → Fin 128 → EReal) :
    (∑ k' : Fin 640, g ⟨k'.val / 128, by have := k'.isLt; omega⟩ ⟨k'.val % 128, Nat.mod_lt _ (by decide)⟩)
      = ∑ p : Fin 5, ∑ k : Fin 128, g p k := by
  rw [← Fintype.sum_prod_type']
  refine Fintype.sum_equiv (finProdFinEquiv (m := 5) (n := 128)).symm _ _ fun k' => ?_
  rfl

/-- The two forms of the layer agree (the same means on both sides). -/
theorem layerK_eq_layerR (h : Fin 50000 → Fin 128 → EReal) (a : Fin 50000 → Fin 4 → Fin 128 → EReal)
    (wroot : Fin 128 → Fin D → EReal) (wrel : Fin 4 → Fin 128 → Fin D → EReal) (b : Fin D → EReal)
    (i : Fin 50000) (j : Fin D) :
    layerK h a wroot wrel b i j = layerR h a wroot wrel b i j := by
  unfold layerK layerR
  rw [sum_640 (fun p k => featP h a i p k * wP wroot wrel p k j), Fin.sum_univ_five]
  show ((∑ k : Fin 128, h i k * wroot k j) + (∑ k : Fin 128, a i 0 k * wrel 0 k j) + (∑ k : Fin 128, a i 1 k * wrel 1 k j)
      + (∑ k : Fin 128, a i 2 k * wrel 2 k j) + (∑ k : Fin 128, a i 3 k * wrel 3 k j)) + b j = _
  ac_rfl

end Cert.Spec

end
-- ==== Proof.LibScatterAt.lean ====
/-
  A host scatter that ADDS rows into an array, read at an index, on the extended reals.

  The operand has `n` rows; update `e` (of `ne`) carries one signed integer id `idx e` and one row (or one
  number). The update lands on row `idx e` when `0 ≤ idx e < n` and is dropped otherwise; the id is read
  signed and is not clamped. So entry `(p, q)` of the result is the operand's entry plus the sum, over the
  updates whose id is exactly `p`, of their entry `q` — one sum, in whatever order, since the extended
  reals' addition is commutative and associative.
-/
import Idealize.ShloMosaic.PureOps.Ideal
import Idealize.ShloMosaic.Lib.ValueIdx

noncomputable section

namespace Idealize.ShloMosaic.ScatterAt

open Idealize.ShloMosaic Idealize.ShloMosaic.ValueIdx

/-- For any scatter's dimension numbers: update `j` lands exactly on operand index `i` when, on every operand
    axis, the signed start plus the window coordinate IS `i`'s coordinate. (Being inside the operand on every axis
    is then automatic, `i`'s coordinates being in range; and when some axis falls outside, no `i` is hit.) -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro heq a
      have hf := congrFun (Option.some.inj heq) a
      have := h a
      have hv := congrArg Fin.val hf
      simp only at hv
      omega
    · intro hall
      congr 1
      funext a
      refine Fin.ext ?_
      have := hall a
      have := h a
      simp only
      omega
  · constructor
    · intro heq; cases heq
    · intro hall
      exfalso; apply h; intro a
      rw [hall a]
      exact ⟨Int.natCast_nonneg _, by exact_mod_cast (i a).isLt⟩

/-! ## Rows into a rank-2 array -/

/-- The row scatter's start and window, axis by axis, for update `(e, q')`: on the row axis the start is update
    `e`'s id, read signed, and the window coordinate is `0` (the axis is inserted); on the column axis the start
    is `0` (no id names it) and the window coordinate is `q'`. -/
theorem rows_start_window {n ne k w : ℕ}
    (d : ScatterDims (⟨2, ![n, k]⟩ : Shape) (⟨2, ![ne, 1]⟩ : Shape) (⟨2, ![ne, k]⟩ : Shape))
    (huw : d.updateWindowDims = [1]) (hiw : d.insertedWindowDims = [0])
    (hsd : d.scatterDimsToOperandDims = [0]) (hiv : d.indexVectorDim = 1)
    (idx : IVec (⟨2, ![ne, 1]⟩ : Shape) w) (e : Fin ne) (q' : Fin k) :
    d.start (ix2 e q') idx 0 = (idx (ix2 e 0)).toInt ∧ d.start (ix2 e q') idx 1 = 0
      ∧ d.window (ix2 e q') 0 = 0 ∧ d.window (ix2 e q') 1 = q'.val := by
  obtain ⟨uw, iw, sd, iv, wf⟩ := d
  simp only at huw hiw hsd hiv
  subst huw hiw hsd hiv
  refine ⟨?_, ?_, ?_, ?_⟩
  · -- the id is read at the update's scatter coordinate `e`, component `0` of the index vector
    unfold ScatterDims.start
    rw [dif_pos (List.mem_singleton.mpr rfl)]
    congr 2
    funext b
    refine Fin.ext ?_
    match b with
    | ⟨0, _⟩ => rfl
    | ⟨1, _⟩ => rfl
  · have h1 : ¬ ((1 : Fin 2) ∈ ([0] : List (Fin 2))) := by decide
    exact dif_neg h1
  · -- the operand's kept axes are `[1]`: axis `0` is not among them
    have h0 : ¬ ((0 : Fin 2) ∈ (List.finRange 2).filter (fun a => a ∉ ([0] : List (Fin 2)))) := by decide
    exact dif_neg h0
  · have h1 : (1 : Fin 2) ∈ (List.finRange 2).filter (fun a => a ∉ ([0] : List (Fin 2))) := by decide
    exact (dif_pos h1).trans rfl

/-- Update `(e, q')` of the row scatter lands on entry `(p, q)` exactly when update `e`'s id, read signed, is
    `p` and the column is the same. -/
theorem rows_resultIdx?_iff {n ne k w : ℕ}
    (d : ScatterDims (⟨2, ![n, k]⟩ : Shape) (⟨2, ![ne, 1]⟩ : Shape) (⟨2, ![ne, k]⟩ : Shape))
    (huw : d.updateWindowDims = [1]) (hiw : d.insertedWindowDims = [0])
    (hsd : d.scatterDimsToOperandDims = [0]) (hiv : d.indexVectorDim = 1)
    (idx : IVec (⟨2, ![ne, 1]⟩ : Shape) w) (e : Fin ne) (q' : Fin k) (p : Fin n) (q : Fin k) :
    d.resultIdx? (ix2 e q') idx = some (ix2 p q) ↔ (idx (ix2 e 0)).toInt = (p.val : ℤ) ∧ q' = q := by
  rw [resultIdx?_eq_some_iff]
  obtain ⟨h0, h1, h2, h3⟩ := rows_start_window d huw hiw hsd hiv idx e q'
  constructor
  · intro h
    have a0 := h 0
    have a1 := h 1
    rw [h0, h2] at a0
    rw [h1, h3] at a1
    change (idx (ix2 e 0)).toInt + ((0 : ℕ) : ℤ) = ((p.val : ℕ) : ℤ) at a0
    change (0 : ℤ) + ((q'.val : ℕ) : ℤ) = ((q.val : ℕ) : ℤ) at a1
    exact ⟨by omega, Fin.ext (by omega)⟩
  · rintro ⟨hp, rfl⟩ a
    match a with
    | ⟨0, _⟩ =>
      show d.start (ix2 e q') idx 0 + (d.window (ix2 e q') 0 : ℤ) = _
      rw [h0, h2]; simpa using hp
    | ⟨1, _⟩ =>
      show d.start (ix2 e q') idx 1 + (d.window (ix2 e q') 1 : ℤ) = _
      rw [h1, h3]; simp

/-- Rows of width `k` added into an `n × k` array under ids held in an `ne × 1` array: entry `(p, q)`. -/
theorem hostScatterAdd_rows_apply {n ne k w : ℕ}
    (d : ScatterDims (⟨2, ![n, k]⟩ : Shape) (⟨2, ![ne, 1]⟩ : Shape) (⟨2, ![ne, k]⟩ : Shape))
    (huw : d.updateWindowDims = [1]) (hiw : d.insertedWindowDims = [0])
    (hsd : d.scatterDimsToOperandDims = [0]) (hiv : d.indexVectorDim = 1)
    (x : (⟨2, ![n, k]⟩ : Shape).Idx → EReal) (idx : IVec (⟨2, ![ne, 1]⟩ : Shape) w)
    (upd : (⟨2, ![ne, k]⟩ : Shape).Idx → EReal) (p : Fin n) (q : Fin k) :
    Ideal.hostScatterAdd d x idx upd (ix2 p q)
      = x (ix2 p q) + ∑ e ∈ Finset.univ.filter (fun e : Fin ne => (idx (ix2 e 0)).toInt = (p.val : ℤ)), upd (ix2 e q) := by
  unfold Ideal.hostScatterAdd
  congr 1
  -- both sums as sums of an `if` over everything; the left one over pairs `(e, q')`, of which only `q' = q` counts
  rw [Finset.sum_filter, Finset.sum_filter, sum_idx2]
  refine Finset.sum_congr rfl fun e _ => ?_
  simp only [rows_resultIdx?_iff d huw hiw hsd hiv idx]
  by_cases he : (idx (ix2 e 0)).toInt = (p.val : ℤ)
  · simp [he]
  · simp [he]

/-! ## Numbers into a rank-1 array -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The vector scatter's start and window on the operand's one axis, for update `e`: the start is update `e`'s
    id, read signed; the window coordinate is `0` (the axis is inserted, the updates have no window axis). -/
theorem vec_start_window {n ne w : ℕ}
    (d : ScatterDims (⟨1, ![n]⟩ : Shape) (⟨2, ![ne, 1]⟩ : Shape) (⟨1, ![ne]⟩ : Shape))
    (huw : d.updateWindowDims = []) (hiw : d.insertedWindowDims = [0])
    (hsd : d.scatterDimsToOperandDims = [0]) (hiv : d.indexVectorDim = 1)
    (idx : IVec (⟨2, ![ne, 1]⟩ : Shape) w) (e : Fin ne) :
    d.start (ix1 e) idx 0 = (idx (ix2 e 0)).toInt ∧ d.window (ix1 e) 0 = 0 := by
  obtain ⟨uw, iw, sd, iv, wf⟩ := d
  simp only at huw hiw hsd hiv
  subst huw hiw hsd hiv
  refine ⟨?_, ?_⟩
  · unfold ScatterDims.start
    rw [dif_pos (List.mem_singleton.mpr rfl)]
    congr 2
    funext b
    refine Fin.ext ?_
    match b with
    | ⟨0, _⟩ => rfl
    | ⟨1, _⟩ => rfl
  · -- the operand has no kept axis at all
    have h0 : ¬ ((0 : Fin 1) ∈ (List.finRange 1).filter (fun a => a ∉ ([0] : List (Fin 1)))) := by decide
    exact dif_neg h0

/-- Update `e` of the vector scatter lands on entry `p` exactly when its id, read signed, is `p`. -/
theorem vec_resultIdx?_iff {n ne w : ℕ}
    (d : ScatterDims (⟨1, ![n]⟩ : Shape) (⟨2, ![ne, 1]⟩ : Shape) (⟨1, ![ne]⟩ : Shape))
    (huw : d.updateWindowDims = []) (hiw : d.insertedWindowDims = [0])
    (hsd : d.scatterDimsToOperandDims = [0]) (hiv : d.indexVectorDim = 1)
    (idx : IVec (⟨2, ![ne, 1]⟩ : Shape) w) (e : Fin ne) (p : Fin n) :
    d.resultIdx? (ix1 e) idx = some (ix1 p) ↔ (idx (ix2 e 0)).toInt = (p.val : ℤ) := by
  rw [resultIdx?_eq_some_iff]
  obtain ⟨h0, h2⟩ := vec_start_window d huw hiw hsd hiv idx e
  constructor
  · intro h
    have a0 := h 0
    rw [h0, h2] at a0
    change (idx (ix2 e 0)).toInt + ((0 : ℕ) : ℤ) = ((p.val : ℕ) : ℤ) at a0
    omega
  · intro hp a
    match a with
    | ⟨0, _⟩ =>
      show d.start (ix1 e) idx 0 + (d.window (ix1 e) 0 : ℤ) = _
      rw [h0, h2]; simpa using hp

/-- Numbers added into a length-`n` array under ids held in an `ne × 1` array: entry `p`. -/
theorem hostScatterAdd_vec_apply {n ne w : ℕ}
    (d : ScatterDims (⟨1, ![n]⟩ : Shape) (⟨2, ![ne, 1]⟩ : Shape) (⟨1, ![ne]⟩ : Shape))
    (huw : d.updateWindowDims = []) (hiw : d.insertedWindowDims = [0])
    (hsd : d.scatterDimsToOperandDims = [0]) (hiv : d.indexVectorDim = 1)
    (x : (⟨1, ![n]⟩ : Shape).Idx → EReal) (idx : IVec (⟨2, ![ne, 1]⟩ : Shape) w)
    (upd : (⟨1, ![ne]⟩ : Shape).Idx → EReal) (p : Fin n) :
    Ideal.hostScatterAdd d x idx upd (ix1 p)
      = x (ix1 p) + ∑ e ∈ Finset.univ.filter (fun e : Fin ne => (idx (ix2 e 0)).toInt = (p.val : ℤ)), upd (ix1 e) := by
  unfold Ideal.hostScatterAdd
  congr 1
  rw [Finset.sum_filter, Finset.sum_filter, sum_idx1]
  refine Finset.sum_congr rfl fun e _ => ?_
  simp only [vec_resultIdx?_iff d huw hiw hsd hiv idx]

end Idealize.ShloMosaic.ScatterAt

end
-- ==== Proof.Ref.Value.lean ====
/-
  The reference program's result, read at an index.

  The program computes two graph-convolution layers. Each layer gathers one message row per edge from its input,
  multiplies the root weights into the input and adds the bias, and then, for each of the four relations in turn: weighs
  every message by 1 where the edge has that relation and 0 elsewhere, adds the weighted rows up per destination
  node, counts the edges of that relation per destination node, divides the row sum by the larger of the count and
  one, contracts the quotient with that relation's weights and adds the result on. Between the layers negative
  entries are replaced by zero.

  Read at node p and output feature j this is, layer by layer, the reference form of the layer in the
  specification: five contractions over the 128 input features, added in the program's order. The steps are
  elementwise operations, broadcasts of a scalar, of a vector along a new unit axis and of a column along the rows,
  slices and reshapes of the stacked weights (entry (k, j) of slice r is entry (r, k, j) of the stack, because
  k · width + j has quotient k and remainder j), a contraction (a sum over the shared index) and the two scatters (a
  sum over the edges whose destination word reads p). The gather and its index words are never opened: the gathered
  rows stay one term, the same function of the layer's input in both layers.
-/
import proofs.«403790_j25340307046637_1_alg».proof.Proof.Gen.ReferenceIdeal.Run
import proofs.«403790_j25340307046637_1_alg».proof.Proof.Gen.ReferenceIdeal.Read
import proofs.«403790_j25340307046637_1_alg».proof.Proof.Spec
import proofs.«403790_j25340307046637_1_alg».proof.Proof.LibScatterAt
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The edge types as integers, and the 0/1 weight of a relation -/

/-- The signed value of each edge's type word. -/
def etR (et : IVec S600000 32) : Fin 600000 → ℤ := fun e => (et (ix1 e)).toInt

/-- Two 32-bit words compared for equality, the one-bit answer read as a number: one when their signed values agree,
    zero otherwise (a word is determined by its signed value). -/
theorem mask_word (a c : BitVec 32) :
    (FloatOps.uitofp (F := Ideal) .f32 (IntOp.cmpi .eq a c) : EReal) = if a.toInt = c.toInt then 1 else 0 := by
  show (((BitVec.ofBool (a == c)).toNat : ℝ) : EReal) = _
  by_cases h : a = c
  · subst h
    rw [if_pos rfl, beq_self_eq_true]
    simp
  · have hb : (a == c) = false := by simpa using h
    rw [hb, if_neg (fun hh => h (BitVec.eq_of_toInt_eq hh))]
    simp

/-! ## The layout steps of one relation's mean, each read at an index -/

section Layout
variable {α : Type}

theorem bc_col_node (y : S50000x1.Idx → α) (p : Fin 50000) (k : Fin 128) :
    broadcastInDim S50000x128 ![0, 1] bcast_S50000x1_S50000x128_0_1 y (ix2 p k) = y (ix2 p 0) :=
  broadcastInDim_apply _ bcast_S50000x1_S50000x128_0_1 y (ix2 p k) (ix2 p 0) (fun a => match a with
    | ⟨0, _⟩ => by show p.val = if (50000 : Nat) = 1 then 0 else p.val; rw [if_neg (by decide)]
    | ⟨1, _⟩ => by show 0 = if (1 : Nat) = 1 then 0 else k.val; rw [if_pos rfl])

theorem bc_unit_node (y : S50000.Idx → α) (p : Fin 50000) :
    broadcastInDim S50000x1 ![0] bcast_S50000_S50000x1_0 y (ix2 p 0) = y (ix1 p) :=
  broadcastInDim_apply _ bcast_S50000_S50000x1_0 y (ix2 p 0) (ix1 p) (fun a => match a with
    | ⟨0, _⟩ => by show p.val = if (50000 : Nat) = 1 then 0 else p.val; rw [if_neg (by decide)])

theorem bc_unit_edge (y : S600000.Idx → α) (e : Fin 600000) :
    broadcastInDim S600000x1 ![0] bcast_S600000_S600000x1_0 y (ix2 e 0) = y (ix1 e) :=
  broadcastInDim_apply _ bcast_S600000_S600000x1_0 y (ix2 e 0) (ix1 e) (fun a => match a with
    | ⟨0, _⟩ => by show e.val = if (600000 : Nat) = 1 then 0 else e.val; rw [if_neg (by decide)])

theorem bc_col_edge (y : S600000x1.Idx → α) (e : Fin 600000) (k : Fin 128) :
    broadcastInDim S600000x128 ![0, 1] bcast_S600000x1_S600000x128_0_1 y (ix2 e k) = y (ix2 e 0) :=
  broadcastInDim_apply _ bcast_S600000x1_S600000x128_0_1 y (ix2 e k) (ix2 e 0) (fun a => match a with
    | ⟨0, _⟩ => by show e.val = if (600000 : Nat) = 1 then 0 else e.val; rw [if_neg (by decide)]
    | ⟨1, _⟩ => by show 0 = if (1 : Nat) = 1 then 0 else k.val; rw [if_pos rfl])

end Layout

/-! ## The two accumulating scatters, read at an index as a sum over the edges filed under that index -/

/-- Rows added into a zero 50000 × 128 array: entry (p, q) is the sum of entry q of the rows whose id is p. -/
theorem scatter_rows_spec (z : FVec Ideal S50000x128 .f32) (idx : IVec S600000x1 32) (upd : FVec Ideal S600000x128 .f32)
    (dst : Fin 600000 → ℤ) (u : Fin 600000 → Fin 128 → EReal)
    (hz : ∀ p q, z (ix2 p q) = 0) (hi : ∀ e, (idx (ix2 e 0)).toInt = dst e) (hu : ∀ e q, upd (ix2 e q) = u e q)
    (p : Fin 50000) (q : Fin 128) :
    Host.scatterAdd (F := Ideal) scatter_S50000x128_S600000x1_S600000x128_1_0_0_1 z idx upd (ix2 p q)
      = Cert.Spec.segSum dst (fun e => u e q) (p.val : ℤ) := by
  refine (Idealize.ShloMosaic.ScatterAt.hostScatterAdd_rows_apply scatter_S50000x128_S600000x1_S600000x128_1_0_0_1
    rfl rfl rfl rfl z idx upd p q).trans ?_
  rw [hz, zero_add]
  unfold Cert.Spec.segSum
  exact Finset.sum_congr (Finset.filter_congr fun e _ => by rw [hi]) fun e _ => hu e q

/-- Numbers added into a zero array of length 50000: entry p is the sum of the numbers whose id is p. -/
theorem scatter_vec_spec (z : FVec Ideal S50000 .f32) (idx : IVec S600000x1 32) (upd : FVec Ideal S600000 .f32)
    (dst : Fin 600000 → ℤ) (u : Fin 600000 → EReal)
    (hz : ∀ p, z (ix1 p) = 0) (hi : ∀ e, (idx (ix2 e 0)).toInt = dst e) (hu : ∀ e, upd (ix1 e) = u e)
    (p : Fin 50000) :
    Host.scatterAdd (F := Ideal) scatter_S50000_S600000x1_S600000_n_0_0_1 z idx upd (ix1 p)
      = Cert.Spec.segSum dst u (p.val : ℤ) := by
  refine (Idealize.ShloMosaic.ScatterAt.hostScatterAdd_vec_apply scatter_S50000_S600000x1_S600000_n_0_0_1
    rfl rfl rfl rfl z idx upd p).trans ?_
  rw [hz, zero_add]
  unfold Cert.Spec.segSum
  exact Finset.sum_congr (Finset.filter_congr fun e _ => by rw [hi]) fun e _ => hu e

/-! ## One relation's mean -/

/-- The 0/1 weights of one relation as the program builds them: the edge types compared with the constant word c. -/
def relMask (et : IVec S600000 32) (c : BitVec 32) : FVec Ideal S600000 .f32 :=
  uitofp (F := Ideal) .f32 (cmpi .eq et (broadcastInDim S600000 ![] bcast_S_S600000 (constantI S_ 32 c)))

/-- When the word c reads o, the weight of edge e is the specification's mask of relation o. -/
theorem relMask_spec (et : IVec S600000 32) (c : BitVec 32) (o : ℕ) (ho : o < 4) (hc : c.toInt = (o : ℤ))
    (e : Fin 600000) : relMask et c (ix1 e) = Cert.Spec.mask (etR et) ⟨o, ho⟩ e := by
  show FloatOps.uitofp (F := Ideal) .f32 (IntOp.cmpi .eq (et (ix1 e))
    (broadcastInDim S600000 ![] bcast_S_S600000 (constantI S_ 32 c) (ix1 e))) = _
  rw [broadcastInDim_scalar_apply]
  refine (mask_word _ _).trans ?_
  unfold Cert.Spec.mask etR
  rw [show constantI S_ 32 c ix0 = c from rfl, hc]

/-- One relation's per-node mean as the program composes it from the gathered messages, the destination words and
    the edge types: the masked messages added up per destination, over the larger of the per-destination count and
    one. -/
def relMean (msg : FVec Ideal S600000x128 .f32) (dstv et : IVec S600000 32) (c : BitVec 32) : FVec Ideal S50000x128 .f32 :=
  Host.divf (F := Ideal)
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 dstv)
      (mulf msg (broadcastInDim S600000x128 ![0, 1] bcast_S600000x1_S600000x128_0_1
        (broadcastInDim S600000x1 ![0] bcast_S600000_S600000x1_0 (relMask et c)))))
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant (F := Ideal) S_ .f32 0x00000000#32))
            (broadcastInDim S600000x1 ![0] bcast_S600000_S600000x1_0 dstv)
            (relMask et c))
          (broadcastInDim S50000 ![] bcast_S_S50000 (constant (F := Ideal) S_ .f32 0x3F800000#32)))))

/-- The mean at node p, feature k is the specification's reference form of it, for whatever the message rows and the
    destination words read as. -/
theorem relMean_spec (msg : FVec Ideal S600000x128 .f32) (dstv et : IVec S600000 32) (c : BitVec 32)
    (o : ℕ) (ho : o < 4) (hc : c.toInt = (o : ℤ))
    (m : Fin 600000 → Fin 128 → EReal) (dst : Fin 600000 → ℤ)
    (hm : ∀ e k, msg (ix2 e k) = m e k) (hd : ∀ e, (dstv (ix1 e)).toInt = dst e) (p : Fin 50000) (k : Fin 128) :
    relMean msg dstv et c (ix2 p k) = Cert.Spec.aggR m dst (etR et) p ⟨o, ho⟩ k := by
  unfold relMean Cert.Spec.aggR
  rewrite [hostDivf_apply, bc_col_node, bc_unit_node, maximumf_apply, broadcastInDim_scalar_apply, constant_apply,
    Ideal.ofBits_one_f32]
  refine congrArg₂ Ideal.div ?_ (congrArg (fun t => max t 1) ?_)
  · exact scatter_rows_spec _ _ _ dst (fun e q => m e q * Cert.Spec.mask (etR et) ⟨o, ho⟩ e)
      (fun p q => by rw [broadcastInDim_scalar_apply, constant_apply, Ideal.ofBits_zero_f32])
      (fun e => by rw [bc_unit_edge, hd])
      (fun e q => by rw [mulf_apply, bc_col_edge, bc_unit_edge, hm, relMask_spec et c o ho hc]) p k
  · exact scatter_vec_spec _ _ _ dst (Cert.Spec.mask (etR et) ⟨o, ho⟩)
      (fun p => by rw [broadcastInDim_scalar_apply, constant_apply, Ideal.ofBits_zero_f32])
      (fun e => by rw [bc_unit_edge, hd])
      (fun e => relMask_spec et c o ho hc e) p

/-! ## Contractions, weight slices and the bias, read at an index -/

/-- Node rows contracted with a 128 × 128 weight array: the sum over the shared feature index. -/
theorem dot128_read (A : FVec Ideal S50000x128 .f32) (W : FVec Ideal S128x128 .f32) (p : Fin 50000) (j : Fin 128) :
    Host.dotGeneral (F := Ideal) dot_S50000x128_S128x128_S50000x128_1_0_0_1_n_n none A W (ix2 p j)
      = ∑ k : Fin 128, A (ix2 p k) * W (ix2 k j) := by
  refine (Read.val_main_v11_apply A W (ix2 p j)).trans (Finset.sum_congr rfl fun k _ => ?_)
  have hl : Read.lidx_main_v11 (ix2 p j) k = ix2 p k :=
    funext fun a => Fin.ext (by match a with | ⟨0, _⟩ => rfl | ⟨1, _⟩ => rfl)
  have hr : Read.ridx_main_v11 (ix2 p j) k = ix2 k j :=
    funext fun a => Fin.ext (by match a with | ⟨0, _⟩ => rfl | ⟨1, _⟩ => rfl)
  rw [hl, hr]

/-- Node rows contracted with a 128 × 96 weight array: the same sum. The contraction's one index is re-indexed by
    the numbers below 128, and each operand's index is read off axis by axis. -/
theorem dot96_read (A : FVec Ideal S50000x128 .f32) (W : FVec Ideal S128x96 .f32) (p : Fin 50000) (j : Fin 96) :
    Host.dotGeneral (F := Ideal) dot_S50000x128_S128x96_S50000x96_1_0_0_1_n_n none A W (ix2 p j)
      = ∑ k : Fin 128, A (ix2 p k) * W (ix2 k j) := by
  simp only [Host.dotGeneral]
  rw [Ideal.dotGeneral_apply,
    ← Equiv.sum_comp (ValueIdx.contrEquiv1 dot_S50000x128_S128x96_S50000x96_1_0_0_1_n_n 128 rfl rfl).symm]
  refine Finset.sum_congr rfl fun k _ => ?_
  have hk := ValueIdx.contrEquiv1_symm_val dot_S50000x128_S128x96_S50000x96_1_0_0_1_n_n 128 rfl rfl k
  have el : dot_S50000x128_S128x96_S50000x96_1_0_0_1_n_n.lhsIdx (ix2 p j)
      ((ValueIdx.contrEquiv1 dot_S50000x128_S128x96_S50000x96_1_0_0_1_n_n 128 rfl rfl).symm k) = ix2 p k :=
    funext fun a => Fin.ext (by
      match a with
      | ⟨0, _⟩ => exact Read.lhs_main_v111_0 _ _
      | ⟨1, _⟩ => exact (Read.lhs_main_v111_1 _ _).trans hk)
  have er : dot_S50000x128_S128x96_S50000x96_1_0_0_1_n_n.rhsIdx (ix2 p j)
      ((ValueIdx.contrEquiv1 dot_S50000x128_S128x96_S50000x96_1_0_0_1_n_n 128 rfl rfl).symm k) = ix2 k j :=
    funext fun a => Fin.ext (by
      match a with
      | ⟨0, _⟩ => exact (Read.rhs_main_v111_0 _ _).trans hk
      | ⟨1, _⟩ => exact Read.rhs_main_v111_1 _ _)
  rw [el, er]

/-- Slice o of the stacked 4 × 128 × 128 weights, reshaped to 128 × 128: entry (k, j) is entry (o, k, j) of the stack. -/
theorem wslice128_read (w : FVec Ideal S4x128x128 .f32) (o : ℕ) (ho : o < 4)
    (hs : S4x128x128.Slices ![o, 0, 0] S1x128x128) (k j : Fin 128) :
    shapeCast S128x128 (extractStridedSlice S1x128x128 ![o, 0, 0] w hs) shapeCasts_S1x128x128_S128x128 (ix2 k j)
      = w (ix3 ⟨o, ho⟩ k j) := by
  have hk := k.isLt
  have hj := j.isLt
  refine (shapeCast_apply _ shapeCasts_S1x128x128_S128x128 (ix2 k j) (ix3 0 k j) (by
    rewrite [Shape.rowMajor_val_three, Shape.rowMajor_val_two]
    show (0 * 128 + k.val) * 128 + j.val = k.val * 128 + j.val
    omega)).trans ?_
  exact extractStridedSlice_apply ![o, 0, 0] w hs (ix3 0 k j) (ix3 ⟨o, ho⟩ k j) (fun a => match a with
    | ⟨0, _⟩ => by show o = o + 0; omega
    | ⟨1, _⟩ => by show k.val = 0 + k.val; omega
    | ⟨2, _⟩ => by show j.val = 0 + j.val; omega)

/-- The same for the stacked 4 × 128 × 96 weights. -/
theorem wslice96_read (w : FVec Ideal S4x128x96 .f32) (o : ℕ) (ho : o < 4)
    (hs : S4x128x96.Slices ![o, 0, 0] S1x128x96) (k : Fin 128) (j : Fin 96) :
    shapeCast S128x96 (extractStridedSlice S1x128x96 ![o, 0, 0] w hs) shapeCasts_S1x128x96_S128x96 (ix2 k j)
      = w (ix3 ⟨o, ho⟩ k j) := by
  have hk := k.isLt
  have hj := j.isLt
  refine (shapeCast_apply _ shapeCasts_S1x128x96_S128x96 (ix2 k j) (ix3 0 k j) (by
    rewrite [Shape.rowMajor_val_three, Shape.rowMajor_val_two]
    show (0 * 128 + k.val) * 96 + j.val = k.val * 96 + j.val
    omega)).trans ?_
  exact extractStridedSlice_apply ![o, 0, 0] w hs (ix3 0 k j) (ix3 ⟨o, ho⟩ k j) (fun a => match a with
    | ⟨0, _⟩ => by show o = o + 0; omega
    | ⟨1, _⟩ => by show k.val = 0 + k.val; omega
    | ⟨2, _⟩ => by show j.val = 0 + j.val; omega)

/-- The bias broadcast along the rows: entry (p, j) is entry j of the bias. -/
theorem bias128_read (b : FVec Ideal S128 .f32) (p : Fin 50000) (j : Fin 128) :
    broadcastInDim S50000x128 ![0, 1] bcast_S1x128_S50000x128_0_1
        (broadcastInDim S1x128 ![1] bcast_S128_S1x128_1 b) (ix2 p j) = b (ix1 j) := by
  refine (broadcastInDim_apply _ bcast_S1x128_S50000x128_0_1 _ (ix2 p j) (ix2 0 j) (fun a => match a with
    | ⟨0, _⟩ => by show 0 = if (1 : Nat) = 1 then 0 else p.val; rw [if_pos rfl]
    | ⟨1, _⟩ => by show j.val = if (128 : Nat) = 1 then 0 else j.val; rw [if_neg (by decide)])).trans ?_
  exact broadcastInDim_apply _ bcast_S128_S1x128_1 b (ix2 0 j) (ix1 j) (fun a => match a with
    | ⟨0, _⟩ => by show j.val = if (128 : Nat) = 1 then 0 else j.val; rw [if_neg (by decide)])

theorem bias96_read (b : FVec Ideal S96 .f32) (p : Fin 50000) (j : Fin 96) :
    broadcastInDim S50000x96 ![0, 1] bcast_S1x96_S50000x96_0_1
        (broadcastInDim S1x96 ![1] bcast_S96_S1x96_1 b) (ix2 p j) = b (ix1 j) := by
  refine (broadcastInDim_apply _ bcast_S1x96_S50000x96_0_1 _ (ix2 p j) (ix2 0 j) (fun a => match a with
    | ⟨0, _⟩ => by show 0 = if (1 : Nat) = 1 then 0 else p.val; rw [if_pos rfl]
    | ⟨1, _⟩ => by show j.val = if (96 : Nat) = 1 then 0 else j.val; rw [if_neg (by decide)])).trans ?_
  exact broadcastInDim_apply _ bcast_S96_S1x96_1 b (ix2 0 j) (ix1 j) (fun a => match a with
    | ⟨0, _⟩ => by show j.val = if (96 : Nat) = 1 then 0 else j.val; rw [if_neg (by decide)])

/-- One relation's term of the first layer: its mean contracted with its slice of the stacked weights. -/
theorem rel128_read (msg : FVec Ideal S600000x128 .f32) (dstv et : IVec S600000 32) (c : BitVec 32)
    (o : ℕ) (ho : o < 4) (hc : c.toInt = (o : ℤ))
    (m : Fin 600000 → Fin 128 → EReal) (dst : Fin 600000 → ℤ)
    (hm : ∀ e k, msg (ix2 e k) = m e k) (hd : ∀ e, (dstv (ix1 e)).toInt = dst e)
    (w : FVec Ideal S4x128x128 .f32) (hs : S4x128x128.Slices ![o, 0, 0] S1x128x128) (p : Fin 50000) (j : Fin 128) :
    Host.dotGeneral (F := Ideal) dot_S50000x128_S128x128_S50000x128_1_0_0_1_n_n none (relMean msg dstv et c)
        (shapeCast S128x128 (extractStridedSlice S1x128x128 ![o, 0, 0] w hs) shapeCasts_S1x128x128_S128x128) (ix2 p j)
      = ∑ k : Fin 128, Cert.Spec.aggR m dst (etR et) p ⟨o, ho⟩ k * w (ix3 ⟨o, ho⟩ k j) := by
  rw [dot128_read]
  exact Finset.sum_congr rfl fun k _ => by
    rw [relMean_spec msg dstv et c o ho hc m dst hm hd, wslice128_read w o ho hs]

/-- One relation's term of the second layer. -/
theorem rel96_read (msg : FVec Ideal S600000x128 .f32) (dstv et : IVec S600000 32) (c : BitVec 32)
    (o : ℕ) (ho : o < 4) (hc : c.toInt = (o : ℤ))
    (m : Fin 600000 → Fin 128 → EReal) (dst : Fin 600000 → ℤ)
    (hm : ∀ e k, msg (ix2 e k) = m e k) (hd : ∀ e, (dstv (ix1 e)).toInt = dst e)
    (w : FVec Ideal S4x128x96 .f32) (hs : S4x128x96.Slices ![o, 0, 0] S1x128x96) (p : Fin 50000) (j : Fin 96) :
    Host.dotGeneral (F := Ideal) dot_S50000x128_S128x96_S50000x96_1_0_0_1_n_n none (relMean msg dstv et c)
        (shapeCast S128x96 (extractStridedSlice S1x128x96 ![o, 0, 0] w hs) shapeCasts_S1x128x96_S128x96) (ix2 p j)
      = ∑ k : Fin 128, Cert.Spec.aggR m dst (etR et) p ⟨o, ho⟩ k * w (ix3 ⟨o, ho⟩ k j) := by
  rw [dot96_read]
  exact Finset.sum_congr rfl fun k _ => by
    rw [relMean_spec msg dstv et c o ho hc m dst hm hd, wslice96_read w o ho hs]

/-! ## One layer, as the program composes it -/

/-- The first layer before its activation, as the program composes it from its input h, the gathered messages,
    the destination words, the edge types, the root weights, the stacked relation weights and the bias. -/
def layer128 (h : FVec Ideal S50000x128 .f32) (msg : FVec Ideal S600000x128 .f32) (dstv et : IVec S600000 32)
    (wr : FVec Ideal S128x128 .f32) (wl : FVec Ideal S4x128x128 .f32) (b : FVec Ideal S128 .f32) :
    FVec Ideal S50000x128 .f32 :=
  addf (addf (addf (addf
    (addf (Host.dotGeneral (F := Ideal) dot_S50000x128_S128x128_S50000x128_1_0_0_1_n_n none h wr)
      (broadcastInDim S50000x128 ![0, 1] bcast_S1x128_S50000x128_0_1 (broadcastInDim S1x128 ![1] bcast_S128_S1x128_1 b)))
    (Host.dotGeneral (F := Ideal) dot_S50000x128_S128x128_S50000x128_1_0_0_1_n_n none (relMean msg dstv et 0#32)
      (shapeCast S128x128 (extractStridedSlice S1x128x128 ![0, 0, 0] wl slices_S4x128x128_S1x128x128_0_0_0) shapeCasts_S1x128x128_S128x128)))
    (Host.dotGeneral (F := Ideal) dot_S50000x128_S128x128_S50000x128_1_0_0_1_n_n none (relMean msg dstv et 1#32)
      (shapeCast S128x128 (extractStridedSlice S1x128x128 ![1, 0, 0] wl slices_S4x128x128_S1x128x128_1_0_0) shapeCasts_S1x128x128_S128x128)))
    (Host.dotGeneral (F := Ideal) dot_S50000x128_S128x128_S50000x128_1_0_0_1_n_n none (relMean msg dstv et 2#32)
      (shapeCast S128x128 (extractStridedSlice S1x128x128 ![2, 0, 0] wl slices_S4x128x128_S1x128x128_2_0_0) shapeCasts_S1x128x128_S128x128)))
    (Host.dotGeneral (F := Ideal) dot_S50000x128_S128x128_S50000x128_1_0_0_1_n_n none (relMean msg dstv et 3#32)
      (shapeCast S128x128 (extractStridedSlice S1x128x128 ![3, 0, 0] wl slices_S4x128x128_S1x128x128_3_0_0) shapeCasts_S1x128x128_S128x128))

/-- Read at (p, j) it is the specification's reference form of the layer, for whatever the input, the message rows
    and the destination words read as. -/
theorem layer128_read (h : FVec Ideal S50000x128 .f32) (msg : FVec Ideal S600000x128 .f32) (dstv et : IVec S600000 32)
    (wr : FVec Ideal S128x128 .f32) (wl : FVec Ideal S4x128x128 .f32) (b : FVec Ideal S128 .f32)
    (H : Fin 50000 → Fin 128 → EReal) (m : Fin 600000 → Fin 128 → EReal) (dst : Fin 600000 → ℤ)
    (hh : ∀ i k, h (ix2 i k) = H i k) (hm : ∀ e k, msg (ix2 e k) = m e k) (hd : ∀ e, (dstv (ix1 e)).toInt = dst e)
    (p : Fin 50000) (j : Fin 128) :
    layer128 h msg dstv et wr wl b (ix2 p j)
      = Cert.Spec.layerR H (Cert.Spec.aggR m dst (etR et)) (fun k j => wr (ix2 k j)) (fun r k j => wl (ix3 r k j))
          (fun j => b (ix1 j)) p j := by
  have hroot : (∑ k : Fin 128, h (ix2 p k) * wr (ix2 k j)) = ∑ k : Fin 128, H p k * wr (ix2 k j) :=
    Finset.sum_congr rfl fun k _ => by rw [hh]
  unfold layer128
  rewrite [addf_apply, addf_apply, addf_apply, addf_apply, addf_apply, dot128_read h wr, hroot, bias128_read,
    rel128_read msg dstv et 0#32 0 (by decide) (by decide) m dst hm hd wl slices_S4x128x128_S1x128x128_0_0_0,
    rel128_read msg dstv et 1#32 1 (by decide) (by decide) m dst hm hd wl slices_S4x128x128_S1x128x128_1_0_0,
    rel128_read msg dstv et 2#32 2 (by decide) (by decide) m dst hm hd wl slices_S4x128x128_S1x128x128_2_0_0,
    rel128_read msg dstv et 3#32 3 (by decide) (by decide) m dst hm hd wl slices_S4x128x128_S1x128x128_3_0_0]
  rfl

/-- The second layer, composed in the same way, 96 features wide. -/
def layer96 (h : FVec Ideal S50000x128 .f32) (msg : FVec Ideal S600000x128 .f32) (dstv et : IVec S600000 32)
    (wr : FVec Ideal S128x96 .f32) (wl : FVec Ideal S4x128x96 .f32) (b : FVec Ideal S96 .f32) :
    FVec Ideal S50000x96 .f32 :=
  addf (addf (addf (addf
    (addf (Host.dotGeneral (F := Ideal) dot_S50000x128_S128x96_S50000x96_1_0_0_1_n_n none h wr)
      (broadcastInDim S50000x96 ![0, 1] bcast_S1x96_S50000x96_0_1 (broadcastInDim S1x96 ![1] bcast_S96_S1x96_1 b)))
    (Host.dotGeneral (F := Ideal) dot_S50000x128_S128x96_S50000x96_1_0_0_1_n_n none (relMean msg dstv et 0#32)
      (shapeCast S128x96 (extractStridedSlice S1x128x96 ![0, 0, 0] wl slices_S4x128x96_S1x128x96_0_0_0) shapeCasts_S1x128x96_S128x96)))
    (Host.dotGeneral (F := Ideal) dot_S50000x128_S128x96_S50000x96_1_0_0_1_n_n none (relMean msg dstv et 1#32)
      (shapeCast S128x96 (extractStridedSlice S1x128x96 ![1, 0, 0] wl slices_S4x128x96_S1x128x96_1_0_0) shapeCasts_S1x128x96_S128x96)))
    (Host.dotGeneral (F := Ideal) dot_S50000x128_S128x96_S50000x96_1_0_0_1_n_n none (relMean msg dstv et 2#32)
      (shapeCast S128x96 (extractStridedSlice S1x128x96 ![2, 0, 0] wl slices_S4x128x96_S1x128x96_2_0_0) shapeCasts_S1x128x96_S128x96)))
    (Host.dotGeneral (F := Ideal) dot_S50000x128_S128x96_S50000x96_1_0_0_1_n_n none (relMean msg dstv et 3#32)
      (shapeCast S128x96 (extractStridedSlice S1x128x96 ![3, 0, 0] wl slices_S4x128x96_S1x128x96_3_0_0) shapeCasts_S1x128x96_S128x96))

theorem layer96_read (h : FVec Ideal S50000x128 .f32) (msg : FVec Ideal S600000x128 .f32) (dstv et : IVec S600000 32)
    (wr : FVec Ideal S128x96 .f32) (wl : FVec Ideal S4x128x96 .f32) (b : FVec Ideal S96 .f32)
    (H : Fin 50000 → Fin 128 → EReal) (m : Fin 600000 → Fin 128 → EReal) (dst : Fin 600000 → ℤ)
    (hh : ∀ i k, h (ix2 i k) = H i k) (hm : ∀ e k, msg (ix2 e k) = m e k) (hd : ∀ e, (dstv (ix1 e)).toInt = dst e)
    (p : Fin 50000) (j : Fin 96) :
    layer96 h msg dstv et wr wl b (ix2 p j)
      = Cert.Spec.layerR H (Cert.Spec.aggR m dst (etR et)) (fun k j => wr (ix2 k j)) (fun r k j => wl (ix3 r k j))
          (fun j => b (ix1 j)) p j := by
  have hroot : (∑ k : Fin 128, h (ix2 p k) * wr (ix2 k j)) = ∑ k : Fin 128, H p k * wr (ix2 k j) :=
    Finset.sum_congr rfl fun k _ => by rw [hh]
  unfold layer96
  rewrite [addf_apply, addf_apply, addf_apply, addf_apply, addf_apply, dot96_read h wr, hroot, bias96_read,
    rel96_read msg dstv et 0#32 0 (by decide) (by decide) m dst hm hd wl slices_S4x128x96_S1x128x96_0_0_0,
    rel96_read msg dstv et 1#32 1 (by decide) (by decide) m dst hm hd wl slices_S4x128x96_S1x128x96_1_0_0,
    rel96_read msg dstv et 2#32 2 (by decide) (by decide) m dst hm hd wl slices_S4x128x96_S1x128x96_2_0_0,
    rel96_read msg dstv et 3#32 3 (by decide) (by decide) m dst hm hd wl slices_S4x128x96_S1x128x96_3_0_0]
  rfl

/-! ## The program's result -/

section Result

open Idealize.ShloMosaic.TcCoe Idealize.SL.Sem Idealize.ShloMosaic.StableHlo

variable (x : FVec Ideal S50000x128 .f32) (ei : IVec S2x600000 32) (et : IVec S600000 32)
  (wr1 : FVec Ideal S128x128 .f32) (wl1 : FVec Ideal S4x128x128 .f32) (b1 : FVec Ideal S128 .f32)
  (wr2 : FVec Ideal S128x96 .f32) (wl2 : FVec Ideal S4x128x96 .f32) (b2 : FVec Ideal S96 .f32)

/-- The message rows of a layer with input h: one row of h per edge, picked by the program's gather under the index
    words it builds from row 0 of the edge array (a negative word is first moved up by 50000). Kept as one term. -/
def msgR (h : FVec Ideal S50000x128 .f32) (ei : IVec S2x600000 32) : Fin 600000 → Fin 128 → EReal :=
  fun e k => (Host.gather gather_S50000x128_S600000x1_S600000x128_1_0_n_n_0_1_1128 h
    (broadcastInDim S600000x1 ![0] bcast_S600000_S600000x1_0
      (select
        (cmpi .slt (shapeCast _ (extractStridedSlice S1x600000 ![0, 0] ei slices_S2x600000_S1x600000_0_0) shapeCasts_S1x600000_S600000)
          (broadcastInDim S600000 ![] bcast_S_S600000 (constantI S_ 32 0#32)))
        (addi (shapeCast _ (extractStridedSlice S1x600000 ![0, 0] ei slices_S2x600000_S1x600000_0_0) shapeCasts_S1x600000_S600000)
          (broadcastInDim S600000 ![] bcast_S_S600000 (constantI S_ 32 50000#32)))
        (shapeCast _ (extractStridedSlice S1x600000 ![0, 0] ei slices_S2x600000_S1x600000_0_0) shapeCasts_S1x600000_S600000))))
    (ix2 e k)

/-- The destination node of each edge: the signed value of row 1 of the edge array. -/
def dstR (ei : IVec S2x600000 32) : Fin 600000 → ℤ := fun e => (ei (ix2 1 e)).toInt

/-- The first layer's result: the reference form of the layer on the program's input, negative entries replaced by
    zero. -/
def h1R : Fin 50000 → Fin 128 → EReal := fun i k =>
  max (Cert.Spec.layerR (fun i k => x (ix2 i k)) (Cert.Spec.aggR (msgR x ei) (dstR ei) (etR et))
    (fun k j => wr1 (ix2 k j)) (fun r k j => wl1 (ix3 r k j)) (fun j => b1 (ix1 j)) i k) 0

/-- Row 1 of the edge array, sliced and reshaped as the first layer does it, reads the destination. -/
theorem dst_first (e : Fin 600000) : (Read.val_main_v3 (F := Ideal) ei (ix1 e)).toInt = dstR ei e := by
  rw [Read.val_main_v3_apply, Read.val_main_v2_apply]
  exact congrArg (fun i => (ei i).toInt) (funext fun a => Fin.ext (by
    match a with
    | ⟨0, _⟩ => rfl
    | ⟨1, _⟩ => exact Nat.mod_eq_of_lt e.isLt))

/-- The second layer slices and reshapes it again, to the same effect. -/
theorem dst_second (e : Fin 600000) : (Read.val_main_v103 (F := Ideal) ei (ix1 e)).toInt = dstR ei e := by
  rw [Read.val_main_v103_apply, Read.val_main_v102_apply]
  exact congrArg (fun i => (ei i).toInt) (funext fun a => Fin.ext (by
    match a with
    | ⟨0, _⟩ => rfl
    | ⟨1, _⟩ => exact Nat.mod_eq_of_lt e.isLt))

/-- The first layer's stage of the program, after its activation, is h1R. -/
theorem first_layer (p : Fin 50000) (j : Fin 128) :
    Read.val_main_v99 (F := Ideal) x ei et wr1 wl1 b1 (ix2 p j) = h1R x ei et wr1 wl1 b1 p j := by
  have h98 : Read.val_main_v98 (F := Ideal) x ei et wr1 wl1 b1 (ix2 p j)
      = Cert.Spec.layerR (fun i k => x (ix2 i k)) (Cert.Spec.aggR (msgR x ei) (dstR ei) (etR et))
          (fun k j => wr1 (ix2 k j)) (fun r k j => wl1 (ix3 r k j)) (fun j => b1 (ix1 j)) p j :=
    layer128_read x (Read.val_main_v10 (F := Ideal) x ei) (Read.val_main_v3 (F := Ideal) ei) et wr1 wl1 b1 (fun i k => x (ix2 i k))
      (msgR x ei) (dstR ei) (fun _ _ => rfl) (fun _ _ => rfl) (dst_first ei) p j
  rw [Read.val_main_v99_apply, h98, Read.val_main_call0_v0_apply, Read.val_main_call0_cst_apply, Ideal.ofBits_def,
    Ideal.ofBits_zero_f32]
  rfl

/-- As a whole array. -/
theorem first_layer_fun :
    Read.val_main_v99 (F := Ideal) x ei et wr1 wl1 b1 = fun idx => h1R x ei et wr1 wl1 b1 (idx 0) (idx 1) := by
  funext idx
  obtain ⟨p, k, rfl⟩ : ∃ (p : Fin 50000) (k : Fin 128), idx = ix2 p k := ⟨idx 0, idx 1, eq_ix2 idx⟩
  exact first_layer x ei et wr1 wl1 b1 p k

/-- The second layer's gathered rows are the message rows of h1R: the same gather under the same index words. -/
theorem msg_second (e : Fin 600000) (k : Fin 128) :
    Read.val_main_v110 (F := Ideal) x ei et wr1 wl1 b1 (ix2 e k)
      = msgR (fun idx => h1R x ei et wr1 wl1 b1 (idx 0) (idx 1)) ei e k := by
  unfold Read.val_main_v110
  rewrite [first_layer_fun]
  rfl

/-- The program's result at node p, feature q: the reference form of the second layer on h1R. -/
theorem ref_value_apply (p : Fin 50000) (q : Fin 96) :
    (Read.val_main_v198 (F := Ideal) x ei et wr1 wl1 b1 wr2 wl2 b2 : S50000x96.Idx → EReal) (ix2 p q)
      = Cert.Spec.layerR (h1R x ei et wr1 wl1 b1)
          (Cert.Spec.aggR (msgR (fun idx => h1R x ei et wr1 wl1 b1 (idx 0) (idx 1)) ei) (dstR ei) (etR et))
          (fun k j => wr2 (ix2 k j)) (fun r k j => wl2 (ix3 r k j)) (fun j => b2 (ix1 j)) p q :=
  layer96_read (Read.val_main_v99 (F := Ideal) x ei et wr1 wl1 b1) (Read.val_main_v110 (F := Ideal) x ei et wr1 wl1 b1) (Read.val_main_v103 (F := Ideal) ei) et
    wr2 wl2 b2 (h1R x ei et wr1 wl1 b1) (msgR (fun idx => h1R x ei et wr1 wl1 b1 (idx 0) (idx 1)) ei) (dstR ei)
    (first_layer x ei et wr1 wl1 b1) (msg_second x ei et wr1 wl1 b1) (dst_second ei) p q

/-- Every weakly fair execution of the reference from a memory m terminates with the result buffer holding the
    program's result stage of m's nine argument arrays, and the nine arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198)
          = Read.val_main_v198 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (Read.val_main_v198_eq m c), (h c).2⟩)
    (Cert.ReferenceIdeal.Value.run (F := Ideal) m ρ)

end Result

end Cert.ReferenceIdeal.RefValue

end
-- ==== Proof.KI.RegionValue.lean ====
/-
  What each of the two launches leaves in its result array, as one function of the arrays it reads.

  Both launches compute a row block of an affine map. Point `t` of the 25-point grid reads rows
  `2000·t … 2000·t + 1999` of a 50000 × 640 feature array `X`, the whole 640 × d weight array `W` and the whole
  bias vector `b` (d = 128 in the first launch, 96 in the second), and writes rows `2000·t … 2000·t + 1999` of the
  50000 × d result. At the extended reals nothing is rounded: the narrowing of the two factors is the identity,
  the matrix product into a zero accumulator is the plain sum over the 640 contracted positions, and the bias
  row is added to every row. So the entry the body stores at row `p`, column `q` of its block is

      (∑ k, x(p, k) · w(k, q)) + b(q),      and in the first launch the larger of that and 0.

  Row `p` of block `t` is row `2000·t + p` of the array on both the input and the output side, the weight and
  bias blocks are their whole arrays, and the 25 row blocks cover all 50000 rows (row `r` lies in block
  `r / 2000`). Hence every write-back writes its block of ONE whole-array function, and after the last point
  the result array is that function:

      R₀(r, q) = max ((∑ k, X(r, k) · W(k, q)) + b(q)) 0,        R₁(r, q) = (∑ k, X(r, k) · W(k, q)) + b(q).
-/
import proofs.«403790_j25340307046637_1_alg».proof.Proof.KI.Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-- The zero offsets of a whole-block load or store, on two axes and on one. -/
theorem zeroOff2 : (![0, 0] : Fin 2 → Nat) = fun _ => 0 := funext fun a => by fin_cases a <;> rfl
theorem zeroOff1 : (![0] : Fin 1 → Nat) = fun _ => 0 := funext fun a => by fin_cases a <;> rfl

/-! ## The first launch's arithmetic at one entry of a block -/

/-- The product contracts the left factor's columns against the right factor's rows: at output entry `i` and
    contracted position `q` the left factor is read at row `i 0`, … -/
theorem mm0_lhs_0 (i : S2000x128.Idx) (q : dot_S2000x640_S640x128_S2000x128_1_0_0_1_n_n.contr.Idx) :
    (dot_S2000x640_S640x128_S2000x128_1_0_0_1_n_n.lhsIdx i q 0).val = (i 0).val := by
  unfold DotDims.lhsIdx
  rw [dif_neg (show ¬(0 : Fin S2000x640.rank) ∈ dot_S2000x640_S640x128_S2000x128_1_0_0_1_n_n.lhsBatch by decide), dif_pos (show (0 : Fin S2000x640.rank) ∈ dot_S2000x640_S640x128_S2000x128_1_0_0_1_n_n.lhsNonContracting by decide)]
  rfl
/-- … column `q`; -/
theorem mm0_lhs_1 (i : S2000x128.Idx) (q : dot_S2000x640_S640x128_S2000x128_1_0_0_1_n_n.contr.Idx) :
    (dot_S2000x640_S640x128_S2000x128_1_0_0_1_n_n.lhsIdx i q 1).val = (q ⟨0, by decide⟩).val :=
  dot_S2000x640_S640x128_S2000x128_1_0_0_1_n_n.lhsIdx_val_of_single rfl i q
/-- the right factor at row `q`, … -/
theorem mm0_rhs_0 (i : S2000x128.Idx) (q : dot_S2000x640_S640x128_S2000x128_1_0_0_1_n_n.contr.Idx) :
    (dot_S2000x640_S640x128_S2000x128_1_0_0_1_n_n.rhsIdx i q 0).val = (q ⟨0, by decide⟩).val :=
  dot_S2000x640_S640x128_S2000x128_1_0_0_1_n_n.rhsIdx_val_of_single rfl i q
/-- … column `i 1`. -/
theorem mm0_rhs_1 (i : S2000x128.Idx) (q : dot_S2000x640_S640x128_S2000x128_1_0_0_1_n_n.contr.Idx) :
    (dot_S2000x640_S640x128_S2000x128_1_0_0_1_n_n.rhsIdx i q 1).val = (i 1).val := by
  unfold DotDims.rhsIdx
  rw [dif_neg (show ¬(1 : Fin S640x128.rank) ∈ dot_S2000x640_S640x128_S2000x128_1_0_0_1_n_n.rhsBatch by decide), dif_pos (show (1 : Fin S640x128.rank) ∈ dot_S2000x640_S640x128_S2000x128_1_0_0_1_n_n.rhsNonContracting by decide)]
  rfl

/-- A 2000 × 640 by 640 × 128 product into a zero accumulator, at entry (p, q): the sum over the 640 contracted
    positions of the products of the two factors' entries. -/
theorem matmul0_apply (a : FVec Ideal S2000x640 .bf16) (b : FVec Ideal S640x128 .bf16) (p : Fin 2000) (q : Fin 128) :
    matmul dot_S2000x640_S640x128_S2000x128_1_0_0_1_n_n none a b (constant (F := Ideal) S2000x128 .f32 0x00000000#32) (ix2 p q)
      = ∑ k : Fin 640, a (ix2 p k) * b (ix2 k q) := by
  simp only [matmul]
  rw [Ideal.matmul_constant_zero_apply, ← Equiv.sum_comp (contrEquiv1 dot_S2000x640_S640x128_S2000x128_1_0_0_1_n_n 640 rfl rfl).symm]
  refine Finset.sum_congr rfl fun k _ => ?_
  have hk := contrEquiv1_symm_val dot_S2000x640_S640x128_S2000x128_1_0_0_1_n_n 640 rfl rfl k
  have el : dot_S2000x640_S640x128_S2000x128_1_0_0_1_n_n.lhsIdx (ix2 p q) ((contrEquiv1 dot_S2000x640_S640x128_S2000x128_1_0_0_1_n_n 640 rfl rfl).symm k) = ix2 p k := funext fun a => Fin.ext (by
    match a with
    | ⟨0, _⟩ => exact mm0_lhs_0 _ _
    | ⟨1, _⟩ => exact (mm0_lhs_1 _ _).trans hk)
  have er : dot_S2000x640_S640x128_S2000x128_1_0_0_1_n_n.rhsIdx (ix2 p q) ((contrEquiv1 dot_S2000x640_S640x128_S2000x128_1_0_0_1_n_n 640 rfl rfl).symm k) = ix2 k q := funext fun a => Fin.ext (by
    match a with
    | ⟨0, _⟩ => exact (mm0_rhs_0 _ _).trans hk
    | ⟨1, _⟩ => exact mm0_rhs_1 _ _)
  rw [el, er]

/-- What the first launch's body stores, at entry (p, q) of its block: the row of the feature block against the
    column of the weights, plus the bias at `q` (the bias vector is laid out as one row and that row repeated down
    the block), and then the larger of that and zero. -/
theorem pay0_apply (x0 : Vec Ideal S2000x640 .f32) (x1 : Vec Ideal S640x128 .f32) (x2 : Vec Ideal S128 .f32)
    (p : Fin 2000) (q : Fin 128) :
    k0_pay1 (F := Ideal) x0 x1 x2 (ix2 p q)
      = max ((∑ k : Fin 640, x0 (ix2 p k) * x1 (ix2 k q)) + x2 (ix1 q)) 0 := by
  unfold k0_pay1
  simp only [shapeCast_self]
  rw [maximumf_apply, addf_apply, broadcast_apply]
  refine congrArg₂ max (congrArg₂ (· + ·) ?_ ?_) ?_
  · exact matmul0_apply _ _ p q
  · refine (broadcastTo_1b_ab_apply _ _ p q).trans ?_
    exact shapeCast_a_1a_apply x2 _ 0 q
  · exact Ideal.ofBits_zero_f32

/-! ## The second launch's arithmetic at one entry of a block -/

/-- The same contraction at 96 columns: the left factor at row `i 0`, … -/
theorem mm1_lhs_0 (i : S2000x96.Idx) (q : dot_S2000x640_S640x96_S2000x96_1_0_0_1_n_n.contr.Idx) :
    (dot_S2000x640_S640x96_S2000x96_1_0_0_1_n_n.lhsIdx i q 0).val = (i 0).val := by
  unfold DotDims.lhsIdx
  rw [dif_neg (show ¬(0 : Fin S2000x640.rank) ∈ dot_S2000x640_S640x96_S2000x96_1_0_0_1_n_n.lhsBatch by decide), dif_pos (show (0 : Fin S2000x640.rank) ∈ dot_S2000x640_S640x96_S2000x96_1_0_0_1_n_n.lhsNonContracting by decide)]
  rfl
/-- … column `q`; -/
theorem mm1_lhs_1 (i : S2000x96.Idx) (q : dot_S2000x640_S640x96_S2000x96_1_0_0_1_n_n.contr.Idx) :
    (dot_S2000x640_S640x96_S2000x96_1_0_0_1_n_n.lhsIdx i q 1).val = (q ⟨0, by decide⟩).val :=
  dot_S2000x640_S640x96_S2000x96_1_0_0_1_n_n.lhsIdx_val_of_single rfl i q
/-- the right factor at row `q`, … -/
theorem mm1_rhs_0 (i : S2000x96.Idx) (q : dot_S2000x640_S640x96_S2000x96_1_0_0_1_n_n.contr.Idx) :
    (dot_S2000x640_S640x96_S2000x96_1_0_0_1_n_n.rhsIdx i q 0).val = (q ⟨0, by decide⟩).val :=
  dot_S2000x640_S640x96_S2000x96_1_0_0_1_n_n.rhsIdx_val_of_single rfl i q
/-- … column `i 1`. -/
theorem mm1_rhs_1 (i : S2000x96.Idx) (q : dot_S2000x640_S640x96_S2000x96_1_0_0_1_n_n.contr.Idx) :
    (dot_S2000x640_S640x96_S2000x96_1_0_0_1_n_n.rhsIdx i q 1).val = (i 1).val := by
  unfold DotDims.rhsIdx
  rw [dif_neg (show ¬(1 : Fin S640x96.rank) ∈ dot_S2000x640_S640x96_S2000x96_1_0_0_1_n_n.rhsBatch by decide), dif_pos (show (1 : Fin S640x96.rank) ∈ dot_S2000x640_S640x96_S2000x96_1_0_0_1_n_n.rhsNonContracting by decide)]
  rfl

/-- A 2000 × 640 by 640 × 96 product into a zero accumulator, at entry (p, q). -/
theorem matmul1_apply (a : FVec Ideal S2000x640 .bf16) (b : FVec Ideal S640x96 .bf16) (p : Fin 2000) (q : Fin 96) :
    matmul dot_S2000x640_S640x96_S2000x96_1_0_0_1_n_n none a b (constant (F := Ideal) S2000x96 .f32 0x00000000#32) (ix2 p q)
      = ∑ k : Fin 640, a (ix2 p k) * b (ix2 k q) := by
  simp only [matmul]
  rw [Ideal.matmul_constant_zero_apply, ← Equiv.sum_comp (contrEquiv1 dot_S2000x640_S640x96_S2000x96_1_0_0_1_n_n 640 rfl rfl).symm]
  refine Finset.sum_congr rfl fun k _ => ?_
  have hk := contrEquiv1_symm_val dot_S2000x640_S640x96_S2000x96_1_0_0_1_n_n 640 rfl rfl k
  have el : dot_S2000x640_S640x96_S2000x96_1_0_0_1_n_n.lhsIdx (ix2 p q) ((contrEquiv1 dot_S2000x640_S640x96_S2000x96_1_0_0_1_n_n 640 rfl rfl).symm k) = ix2 p k := funext fun a => Fin.ext (by
    match a with
    | ⟨0, _⟩ => exact mm1_lhs_0 _ _
    | ⟨1, _⟩ => exact (mm1_lhs_1 _ _).trans hk)
  have er : dot_S2000x640_S640x96_S2000x96_1_0_0_1_n_n.rhsIdx (ix2 p q) ((contrEquiv1 dot_S2000x640_S640x96_S2000x96_1_0_0_1_n_n 640 rfl rfl).symm k) = ix2 k q := funext fun a => Fin.ext (by
    match a with
    | ⟨0, _⟩ => exact (mm1_rhs_0 _ _).trans hk
    | ⟨1, _⟩ => exact mm1_rhs_1 _ _)
  rw [el, er]

/-- What the second launch's body stores, at entry (p, q) of its block: the same product plus the bias at `q`,
    with nothing taken of it afterwards. -/
theorem pay1_apply (x0 : Vec Ideal S2000x640 .f32) (x1 : Vec Ideal S640x96 .f32) (x2 : Vec Ideal S96 .f32)
    (p : Fin 2000) (q : Fin 96) :
    k1_pay1 (F := Ideal) x0 x1 x2 (ix2 p q)
      = (∑ k : Fin 640, x0 (ix2 p k) * x1 (ix2 k q)) + x2 (ix1 q) := by
  unfold k1_pay1
  simp only [shapeCast_self]
  rw [addf_apply]
  refine congrArg₂ (· + ·) ?_ ?_
  · exact matmul1_apply _ _ p q
  · refine (broadcastTo_1b_ab_apply _ _ p q).trans ?_
    exact shapeCast_a_1a_apply x2 _ 0 q

/-! ## The whole-array functions -/

/-- R₀: row `r` of the features against column `q` of the weights, plus the bias at `q`, cut off below at zero. -/
def rowsAffineRelu (X : FVec Ideal S50000x640 .f32) (W : FVec Ideal S640x128 .f32) (B : FVec Ideal S128 .f32) :
    FVec Ideal S50000x128 .f32 :=
  fun i => max ((∑ k : Fin 640, X (ix2 (⟨(i 0).val, (i 0).isLt⟩ : Fin 50000) k) * W (ix2 k (⟨(i 1).val, (i 1).isLt⟩ : Fin 128)))
    + B (ix1 (⟨(i 1).val, (i 1).isLt⟩ : Fin 128))) 0

theorem rowsAffineRelu_apply (X : FVec Ideal S50000x640 .f32) (W : FVec Ideal S640x128 .f32) (B : FVec Ideal S128 .f32)
    (p : Fin 50000) (q : Fin 128) :
    rowsAffineRelu X W B (ix2 p q) = max ((∑ k : Fin 640, X (ix2 p k) * W (ix2 k q)) + B (ix1 q)) 0 := rfl

/-- R₁: the same without the cut-off, at 96 columns. -/
def rowsAffine (X : FVec Ideal S50000x640 .f32) (W : FVec Ideal S640x96 .f32) (B : FVec Ideal S96 .f32) :
    FVec Ideal S50000x96 .f32 :=
  fun i => (∑ k : Fin 640, X (ix2 (⟨(i 0).val, (i 0).isLt⟩ : Fin 50000) k) * W (ix2 k (⟨(i 1).val, (i 1).isLt⟩ : Fin 96)))
    + B (ix1 (⟨(i 1).val, (i 1).isLt⟩ : Fin 96))

theorem rowsAffine_apply (X : FVec Ideal S50000x640 .f32) (W : FVec Ideal S640x96 .f32) (B : FVec Ideal S96 .f32)
    (p : Fin 50000) (q : Fin 96) :
    rowsAffine X W B (ix2 p q) = (∑ k : Fin 640, X (ix2 p k) * W (ix2 k q)) + B (ix1 q) := rfl

/-- If row `p` of a feature block is row `r` of the feature array, and the weight and bias blocks agree with their
    arrays, then what the first body stores at (p, q) is R₀ at (r, q). -/
theorem pay0_block (X : FVec Ideal S50000x640 .f32) (W : FVec Ideal S640x128 .f32) (B : FVec Ideal S128 .f32)
    (x0 : Vec Ideal S2000x640 .f32) (x1 : Vec Ideal S640x128 .f32) (x2 : Vec Ideal S128 .f32)
    (p : Fin 2000) (q : Fin 128) (r : Fin 50000)
    (h0 : ∀ k : Fin 640, x0 (ix2 p k) = X (ix2 r k))
    (h1 : ∀ k : Fin 640, x1 (ix2 k q) = W (ix2 k q))
    (h2 : x2 (ix1 q) = B (ix1 q)) :
    k0_pay1 (F := Ideal) x0 x1 x2 (ix2 p q) = rowsAffineRelu X W B (ix2 r q) := by
  rw [pay0_apply, rowsAffineRelu_apply, h2]
  refine congrArg (fun s => max (s + B (ix1 q)) 0) (Finset.sum_congr rfl fun k _ => ?_)
  rw [h0 k, h1 k]

/-- The same for the second body and R₁. -/
theorem pay1_block (X : FVec Ideal S50000x640 .f32) (W : FVec Ideal S640x96 .f32) (B : FVec Ideal S96 .f32)
    (x0 : Vec Ideal S2000x640 .f32) (x1 : Vec Ideal S640x96 .f32) (x2 : Vec Ideal S96 .f32)
    (p : Fin 2000) (q : Fin 96) (r : Fin 50000)
    (h0 : ∀ k : Fin 640, x0 (ix2 p k) = X (ix2 r k))
    (h1 : ∀ k : Fin 640, x1 (ix2 k q) = W (ix2 k q))
    (h2 : x2 (ix1 q) = B (ix1 q)) :
    k1_pay1 (F := Ideal) x0 x1 x2 (ix2 p q) = rowsAffine X W B (ix2 r q) := by
  rw [pay1_apply, rowsAffine_apply, h2]
  refine congrArg (fun s => s + B (ix1 q)) (Finset.sum_congr rfl fun k _ => ?_)
  rw [h0 k, h1 k]

/-! ## The first launch: from the blocks to the array -/

section Region0
variable (V : (c : Dev nD) → (b : Ref sig .tc) → Buf (Elt Ideal) ((c : Thread nD τ).loc b))

/-- The three arrays the first launch reads, as it finds them. -/
abbrev feat0 (c : Dev nD) : FVec Ideal S50000x640 .f32 := V c main_v36
abbrev wcat0 (c : Dev nD) : FVec Ideal S640x128 .f32 := V c main_v45
abbrev bias0 (c : Dev nD) : FVec Ideal S128 .f32 := V c main_arg5

/-- The block indices over the grid: the feature and result blocks move down one block of rows per point, the
    weight and bias blocks stay at the origin. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the feature block at point `t` is row `2000·t + p` of the feature array. -/
theorem blk0_0_apply (c : Dev nD) (t : Fin cfg0.N) (p : Fin 2000) (k : Fin 640) (r : Fin 50000)
    (hr : r.val = 2000 * t.val + p.val) :
    (iblk0 V c 0 t : Vec Ideal S2000x640 .f32) (ix2 p k) = feat0 V c (ix2 r k) := by
  obtain ⟨e0, e1, -⟩ := blockIdx0 t
  unfold iblk0
  rw [View.read_apply]
  show V c main_v36 _ = V c main_v36 _
  congr 1
  funext a; apply Fin.ext
  match a with
  | ⟨0, _⟩ => show win0_0.index t 0 * 2000 + 1 * p.val = r.val; rw [e0, hr]; omega
  | ⟨1, _⟩ => show win0_0.index t 1 * 640 + 1 * k.val = k.val; rw [e1]; omega

/-- The weight block at every point is the weight array. -/
theorem blk0_1_apply (c : Dev nD) (t : Fin cfg0.N) (k : Fin 640) (q : Fin 128) :
    (iblk0 V c 1 t : Vec Ideal S640x128 .f32) (ix2 k q) = wcat0 V c (ix2 k q) := by
  obtain ⟨-, -, e0, e1, -⟩ := blockIdx0 t
  unfold iblk0
  rw [View.read_apply]
  show V c main_v45 _ = V c main_v45 _
  congr 1
  funext a; apply Fin.ext
  match a with
  | ⟨0, _⟩ => show win0_1.index t 0 * 640 + 1 * k.val = k.val; rw [e0]; omega
  | ⟨1, _⟩ => show win0_1.index t 1 * 128 + 1 * q.val = q.val; rw [e1]; omega

/-- The bias block at every point is the bias vector. -/
theorem blk0_2_apply (c : Dev nD) (t : Fin cfg0.N) (q : Fin 128) :
    (iblk0 V c 2 t : Vec Ideal S128 .f32) (ix1 q) = bias0 V c (ix1 q) := by
  obtain ⟨-, -, -, -, e0, -⟩ := blockIdx0 t
  unfold iblk0
  rw [View.read_apply]
  show V c main_arg5 _ = V c main_arg5 _
  congr 1
  funext a; apply Fin.ext
  match a with
  | ⟨0, _⟩ => show win0_2.index t 0 * 128 + 1 * q.val = q.val; rw [e0]; omega

/-- What point `t` writes back is its block of R₀ of the three arrays: entry (p, q) of the stored block is R₀ at
    row `2000·t + p`, which is where the result block's entry (p, q) sits in the result array. -/
theorem flushed0_eq (c : Dev nD) (t : Fin cfg0.N) :
    (dat0 V c).flushed 3 t
      = ((cfg0.win 3).blk t).view.read (Elt Ideal) (rowsAffineRelu (feat0 V c) (wcat0 V c) (bias0 V c)) := by
  show (cfg0.win 3).cut (grid0.coords t) ((dat0 V c).after 3 t) = _
  rw [after0_3]
  unfold out0_3
  rw [View.canon_unit_zero zeroOff2]
  simp only [View.ld_unit_zero (S := S2000x640) zeroOff2, View.ld_unit_zero (S := S640x128) zeroOff2,
    View.ld_unit_zero (S := S128) zeroOff1]
  refine funext fun (y : S2000x128.Idx) => ?_
  obtain ⟨p, q, rfl⟩ : ∃ (p : Fin 2000) (q : Fin 128), y = ix2 p q := ⟨y 0, y 1, eq_ix2 y⟩
  have hN : cfg0.N = 25 := N_0
  have ht : t.val < 25 := hN ▸ t.isLt
  obtain ⟨-, -, -, -, -, e0, e1⟩ := blockIdx0 t
  have hemb : ((cfg0.win 3).blk t).view.emb (ix2 p q)
      = (ix2 (⟨2000 * t.val + p.val, by omega⟩ : Fin 50000) q : S50000x128.Idx) := by
    funext a; apply Fin.ext
    match a with
    | ⟨0, _⟩ => show win0_3.index t 0 * 2000 + 1 * p.val = 2000 * t.val + p.val; rw [e0]; omega
    | ⟨1, _⟩ => show win0_3.index t 1 * 128 + 1 * q.val = q.val; rw [e1]; omega
  show k0_pay1 (F := Ideal) (iblk0 V c 0 t) (iblk0 V c 1 t) (iblk0 V c 2 t) (ix2 p q)
      = rowsAffineRelu (feat0 V c) (wcat0 V c) (bias0 V c) (((cfg0.win 3).blk t).view.emb (ix2 p q))
  rw [hemb]
  exact pay0_block (feat0 V c) (wcat0 V c) (bias0 V c) (iblk0 V c 0 t) (iblk0 V c 1 t) (iblk0 V c 2 t) p q _
    (fun k => blk0_0_apply V c t p k _ rfl) (fun k => blk0_1_apply V c t k q) (blk0_2_apply V c t q)

/-- An entry of the result array lies in point `t`'s block iff each coordinate lies in the block's range. -/
theorem mem_resBlk0 (t : Fin cfg0.N) (i : S50000x128.Idx) :
    i ∈ ((cfg0.win 3).blk t).view.set
      ↔ ∀ a : Fin 2, win0_3.index t a * S2000x128.size a ≤ (i a).val
          ∧ (i a).val < win0_3.index t a * S2000x128.size a + S2000x128.size a := by
  show i ∈ ((View.whole main_v46).slice (win0_3.rect t)).set ↔ _
  rw [View.set_slice_whole, Rect.mem_set_unit]
  exact Iff.rfl

/-- Every entry of the result array is written: row `r` by point `r / 2000`. -/
theorem rows_cover0 (i : S50000x128.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  have hlt : (i 0).val / 2000 < cfg0.N := by rw [hN]; omega
  obtain ⟨-, -, -, -, -, e0, e1⟩ := blockIdx0 ⟨(i 0).val / 2000, hlt⟩
  refine ⟨⟨(i 0).val / 2000, hlt⟩, flush0_3 _, ?_⟩
  rw [mem_resBlk0]
  intro a
  match a with
  | ⟨0, _⟩ =>
    show win0_3.index ⟨(i 0).val / 2000, hlt⟩ 0 * 2000 ≤ (i 0).val
      ∧ (i 0).val < win0_3.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win0_3.index ⟨(i 0).val / 2000, hlt⟩ 1 * 128 ≤ (i 1).val
      ∧ (i 1).val < win0_3.index ⟨(i 0).val / 2000, hlt⟩ 1 * 128 + 128
    rw [e1]; omega

/-- So after the last point the first launch's result array is R₀ of the three arrays it read. -/
theorem arr0_eq (c : Dev nD) :
    (dat0 V c).arrAt 3 cfg0.N = rowsAffineRelu (feat0 V c) (wcat0 V c) (bias0 V c) :=
  (dat0 V c).arrAt_eq_of_cover 3 (rowsAffineRelu (feat0 V c) (wcat0 V c) (bias0 V c))
    (fun t _ => flushed0_eq V c t) rows_cover0

theorem arr0_apply (c : Dev nD) (p : Fin 50000) (q : Fin 128) :
    ((dat0 (F := Ideal) V c).arrAt 3 cfg0.N : S50000x128.Idx → EReal) (ix2 p q)
      = max ((∑ k : Fin 640, feat0 V c (ix2 p k) * wcat0 V c (ix2 k q)) + bias0 V c (ix1 q)) 0 := by
  rw [arr0_eq]
  exact rowsAffineRelu_apply _ _ _ p q

end Region0

/-! ## The second launch: from the blocks to the array -/

section Region1
variable (V : (c : Dev nD) → (b : Ref sig .tc) → Buf (Elt Ideal) ((c : Thread nD τ).loc b))

/-- The three arrays the second launch reads, as it finds them. -/
abbrev feat1 (c : Dev nD) : FVec Ideal S50000x640 .f32 := V c main_v83
abbrev wcat1 (c : Dev nD) : FVec Ideal S640x96 .f32 := V c main_v92
abbrev bias1 (c : Dev nD) : FVec Ideal S96 .f32 := V c main_arg8

/-- The block indices over the grid, as in the first launch. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the feature block at point `t` is row `2000·t + p` of the feature array. -/
theorem blk1_0_apply (c : Dev nD) (t : Fin cfg1.N) (p : Fin 2000) (k : Fin 640) (r : Fin 50000)
    (hr : r.val = 2000 * t.val + p.val) :
    (iblk1 V c 0 t : Vec Ideal S2000x640 .f32) (ix2 p k) = feat1 V c (ix2 r k) := by
  obtain ⟨e0, e1, -⟩ := blockIdx1 t
  unfold iblk1
  rw [View.read_apply]
  show V c main_v83 _ = V c main_v83 _
  congr 1
  funext a; apply Fin.ext
  match a with
  | ⟨0, _⟩ => show win1_0.index t 0 * 2000 + 1 * p.val = r.val; rw [e0, hr]; omega
  | ⟨1, _⟩ => show win1_0.index t 1 * 640 + 1 * k.val = k.val; rw [e1]; omega

/-- The weight block at every point is the weight array. -/
theorem blk1_1_apply (c : Dev nD) (t : Fin cfg1.N) (k : Fin 640) (q : Fin 96) :
    (iblk1 V c 1 t : Vec Ideal S640x96 .f32) (ix2 k q) = wcat1 V c (ix2 k q) := by
  obtain ⟨-, -, e0, e1, -⟩ := blockIdx1 t
  unfold iblk1
  rw [View.read_apply]
  show V c main_v92 _ = V c main_v92 _
  congr 1
  funext a; apply Fin.ext
  match a with
  | ⟨0, _⟩ => show win1_1.index t 0 * 640 + 1 * k.val = k.val; rw [e0]; omega
  | ⟨1, _⟩ => show win1_1.index t 1 * 96 + 1 * q.val = q.val; rw [e1]; omega

/-- The bias block at every point is the bias vector. -/
theorem blk1_2_apply (c : Dev nD) (t : Fin cfg1.N) (q : Fin 96) :
    (iblk1 V c 2 t : Vec Ideal S96 .f32) (ix1 q) = bias1 V c (ix1 q) := by
  obtain ⟨-, -, -, -, e0, -⟩ := blockIdx1 t
  unfold iblk1
  rw [View.read_apply]
  show V c main_arg8 _ = V c main_arg8 _
  congr 1
  funext a; apply Fin.ext
  match a with
  | ⟨0, _⟩ => show win1_2.index t 0 * 96 + 1 * q.val = q.val; rw [e0]; omega

/-- What point `t` writes back is its block of R₁ of the three arrays. -/
theorem flushed1_eq (c : Dev nD) (t : Fin cfg1.N) :
    (dat1 V c).flushed 3 t
      = ((cfg1.win 3).blk t).view.read (Elt Ideal) (rowsAffine (feat1 V c) (wcat1 V c) (bias1 V c)) := by
  show (cfg1.win 3).cut (grid1.coords t) ((dat1 V c).after 3 t) = _
  rw [after1_3]
  unfold out1_3
  rw [View.canon_unit_zero zeroOff2]
  simp only [View.ld_unit_zero (S := S2000x640) zeroOff2, View.ld_unit_zero (S := S640x96) zeroOff2,
    View.ld_unit_zero (S := S96) zeroOff1]
  refine funext fun (y : S2000x96.Idx) => ?_
  obtain ⟨p, q, rfl⟩ : ∃ (p : Fin 2000) (q : Fin 96), y = ix2 p q := ⟨y 0, y 1, eq_ix2 y⟩
  have hN : cfg1.N = 25 := N_1
  have ht : t.val < 25 := hN ▸ t.isLt
  obtain ⟨-, -, -, -, -, e0, e1⟩ := blockIdx1 t
  have hemb : ((cfg1.win 3).blk t).view.emb (ix2 p q)
      = (ix2 (⟨2000 * t.val + p.val, by omega⟩ : Fin 50000) q : S50000x96.Idx) := by
    funext a; apply Fin.ext
    match a with
    | ⟨0, _⟩ => show win1_3.index t 0 * 2000 + 1 * p.val = 2000 * t.val + p.val; rw [e0]; omega
    | ⟨1, _⟩ => show win1_3.index t 1 * 96 + 1 * q.val = q.val; rw [e1]; omega
  show k1_pay1 (F := Ideal) (iblk1 V c 0 t) (iblk1 V c 1 t) (iblk1 V c 2 t) (ix2 p q)
      = rowsAffine (feat1 V c) (wcat1 V c) (bias1 V c) (((cfg1.win 3).blk t).view.emb (ix2 p q))
  rw [hemb]
  exact pay1_block (feat1 V c) (wcat1 V c) (bias1 V c) (iblk1 V c 0 t) (iblk1 V c 1 t) (iblk1 V c 2 t) p q _
    (fun k => blk1_0_apply V c t p k _ rfl) (fun k => blk1_1_apply V c t k q) (blk1_2_apply V c t q)

/-- An entry of the result array lies in point `t`'s block iff each coordinate lies in the block's range. -/
theorem mem_resBlk1 (t : Fin cfg1.N) (i : S50000x96.Idx) :
    i ∈ ((cfg1.win 3).blk t).view.set
      ↔ ∀ a : Fin 2, win1_3.index t a * S2000x96.size a ≤ (i a).val
          ∧ (i a).val < win1_3.index t a * S2000x96.size a + S2000x96.size a := by
  show i ∈ ((View.whole main_v93).slice (win1_3.rect t)).set ↔ _
  rw [View.set_slice_whole, Rect.mem_set_unit]
  exact Iff.rfl

/-- Every entry of the result array is written: row `r` by point `r / 2000`. -/
theorem rows_cover1 (i : S50000x96.Idx) :
    ∃ t : Fin cfg1.N, (cfg1.win 3).flush t = true ∧ i ∈ ((cfg1.win 3).blk t).view.set := by
  have hN : cfg1.N = 25 := N_1
  have hi0 : (i 0).val < 50000 := (i 0).isLt
  have hi1 : (i 1).val < 96 := (i 1).isLt
  have hlt : (i 0).val / 2000 < cfg1.N := by rw [hN]; omega
  obtain ⟨-, -, -, -, -, e0, e1⟩ := blockIdx1 ⟨(i 0).val / 2000, hlt⟩
  refine ⟨⟨(i 0).val / 2000, hlt⟩, flush1_3 _, ?_⟩
  rw [mem_resBlk1]
  intro a
  match a with
  | ⟨0, _⟩ =>
    show win1_3.index ⟨(i 0).val / 2000, hlt⟩ 0 * 2000 ≤ (i 0).val
      ∧ (i 0).val < win1_3.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win1_3.index ⟨(i 0).val / 2000, hlt⟩ 1 * 96 ≤ (i 1).val
      ∧ (i 1).val < win1_3.index ⟨(i 0).val / 2000, hlt⟩ 1 * 96 + 96
    rw [e1]; omega

/-- So after the last point the second launch's result array is R₁ of the three arrays it read. -/
theorem arr1_eq (c : Dev nD) :
    (dat1 V c).arrAt 3 cfg1.N = rowsAffine (feat1 V c) (wcat1 V c) (bias1 V c) :=
  (dat1 V c).arrAt_eq_of_cover 3 (rowsAffine (feat1 V c) (wcat1 V c) (bias1 V c))
    (fun t _ => flushed1_eq V c t) rows_cover1

theorem arr1_apply (c : Dev nD) (p : Fin 50000) (q : Fin 96) :
    ((dat1 (F := Ideal) V c).arrAt 3 cfg1.N : S50000x96.Idx → EReal) (ix2 p q)
      = (∑ k : Fin 640, feat1 V c (ix2 p k) * wcat1 V c (ix2 k q)) + bias1 V c (ix1 q) := by
  rw [arr1_eq]
  exact rowsAffine_apply _ _ _ p q

end Region1

end Cert.KernelIdeal.Hand

end
-- ==== Proof.KI.HostValue.lean ====
/-
  The two host stretches of the idealized kernel program, read entry by entry on the extended reals.

  Each stretch takes a 50000 × 128 feature array h, the 2 × 600000 edge array (row 0 the sources, row 1 the
  destinations), the 600000 relation types, a 128 × D root weight array and a 4 × 128 × D relation weight array, and
  computes, in this order: the message rows (one gathered row of h per edge); the combined id 4 · dst e + et e of
  every edge, in 32-bit words; the 200000 × 128 array whose row s is the sum of the message rows of the edges with
  combined id s, and the length-200000 array of how many edges have combined id s; their quotient, the count
  first raised to at least one, regrouped so that row 4 i + r is (node i, relation r); the 50000 × 640 array whose row i is
  h i followed by the four means of node i; and the 640 × D array of the root weights followed by the four relations'
  weights. Read at an index these are exactly the index-level forms of the kernel's layer: entry (p, k') of the
  feature array is block k' / 128, offset k' % 128 of node p's five blocks, and row k' of the stacked weights is row
  k' % 128 of block k' / 128.

  The message rows are kept as one array that is never opened: everything after them only sums its rows.
  Each statement is made over an arbitrary contents of the device's buffers, so the second stretch, which starts from
  what the first launch left, is the first one's text again over other buffer names and D = 96.
-/
import proofs.«403790_j25340307046637_1_alg».proof.Proof.KI.Data
import proofs.«403790_j25340307046637_1_alg».proof.Proof.Spec
import proofs.«403790_j25340307046637_1_alg».proof.Proof.LibScatterAt
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## A line of operations cut in two, and a five-operand operation's result -/

section Lines
open StableHlo
variable {τ : Topo} {sig : RefSig} {Val : EltTy → Type}

/-- Two lines run one after the other leave what the second leaves from what the first left. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line cut after its first `k` operations. -/
theorem after_split (k : ℕ) (ops : List (HloOp τ sig Val)) (V : Valuation τ sig Val) :
    after ops V = after (ops.drop k) (after (ops.take k) V) := by
  rw [← after_append, List.take_append_drop]

/-- A five-operand operation leaves its function's value of the five operands' contents, each read at its own buffer. -/
theorem nary5_result {x a b c e y : Ref sig .tc}
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

end Lines

open StableHlo in
/-- What one buffer holds after a literal line: each operation's result at its own buffer is its function's value, at any
    other buffer what was there; a five-operand operation's operands are read one by one. -/
macro "after_line5" : tactic =>
  `(tactic| (simp only [after_cons, after_nil]
             repeat (first
               | rw [nullary_result] | rw [unary_result] | rw [binary_result] | rw [ternary_result]
               | rw [reshape_result] | rw [nary5_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## Five pieces of one shape laid end to end along an axis -/

/-- One of five. -/
def pick5 {α : Type} (x0 x1 x2 x3 x4 : α) : Fin 5 → α
  | ⟨0, _⟩ => x0
  | ⟨1, _⟩ => x1
  | ⟨2, _⟩ => x2
  | ⟨3, _⟩ => x3
  | _ => x4

/-- Five pieces of one shape, each of extent `K` along the axis, laid end to end: at an index whose axis coordinate is
    `c`, piece `c / K` at the index with axis coordinate `c % K` and the other coordinates unchanged. -/
theorem concat5_apply {α : Type} {t s₁ : Shape} (a : Fin t.rank) (x0 x1 x2 x3 x4 : s₁.Idx → α)
    (h : Shape.Concatenates [s₁, s₁, s₁, s₁, s₁] t a) (hr : s₁.rank = t.rank) (K : ℕ) (hK : s₁.size (a.cast hr.symm) = K)
    (j : t.Idx) (n : Fin 5) (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩, ⟨s₁, x4⟩] h j = pick5 x0 x1 x2 x3 x4 n i :=
  concatenate_ofFn_apply a (pick5 x0 x1 x2 x3 x4) h hr K hK j n hn i hia hi

/-! ## The stretch's values, as functions of the arrays they are computed from -/

section Values

/-- Row 0 of the edge array (the sources), as a vector. -/
abbrev srcRow (a1 : IVec S2x600000 32) : IVec S600000 32 :=
  shapeCast S600000 (extractStridedSlice S1x600000 ![0, 0] a1 slices_S2x600000_S1x600000_0_0) shapeCasts_S1x600000_S600000

/-- The message rows: row `e` is the row of `h` that edge `e`'s source names (a negative source counted from the end). -/
abbrev gatherV (x0 : S50000x128.Idx → EReal) (a1 : IVec S2x600000 32) : S600000x128.Idx → EReal :=
  Host.gather gather_S50000x128_S600000x1_S600000x128_1_0_n_n_0_1_1128 x0
    (broadcastInDim S600000x1 ![0] bcast_S600000_S600000x1_0
      (select (cmpi .slt (srcRow a1) (broadcastInDim S600000 ![] bcast_S_S600000 (constantI S_ 32 0#32)))
        (addi (srcRow a1) (broadcastInDim S600000 ![] bcast_S_S600000 (constantI S_ 32 50000#32)))
        (srcRow a1)))

/-- The combined ids: four times the destination plus the relation type, in 32-bit words. -/
def sidV (a1 : IVec S2x600000 32) (a2 : IVec S600000 32) : IVec S600000 32 :=
  addi (muli (shapeCast S600000 (extractStridedSlice S1x600000 ![1, 0] a1 slices_S2x600000_S1x600000_1_0) shapeCasts_S1x600000_S600000)
    (broadcastInDim S600000 ![] bcast_S_S600000 (constantI S_ 32 4#32))) a2

/-- Row `s`: the sum of the message rows of the edges whose combined id is `s`. -/
def sumV (sid : IVec S600000 32) (M : S600000x128.Idx → EReal) : S200000x128.Idx → EReal :=
  Host.scatterAdd (F := Ideal) (φ := .f32) scatter_S200000x128_S600000x1_S600000x128_1_0_0_1
    (broadcastInDim S200000x128 ![] bcast_S_S200000x128 (constant (F := Ideal) S_ .f32 0x00000000#32))
    (broadcastInDim S600000x1 ![0] bcast_S600000_S600000x1_0 sid) M

/-- Entry `s`: the number of edges whose combined id is `s`. -/
def degV (sid : IVec S600000 32) : S200000.Idx → EReal :=
  Host.scatterAdd (F := Ideal) (φ := .f32) scatter_S200000_S600000x1_S600000_n_0_0_1
    (broadcastInDim S200000 ![] bcast_S_S200000 (constant (F := Ideal) S_ .f32 0x00000000#32))
    (broadcastInDim S600000x1 ![0] bcast_S600000_S600000x1_0 sid)
    (broadcastInDim S600000 ![] bcast_S_S600000 (constant (F := Ideal) S_ .f32 0x3F800000#32))

/-- The means: the sums over the counts raised to at least one, row `4 i + r` regrouped as (node `i`, relation `r`). -/
def aggV (sid : IVec S600000 32) (M : S600000x128.Idx → EReal) : S50000x4x128.Idx → EReal :=
  Host.divf (F := Ideal) (φ := .f32) (shapeCast S50000x4x128 (sumV sid M) shapeCasts_S200000x128_S50000x4x128)
    (broadcastInDim S50000x4x128 ![0, 1, 2] bcast_S50000x4x1_S50000x4x128_0_1_2
      (broadcastInDim S50000x4x1 ![0, 1] bcast_S50000x4_S50000x4x1_0_1
        (maximumf (F := Ideal) (φ := .f32) (shapeCast S50000x4 (degV sid) shapeCasts_S200000_S50000x4)
          (broadcastInDim S50000x4 ![] bcast_S_S50000x4 (constant (F := Ideal) S_ .f32 0x3F800000#32)))))

/-- Relation `r`'s means as a 50000 × 128 array. -/
abbrev relV (A : S50000x4x128.Idx → EReal) (r : ℕ) (h : S50000x4x128.Slices ![0, r, 0] S50000x1x128) : S50000x128.Idx → EReal :=
  shapeCast S50000x128 (extractStridedSlice S50000x1x128 ![0, r, 0] A h) shapeCasts_S50000x1x128_S50000x128

/-- The 640-wide feature rows: a node's own features, then its mean for each relation. -/
def featV (x0 : S50000x128.Idx → EReal) (A : S50000x4x128.Idx → EReal) : S50000x640.Idx → EReal :=
  concatenate S50000x640 1
    [⟨S50000x128, x0⟩, ⟨S50000x128, relV A 0 slices_S50000x4x128_S50000x1x128_0_0_0⟩,
      ⟨S50000x128, relV A 1 slices_S50000x4x128_S50000x1x128_0_1_0⟩, ⟨S50000x128, relV A 2 slices_S50000x4x128_S50000x1x128_0_2_0⟩,
      ⟨S50000x128, relV A 3 slices_S50000x4x128_S50000x1x128_0_3_0⟩]
    concatenates_S50000x128_S50000x128_S50000x128_S50000x128_S50000x128_S50000x640_d1

/-- The combined ids as integers: the signed reading of the 32-bit word `4 · dst e + et e`. -/
def sidOf (a1 : IVec S2x600000 32) (a2 : IVec S600000 32) : Fin 600000 → ℤ :=
  fun e => (a1 (ix2 1 e) * 4#32 + a2 (ix1 e)).toInt

end Values

/-! ## The values read at an index -/

section Reads

/-- On the extended reals the host's adding scatter is the exact sum, whatever the order. -/
theorem scatterAdd_ideal {s si u : Shape} {φ : FTy} {w : ℕ} (d : ScatterDims s si u) (x : FVec Ideal s φ) (idx : IVec si w)
    (upd : FVec Ideal u φ) : Host.scatterAdd d x idx upd = Ideal.hostScatterAdd d x idx upd := rfl

/-- A vector laid out as one column reads the vector. -/
theorem column_apply (sid : IVec S600000 32) (e : Fin 600000) :
    broadcastInDim S600000x1 ![0] bcast_S600000_S600000x1_0 sid (ix2 e 0) = sid (ix1 e) :=
  broadcastInDim_apply _ _ _ _ (ix1 e) fun a => by
    match a with
    | ⟨0, _⟩ => rfl

/-- The combined id of edge `e`. -/
theorem sidV_apply (a1 : IVec S2x600000 32) (a2 : IVec S600000 32) (e : Fin 600000) :
    sidV a1 a2 (ix1 e) = a1 (ix2 1 e) * 4#32 + a2 (ix1 e) := by
  unfold sidV
  show (shapeCast S600000 _ _ (ix1 e)) * (broadcastInDim S600000 ![] bcast_S_S600000 (constantI S_ 32 4#32) (ix1 e)) + a2 (ix1 e) = _
  rw [shapeCast_apply _ _ (ix1 e) (ix2 (0 : Fin 1) e)
      (by rw [Shape.rowMajor_val_two, Shape.rowMajor_val_one]; show 0 * 600000 + e.val = e.val; omega),
    extractStridedSlice_apply _ _ _ (ix2 (0 : Fin 1) e) (ix2 (1 : Fin 2) e) (fun a => by
      match a with
      | ⟨0, _⟩ => rfl
      | ⟨1, _⟩ => show e.val = 0 + e.val; omega),
    broadcastInDim_scalar_apply]
  rfl

/-- Entry `(s, k)` of the summed rows: the sum of entry `k` of the message rows whose combined id is `s`. -/
theorem sumV_apply (sid : IVec S600000 32) (M : S600000x128.Idx → EReal) (s : Fin 200000) (k : Fin 128) :
    sumV sid M (ix2 s k) = Cert.Spec.segSum (fun e => (sid (ix1 e)).toInt) (fun e => M (ix2 e k)) (s.val : ℤ) := by
  unfold sumV Cert.Spec.segSum
  rw [scatterAdd_ideal, ScatterAt.hostScatterAdd_rows_apply _ rfl rfl rfl rfl, broadcastInDim_scalar_apply, constant_apply,
    Ideal.ofBits_zero_f32, zero_add]
  exact Finset.sum_congr (Finset.filter_congr fun e _ => by rw [column_apply]) fun _ _ => rfl

/-- Entry `s` of the counts: one for every edge whose combined id is `s`. -/
theorem degV_apply (sid : IVec S600000 32) (s : Fin 200000) :
    degV sid (ix1 s) = Cert.Spec.segSum (fun e => (sid (ix1 e)).toInt) (fun _ => (1 : EReal)) (s.val : ℤ) := by
  unfold degV Cert.Spec.segSum
  rw [scatterAdd_ideal, ScatterAt.hostScatterAdd_vec_apply _ rfl rfl rfl rfl, broadcastInDim_scalar_apply, constant_apply,
    Ideal.ofBits_zero_f32, zero_add]
  refine Finset.sum_congr (Finset.filter_congr fun e _ => by rw [column_apply]) fun e _ => ?_
  rw [broadcastInDim_scalar_apply, constant_apply, Ideal.ofBits_one_f32]

/-- The mean of node `i`, relation `r`, feature `k`: the kernel's form, filed under the combined id. -/
theorem aggV_apply (sid : IVec S600000 32) (M : S600000x128.Idx → EReal) (i : Fin 50000) (r : Fin 4) (k : Fin 128) :
    aggV sid M (ix3 i r k) = Cert.Spec.aggK (fun e k => M (ix2 e k)) (fun e => (sid (ix1 e)).toInt) i r k := by
  have hs : 4 * i.val + r.val < 200000 := by have := i.isLt; have := r.isLt; omega
  have hz : ((⟨4 * i.val + r.val, hs⟩ : Fin 200000).val : ℤ) = 4 * (i.val : ℤ) + (r.val : ℤ) := by
    show ((4 * i.val + r.val : ℕ) : ℤ) = _; omega
  unfold aggV Cert.Spec.aggK
  rw [hostDivf_apply,
    shapeCast_apply _ _ (ix3 i r k) (ix2 (⟨4 * i.val + r.val, hs⟩ : Fin 200000) k)
      (by rw [Shape.rowMajor_val_two, Shape.rowMajor_val_three]
          show (4 * i.val + r.val) * 128 + k.val = (i.val * 4 + r.val) * 128 + k.val; omega),
    sumV_apply,
    broadcastInDim_apply _ _ _ (ix3 i r k) (ix3 i r (0 : Fin 1)) (fun a => by
      match a with
      | ⟨0, _⟩ => rfl
      | ⟨1, _⟩ => rfl
      | ⟨2, _⟩ => rfl),
    broadcastInDim_apply _ _ _ (ix3 i r (0 : Fin 1)) (ix2 i r) (fun a => by
      match a with
      | ⟨0, _⟩ => rfl
      | ⟨1, _⟩ => rfl),
    maximumf_apply,
    shapeCast_apply _ _ (ix2 i r) (ix1 (⟨4 * i.val + r.val, hs⟩ : Fin 200000))
      (by rw [Shape.rowMajor_val_one, Shape.rowMajor_val_two]
          show 4 * i.val + r.val = i.val * 4 + r.val; omega),
    degV_apply, broadcastInDim_scalar_apply, constant_apply, Ideal.ofBits_one_f32, hz]

/-- Relation `r`'s array at `(p, q)` is the means' entry `(p, r, q)`. -/
theorem relV_apply (A : S50000x4x128.Idx → EReal) (r : ℕ) (hr : r < 4) (h : S50000x4x128.Slices ![0, r, 0] S50000x1x128)
    (p : Fin 50000) (q : Fin 128) : relV A r h (ix2 p q) = A (ix3 p (⟨r, hr⟩ : Fin 4) q) := by
  unfold relV
  rw [shapeCast_apply _ _ (ix2 p q) (ix3 p (0 : Fin 1) q)
      (by rw [Shape.rowMajor_val_three, Shape.rowMajor_val_two]
          show (p.val * 1 + 0) * 128 + q.val = p.val * 128 + q.val; omega)]
  exact extractStridedSlice_apply _ _ _ _ _ fun a => by
    match a with
    | ⟨0, _⟩ => show p.val = 0 + p.val; omega
    | ⟨1, _⟩ => show r = r + 0; omega
    | ⟨2, _⟩ => show q.val = 0 + q.val; omega

/-- Entry `(p, k')` of the feature rows: block `k' / 128`, offset `k' % 128` of node `p`'s five blocks. -/
theorem featV_apply (x0 : S50000x128.Idx → EReal) (A : S50000x4x128.Idx → EReal) (p : Fin 50000) (k' : Fin 640) :
    featV x0 A (ix2 p k')
      = Cert.Spec.featP (fun i k => x0 (ix2 i k)) (fun i r k => A (ix3 i r k)) p
          ⟨k'.val / 128, by have := k'.isLt; omega⟩ ⟨k'.val % 128, Nat.mod_lt _ (by decide)⟩ := by
  unfold featV
  rw [concat5_apply (t := S50000x640) (s₁ := S50000x128) 1 _ _ _ _ _ _ rfl 128 rfl (ix2 p k') ⟨k'.val / 128, by have := k'.isLt; omega⟩ rfl
    (ix2 p (⟨k'.val % 128, Nat.mod_lt _ (by decide)⟩ : Fin 128)) rfl (fun b hb => by
      match b with
      | ⟨0, _⟩ => rfl
      | ⟨1, _⟩ => exact absurd rfl hb)]
  generalize (⟨k'.val / 128, _⟩ : Fin 5) = n
  generalize (⟨k'.val % 128, _⟩ : Fin 128) = q
  match n with
  | ⟨0, _⟩ => rfl
  | ⟨1, _⟩ => exact relV_apply A 0 (by decide) _ p q
  | ⟨2, _⟩ => exact relV_apply A 1 (by decide) _ p q
  | ⟨3, _⟩ => exact relV_apply A 2 (by decide) _ p q
  | ⟨4, _⟩ => exact relV_apply A 3 (by decide) _ p q

/-- The stacked weights: the root weights, then each relation's, 128 rows each; at `(k', q)`, row `k' % 128` of block
    `k' / 128`. Stated at any width `D` of the weight arrays. -/
theorem wcat_apply {D : ℕ} (w3 : (⟨2, ![128, D]⟩ : Shape).Idx → EReal) (w4 : (⟨3, ![4, 128, D]⟩ : Shape).Idx → EReal)
    (hs0 : (⟨3, ![4, 128, D]⟩ : Shape).Slices ![0, 0, 0] ⟨3, ![1, 128, D]⟩)
    (hs1 : (⟨3, ![4, 128, D]⟩ : Shape).Slices ![1, 0, 0] ⟨3, ![1, 128, D]⟩)
    (hs2 : (⟨3, ![4, 128, D]⟩ : Shape).Slices ![2, 0, 0] ⟨3, ![1, 128, D]⟩)
    (hs3 : (⟨3, ![4, 128, D]⟩ : Shape).Slices ![3, 0, 0] ⟨3, ![1, 128, D]⟩)
    (hc : (⟨3, ![1, 128, D]⟩ : Shape).ShapeCasts ⟨2, ![128, D]⟩)
    (hcat : Shape.Concatenates [(⟨2, ![128, D]⟩ : Shape), ⟨2, ![128, D]⟩, ⟨2, ![128, D]⟩, ⟨2, ![128, D]⟩, ⟨2, ![128, D]⟩] ⟨2, ![640, D]⟩ 0)
    (k' : Fin 640) (q : Fin D) :
    concatenate (⟨2, ![640, D]⟩ : Shape) 0
        [⟨⟨2, ![128, D]⟩, w3⟩,
          ⟨⟨2, ![128, D]⟩, shapeCast ⟨2, ![128, D]⟩ (extractStridedSlice ⟨3, ![1, 128, D]⟩ ![0, 0, 0] w4 hs0) hc⟩,
          ⟨⟨2, ![128, D]⟩, shapeCast ⟨2, ![128, D]⟩ (extractStridedSlice ⟨3, ![1, 128, D]⟩ ![1, 0, 0] w4 hs1) hc⟩,
          ⟨⟨2, ![128, D]⟩, shapeCast ⟨2, ![128, D]⟩ (extractStridedSlice ⟨3, ![1, 128, D]⟩ ![2, 0, 0] w4 hs2) hc⟩,
          ⟨⟨2, ![128, D]⟩, shapeCast ⟨2, ![128, D]⟩ (extractStridedSlice ⟨3, ![1, 128, D]⟩ ![3, 0, 0] w4 hs3) hc⟩]
        hcat (ix2 k' q)
      = Cert.Spec.wP (fun k j => w3 (ix2 k j)) (fun r k j => w4 (ix3 r k j))
          ⟨k'.val / 128, by have := k'.isLt; omega⟩ ⟨k'.val % 128, Nat.mod_lt _ (by decide)⟩ q := by
  have rd : ∀ (r : ℕ) (hr : r < 4) (h : (⟨3, ![4, 128, D]⟩ : Shape).Slices ![r, 0, 0] ⟨3, ![1, 128, D]⟩) (k : Fin 128),
      shapeCast ⟨2, ![128, D]⟩ (extractStridedSlice ⟨3, ![1, 128, D]⟩ ![r, 0, 0] w4 h) hc (ix2 k q) = w4 (ix3 (⟨r, hr⟩ : Fin 4) k q) := by
    intro r hr h k
    rw [shapeCast_apply _ _ (ix2 k q) (ix3 (0 : Fin 1) k q)
        (by rw [Shape.rowMajor_val_three, Shape.rowMajor_val_two]
            show (0 * 128 + k.val) * D + q.val = k.val * D + q.val; rw [Nat.zero_mul, Nat.zero_add])]
    exact extractStridedSlice_apply _ _ _ _ _ fun a => by
      match a with
      | ⟨0, _⟩ => show r = r + 0; omega
      | ⟨1, _⟩ => show k.val = 0 + k.val; omega
      | ⟨2, _⟩ => show q.val = 0 + q.val; omega
  rw [concat5_apply (t := ⟨2, ![640, D]⟩) (s₁ := ⟨2, ![128, D]⟩) 0 _ _ _ _ _ _ rfl 128 rfl (ix2 k' q) ⟨k'.val / 128, by have := k'.isLt; omega⟩ rfl
    (ix2 (⟨k'.val % 128, Nat.mod_lt _ (by decide)⟩ : Fin 128) q) rfl (fun b hb => by
      match b with
      | ⟨0, _⟩ => exact absurd rfl hb
      | ⟨1, _⟩ => rfl)]
  generalize (⟨k'.val / 128, _⟩ : Fin 5) = n
  generalize (⟨k'.val % 128, _⟩ : Fin 128) = k
  match n with
  | ⟨0, _⟩ => rfl
  | ⟨1, _⟩ => exact rd 0 (by decide) _ k
  | ⟨2, _⟩ => exact rd 1 (by decide) _ k
  | ⟨3, _⟩ => exact rd 2 (by decide) _ k
  | ⟨4, _⟩ => exact rd 3 (by decide) _ k

end Reads

/-! ## The first stretch -/

section Stretch0
open StableHlo
variable (U : Valuation τ sig (Elt Ideal))

/-- Up to the means: the message rows … -/
theorem pre0_msg :
    (after ((hostOps0 (F := Ideal)).take 35) U (Proc.devRef .tc main_v10) : S600000x128.Idx → EReal)
      = gatherV (U (Proc.devRef .tc main_arg0)) (U (Proc.devRef .tc main_arg1)) := by
  simp only [hostOps0, List.take_succ_cons, List.take_zero]
  after_results_simp
  rfl

/-- … the means, from the message rows and the combined ids … -/
theorem pre0_agg :
    (after ((hostOps0 (F := Ideal)).take 35) U (Proc.devRef .tc main_v27) : S50000x4x128.Idx → EReal)
      = aggV (sidV (U (Proc.devRef .tc main_arg1)) (U (Proc.devRef .tc main_arg2)))
          (gatherV (U (Proc.devRef .tc main_arg0)) (U (Proc.devRef .tc main_arg1))) := by
  simp only [hostOps0, List.take_succ_cons, List.take_zero]
  after_results_simp
  rfl

/-- … and the feature array it reads, unchanged. -/
theorem pre0_keep :
    after ((hostOps0 (F := Ideal)).take 35) U (Proc.devRef .tc main_arg0) = U (Proc.devRef .tc main_arg0) := by
  simp only [hostOps0, List.take_succ_cons, List.take_zero]
  after_results_simp

/-- From the means on: the feature rows … -/
theorem post0_feat (W : Valuation τ sig (Elt Ideal)) :
    (after ((hostOps0 (F := Ideal)).drop 35) W (Proc.devRef .tc main_v36) : S50000x640.Idx → EReal)
      = featV (W (Proc.devRef .tc main_arg0)) (W (Proc.devRef .tc main_v27)) := by
  simp only [hostOps0, List.drop_succ_cons, List.drop_zero]
  after_line5
  rfl

/-- … and the message rows, unchanged. -/
theorem post0_msg (W : Valuation τ sig (Elt Ideal)) :
    after ((hostOps0 (F := Ideal)).drop 35) W (Proc.devRef .tc main_v10) = W (Proc.devRef .tc main_v10) := by
  simp only [hostOps0, List.drop_succ_cons, List.drop_zero]
  after_results_simp

/-- Before the last nine operations the two weight arrays are as they were … -/
theorem preW0_keep {r : Ref sig .tc} (hr : r = main_arg3 ∨ r = main_arg4) :
    after ((hostOps0 (F := Ideal)).take 44) U (Proc.devRef .tc r) = U (Proc.devRef .tc r) := by
  rcases hr with rfl | rfl <;>
  · simp only [hostOps0, List.take_succ_cons, List.take_zero]
    after_results_simp

/-- … and the last nine stack them. -/
theorem postW0_wcat (W : Valuation τ sig (Elt Ideal)) :
    (after ((hostOps0 (F := Ideal)).drop 44) W (Proc.devRef .tc main_v45) : S640x128.Idx → EReal)
      = concatenate S640x128 0
          [⟨S128x128, W (Proc.devRef .tc main_arg3)⟩,
            ⟨S128x128, shapeCast S128x128 (extractStridedSlice S1x128x128 ![0, 0, 0] (W (Proc.devRef .tc main_arg4)) slices_S4x128x128_S1x128x128_0_0_0) shapeCasts_S1x128x128_S128x128⟩,
            ⟨S128x128, shapeCast S128x128 (extractStridedSlice S1x128x128 ![1, 0, 0] (W (Proc.devRef .tc main_arg4)) slices_S4x128x128_S1x128x128_1_0_0) shapeCasts_S1x128x128_S128x128⟩,
            ⟨S128x128, shapeCast S128x128 (extractStridedSlice S1x128x128 ![2, 0, 0] (W (Proc.devRef .tc main_arg4)) slices_S4x128x128_S1x128x128_2_0_0) shapeCasts_S1x128x128_S128x128⟩,
            ⟨S128x128, shapeCast S128x128 (extractStridedSlice S1x128x128 ![3, 0, 0] (W (Proc.devRef .tc main_arg4)) slices_S4x128x128_S1x128x128_3_0_0) shapeCasts_S1x128x128_S128x128⟩]
          concatenates_S128x128_S128x128_S128x128_S128x128_S128x128_S640x128_d0 := by
  simp only [hostOps0, List.drop_succ_cons, List.drop_zero]
  after_line5
  rfl

/-- The message rows of the stretch, entry by entry: kept as they are computed. -/
def msg0 : Fin 600000 → Fin 128 → EReal := fun e k =>
  (after hostOps0 U (Proc.devRef .tc main_v10) : S600000x128.Idx → EReal) (ix2 e k)

/-- The combined id of edge `e`, as an integer. -/
def sid0 : Fin 600000 → ℤ :=
  sidOf (U (Proc.devRef .tc main_arg1)) (U (Proc.devRef .tc main_arg2))

/-- The message rows are the gathered rows of the stretch's feature array. -/
theorem msg0_eq :
    (after hostOps0 U (Proc.devRef .tc main_v10) : S600000x128.Idx → EReal)
      = gatherV (U (Proc.devRef .tc main_arg0)) (U (Proc.devRef .tc main_arg1)) := by
  rw [after_split 35, post0_msg, pre0_msg]

/-- The feature rows are the stretch's feature array beside the means of its message rows. -/
theorem feat0_eq :
    (after hostOps0 U (Proc.devRef .tc main_v36) : S50000x640.Idx → EReal)
      = featV (U (Proc.devRef .tc main_arg0))
          (aggV (sidV (U (Proc.devRef .tc main_arg1)) (U (Proc.devRef .tc main_arg2)))
            (after hostOps0 U (Proc.devRef .tc main_v10))) := by
  rw [msg0_eq, after_split 35, post0_feat, pre0_keep, pre0_agg]

/-- Entry `(p, k')` of the feature rows the first launch reads. -/
theorem feat0_apply (p : Fin 50000) (k' : Fin 640) :
    (after hostOps0 U (Proc.devRef .tc main_v36) : S50000x640.Idx → EReal) (ix2 p k')
      = Cert.Spec.featP (fun i k => (U (Proc.devRef .tc main_arg0) : S50000x128.Idx → EReal) (ix2 i k))
          (Cert.Spec.aggK (msg0 U) (sid0 U)) p
          ⟨k'.val / 128, by have := k'.isLt; omega⟩ ⟨k'.val % 128, Nat.mod_lt _ (by decide)⟩ := by
  have ha : (fun (i : Fin 50000) (r : Fin 4) (k : Fin 128) =>
        aggV (sidV (U (Proc.devRef .tc main_arg1)) (U (Proc.devRef .tc main_arg2)))
          (after hostOps0 U (Proc.devRef .tc main_v10)) (ix3 i r k))
      = Cert.Spec.aggK (msg0 U) (sid0 U) := by
    funext i r k
    rw [aggV_apply]
    unfold msg0 sid0 sidOf
    simp only [sidV_apply]
  rw [feat0_eq, featV_apply, ha]

/-- Entry `(k', q)` of the stacked weights the first launch reads. -/
theorem wcat0_apply (k' : Fin 640) (q : Fin 128) :
    (after hostOps0 U (Proc.devRef .tc main_v45) : S640x128.Idx → EReal) (ix2 k' q)
      = Cert.Spec.wP (fun k j => (U (Proc.devRef .tc main_arg3) : S128x128.Idx → EReal) (ix2 k j))
          (fun r k j => (U (Proc.devRef .tc main_arg4) : S4x128x128.Idx → EReal) (ix3 r k j))
          ⟨k'.val / 128, by have := k'.isLt; omega⟩ ⟨k'.val % 128, Nat.mod_lt _ (by decide)⟩ q := by
  rw [after_split 44, postW0_wcat, preW0_keep U (Or.inl rfl), preW0_keep U (Or.inr rfl)]
  exact wcat_apply _ _ _ _ _ _ _ _ k' q

end Stretch0

/-! ## The second stretch -/

section Stretch1
open StableHlo
variable (U : Valuation τ sig (Elt Ideal))

/-- Up to the means: the message rows … -/
theorem pre1_msg :
    (after ((hostOps1 (F := Ideal)).take 35) U (Proc.devRef .tc main_v57) : S600000x128.Idx → EReal)
      = gatherV (U (Proc.devRef .tc main_v46)) (U (Proc.devRef .tc main_arg1)) := by
  simp only [hostOps1, List.take_succ_cons, List.take_zero]
  after_results_simp
  rfl

/-- … the means, from the message rows and the combined ids … -/
theorem pre1_agg :
    (after ((hostOps1 (F := Ideal)).take 35) U (Proc.devRef .tc main_v74) : S50000x4x128.Idx → EReal)
      = aggV (sidV (U (Proc.devRef .tc main_arg1)) (U (Proc.devRef .tc main_arg2)))
          (gatherV (U (Proc.devRef .tc main_v46)) (U (Proc.devRef .tc main_arg1))) := by
  simp only [hostOps1, List.take_succ_cons, List.take_zero]
  after_results_simp
  rfl

/-- … and the feature array it reads, unchanged. -/
theorem pre1_keep :
    after ((hostOps1 (F := Ideal)).take 35) U (Proc.devRef .tc main_v46) = U (Proc.devRef .tc main_v46) := by
  simp only [hostOps1, List.take_succ_cons, List.take_zero]
  after_results_simp

/-- From the means on: the feature rows … -/
theorem post1_feat (W : Valuation τ sig (Elt Ideal)) :
    (after ((hostOps1 (F := Ideal)).drop 35) W (Proc.devRef .tc main_v83) : S50000x640.Idx → EReal)
      = featV (W (Proc.devRef .tc main_v46)) (W (Proc.devRef .tc main_v74)) := by
  simp only [hostOps1, List.drop_succ_cons, List.drop_zero]
  after_line5
  rfl

/-- … and the message rows, unchanged. -/
theorem post1_msg (W : Valuation τ sig (Elt Ideal)) :
    after ((hostOps1 (F := Ideal)).drop 35) W (Proc.devRef .tc main_v57) = W (Proc.devRef .tc main_v57) := by
  simp only [hostOps1, List.drop_succ_cons, List.drop_zero]
  after_results_simp

/-- Before the last nine operations the two weight arrays are as they were … -/
theorem preW1_keep {r : Ref sig .tc} (hr : r = main_arg6 ∨ r = main_arg7) :
    after ((hostOps1 (F := Ideal)).take 44) U (Proc.devRef .tc r) = U (Proc.devRef .tc r) := by
  rcases hr with rfl | rfl <;>
  · simp only [hostOps1, List.take_succ_cons, List.take_zero]
    after_results_simp

/-- … and the last nine stack them. -/
theorem postW1_wcat (W : Valuation τ sig (Elt Ideal)) :
    (after ((hostOps1 (F := Ideal)).drop 44) W (Proc.devRef .tc main_v92) : S640x96.Idx → EReal)
      = concatenate S640x96 0
          [⟨S128x96, W (Proc.devRef .tc main_arg6)⟩,
            ⟨S128x96, shapeCast S128x96 (extractStridedSlice S1x128x96 ![0, 0, 0] (W (Proc.devRef .tc main_arg7)) slices_S4x128x96_S1x128x96_0_0_0) shapeCasts_S1x128x96_S128x96⟩,
            ⟨S128x96, shapeCast S128x96 (extractStridedSlice S1x128x96 ![1, 0, 0] (W (Proc.devRef .tc main_arg7)) slices_S4x128x96_S1x128x96_1_0_0) shapeCasts_S1x128x96_S128x96⟩,
            ⟨S128x96, shapeCast S128x96 (extractStridedSlice S1x128x96 ![2, 0, 0] (W (Proc.devRef .tc main_arg7)) slices_S4x128x96_S1x128x96_2_0_0) shapeCasts_S1x128x96_S128x96⟩,
            ⟨S128x96, shapeCast S128x96 (extractStridedSlice S1x128x96 ![3, 0, 0] (W (Proc.devRef .tc main_arg7)) slices_S4x128x96_S1x128x96_3_0_0) shapeCasts_S1x128x96_S128x96⟩]
          concatenates_S128x96_S128x96_S128x96_S128x96_S128x96_S640x96_d0 := by
  simp only [hostOps1, List.drop_succ_cons, List.drop_zero]
  after_line5
  rfl

/-- The message rows of the stretch, entry by entry: kept as they are computed. -/
def msg1 : Fin 600000 → Fin 128 → EReal := fun e k =>
  (after hostOps1 U (Proc.devRef .tc main_v57) : S600000x128.Idx → EReal) (ix2 e k)

/-- The combined id of edge `e`, as an integer. -/
def sid1 : Fin 600000 → ℤ :=
  sidOf (U (Proc.devRef .tc main_arg1)) (U (Proc.devRef .tc main_arg2))

/-- The message rows are the gathered rows of the stretch's feature array. -/
theorem msg1_eq :
    (after hostOps1 U (Proc.devRef .tc main_v57) : S600000x128.Idx → EReal)
      = gatherV (U (Proc.devRef .tc main_v46)) (U (Proc.devRef .tc main_arg1)) := by
  rw [after_split 35, post1_msg, pre1_msg]

/-- The feature rows are the stretch's feature array beside the means of its message rows. -/
theorem feat1_eq :
    (after hostOps1 U (Proc.devRef .tc main_v83) : S50000x640.Idx → EReal)
      = featV (U (Proc.devRef .tc main_v46))
          (aggV (sidV (U (Proc.devRef .tc main_arg1)) (U (Proc.devRef .tc main_arg2)))
            (after hostOps1 U (Proc.devRef .tc main_v57))) := by
  rw [msg1_eq, after_split 35, post1_feat, pre1_keep, pre1_agg]

/-- Entry `(p, k')` of the feature rows the second launch reads. -/
theorem feat1_apply (p : Fin 50000) (k' : Fin 640) :
    (after hostOps1 U (Proc.devRef .tc main_v83) : S50000x640.Idx → EReal) (ix2 p k')
      = Cert.Spec.featP (fun i k => (U (Proc.devRef .tc main_v46) : S50000x128.Idx → EReal) (ix2 i k))
          (Cert.Spec.aggK (msg1 U) (sid1 U)) p
          ⟨k'.val / 128, by have := k'.isLt; omega⟩ ⟨k'.val % 128, Nat.mod_lt _ (by decide)⟩ := by
  have ha : (fun (i : Fin 50000) (r : Fin 4) (k : Fin 128) =>
        aggV (sidV (U (Proc.devRef .tc main_arg1)) (U (Proc.devRef .tc main_arg2)))
          (after hostOps1 U (Proc.devRef .tc main_v57)) (ix3 i r k))
      = Cert.Spec.aggK (msg1 U) (sid1 U) := by
    funext i r k
    rw [aggV_apply]
    unfold msg1 sid1 sidOf
    simp only [sidV_apply]
  rw [feat1_eq, featV_apply, ha]

/-- Entry `(k', q)` of the stacked weights the second launch reads. -/
theorem wcat1_apply (k' : Fin 640) (q : Fin 96) :
    (after hostOps1 U (Proc.devRef .tc main_v92) : S640x96.Idx → EReal) (ix2 k' q)
      = Cert.Spec.wP (fun k j => (U (Proc.devRef .tc main_arg6) : S128x96.Idx → EReal) (ix2 k j))
          (fun r k j => (U (Proc.devRef .tc main_arg7) : S4x128x96.Idx → EReal) (ix3 r k j))
          ⟨k'.val / 128, by have := k'.isLt; omega⟩ ⟨k'.val % 128, Nat.mod_lt _ (by decide)⟩ q := by
  rw [after_split 44, postW1_wcat, preW1_keep U (Or.inl rfl), preW1_keep U (Or.inr rfl)]
  exact wcat_apply _ _ _ _ _ _ _ _ k' q

end Stretch1

end Cert.KernelIdeal.Hand

end
-- ==== Proof.TwoLayer.lean ====
/-
  The two layers composed, in both forms.

  The messages of a layer are a fixed function `G` of that layer's input features (rows gathered by the edges'
  sources). The second layer's input is the first layer's result cut off below at zero. Since the two forms of
  one layer agree on every input, the two compositions agree: first on the hidden features, hence on the
  second layer's messages, hence on the result.
-/
import proofs.«403790_j25340307046637_1_alg».proof.Proof.Spec

noncomputable section

namespace Cert.Spec

variable {D : ℕ}

/-- One layer in the kernel's form, with the kernel's way of filing the edges, equals the layer in the reference's
    form with the reference's way, for in-range destinations and types. -/
theorem layer_forms (h : Fin 50000 → Fin 128 → EReal) (msg : Fin 600000 → Fin 128 → EReal) (dst et sid : Fin 600000 → ℤ)
    (hsid : ∀ e, sid e = 4 * dst e + et e) (het : ∀ e, 0 ≤ et e ∧ et e < 4)
    (wroot : Fin 128 → Fin D → EReal) (wrel : Fin 4 → Fin 128 → Fin D → EReal) (b : Fin D → EReal) (i : Fin 50000) (j : Fin D) :
    layerK h (aggK msg sid) wroot wrel b i j = layerR h (aggR msg dst et) wroot wrel b i j := by
  rw [layerK_eq_layerR]
  have ha : aggK msg sid = aggR msg dst et := by
    funext i r k; exact aggK_eq_aggR msg dst et sid hsid het i r k
  rw [ha]

/-- Both layers. -/
theorem two_layers (G : (Fin 50000 → Fin 128 → EReal) → Fin 600000 → Fin 128 → EReal)
    (x : Fin 50000 → Fin 128 → EReal) (dst et sid : Fin 600000 → ℤ)
    (hsid : ∀ e, sid e = 4 * dst e + et e) (het : ∀ e, 0 ≤ et e ∧ et e < 4)
    (wr1 : Fin 128 → Fin 128 → EReal) (wl1 : Fin 4 → Fin 128 → Fin 128 → EReal) (b1 : Fin 128 → EReal)
    (wr2 : Fin 128 → Fin 96 → EReal) (wl2 : Fin 4 → Fin 128 → Fin 96 → EReal) (b2 : Fin 96 → EReal)
    (p : Fin 50000) (q : Fin 96) :
    layerK (fun i k => max (layerK x (aggK (G x) sid) wr1 wl1 b1 i k) 0)
        (aggK (G fun i k => max (layerK x (aggK (G x) sid) wr1 wl1 b1 i k) 0) sid) wr2 wl2 b2 p q
      = layerR (fun i k => max (layerR x (aggR (G x) dst et) wr1 wl1 b1 i k) 0)
        (aggR (G fun i k => max (layerR x (aggR (G x) dst et) wr1 wl1 b1 i k) 0) dst et) wr2 wl2 b2 p q := by
  have h1 : (fun i k => max (layerK x (aggK (G x) sid) wr1 wl1 b1 i k) 0)
      = fun i k => max (layerR x (aggR (G x) dst et) wr1 wl1 b1 i k) 0 := by
    funext i k; rw [layer_forms x (G x) dst et sid hsid het]
  rw [h1]
  exact layer_forms _ _ dst et sid hsid het wr2 wl2 b2 p q

/-- The two layers in the kernel's form: the first layer's result cut off below at zero is the second layer's input. -/
def outK (G : (Fin 50000 → Fin 128 → EReal) → Fin 600000 → Fin 128 → EReal)
    (x : Fin 50000 → Fin 128 → EReal) (sid : Fin 600000 → ℤ)
    (wr1 : Fin 128 → Fin 128 → EReal) (wl1 : Fin 4 → Fin 128 → Fin 128 → EReal) (b1 : Fin 128 → EReal)
    (wr2 : Fin 128 → Fin 96 → EReal) (wl2 : Fin 4 → Fin 128 → Fin 96 → EReal) (b2 : Fin 96 → EReal)
    (p : Fin 50000) (q : Fin 96) : EReal :=
  layerK (fun i k => max (layerK x (aggK (G x) sid) wr1 wl1 b1 i k) 0)
    (aggK (G fun i k => max (layerK x (aggK (G x) sid) wr1 wl1 b1 i k) 0) sid) wr2 wl2 b2 p q

/-- The two layers in the reference's form. -/
def outR (G : (Fin 50000 → Fin 128 → EReal) → Fin 600000 → Fin 128 → EReal)
    (x : Fin 50000 → Fin 128 → EReal) (dst et : Fin 600000 → ℤ)
    (wr1 : Fin 128 → Fin 128 → EReal) (wl1 : Fin 4 → Fin 128 → Fin 128 → EReal) (b1 : Fin 128 → EReal)
    (wr2 : Fin 128 → Fin 96 → EReal) (wl2 : Fin 4 → Fin 128 → Fin 96 → EReal) (b2 : Fin 96 → EReal)
    (p : Fin 50000) (q : Fin 96) : EReal :=
  layerR (fun i k => max (layerR x (aggR (G x) dst et) wr1 wl1 b1 i k) 0)
    (aggR (G fun i k => max (layerR x (aggR (G x) dst et) wr1 wl1 b1 i k) 0) dst et) wr2 wl2 b2 p q

theorem outK_eq_outR (G : (Fin 50000 → Fin 128 → EReal) → Fin 600000 → Fin 128 → EReal)
    (x : Fin 50000 → Fin 128 → EReal) (dst et sid : Fin 600000 → ℤ)
    (hsid : ∀ e, sid e = 4 * dst e + et e) (het : ∀ e, 0 ≤ et e ∧ et e < 4)
    (wr1 : Fin 128 → Fin 128 → EReal) (wl1 : Fin 4 → Fin 128 → Fin 128 → EReal) (b1 : Fin 128 → EReal)
    (wr2 : Fin 128 → Fin 96 → EReal) (wl2 : Fin 4 → Fin 128 → Fin 96 → EReal) (b2 : Fin 96 → EReal)
    (p : Fin 50000) (q : Fin 96) :
    outK G x sid wr1 wl1 b1 wr2 wl2 b2 p q = outR G x dst et wr1 wl1 b1 wr2 wl2 b2 p q :=
  two_layers G x dst et sid hsid het wr1 wl1 b1 wr2 wl2 b2 p q

end Cert.Spec

end
-- ==== Proof.KI.Value.lean ====
/-
  The idealized kernel program's result, index by index, in the kernel's form of the two layers.

  The run leaves the result array at what the second launch's write-backs leave; that is (region by region)
  the affine map of the launch's 640-wide feature array, its stacked weights and its bias; those arrays are
  what the host stretch before the launch computed: the feature row of node i is the node's own 128 features
  followed by its four relation means, the weight rows are the root weights followed by the four relation
  weights. The first stretch works on the program's input, the second on the first launch's result (cut
  off below at zero inside the launch). No host operation and no launch writes an argument, so every argument
  is read at its launch contents throughout.
-/
import proofs.«403790_j25340307046637_1_alg».proof.Proof.KI.Data
import proofs.«403790_j25340307046637_1_alg».proof.Proof.KI.RegionValue
import proofs.«403790_j25340307046637_1_alg».proof.Proof.KI.HostValue
import proofs.«403790_j25340307046637_1_alg».proof.Proof.Gen.KernelIdeal.Regions
import proofs.«403790_j25340307046637_1_alg».proof.Proof.TwoLayer

set_option maxRecDepth 16384

noncomputable section

namespace Cert.KernelIdeal.Hand

open Idealize.ShloMosaic Idealize.ShloMosaic.TcCoe Idealize.ShloMosaic.ValueIdx Idealize.SL.Sem
open Cert.Spec Cert.KernelIdeal Cert.KernelIdeal.Gen

variable (m : (ℓ : Loc nD τ sig) → Buf (Elt Ideal) ℓ) (ρ : Dev nD → PrngReg) (c : Dev nD)

/-- A host stretch leaves a buffer none of its operations writes as it found it. -/
theorem keep0 (U : Valuation τ sig (Elt Ideal)) (r : Ref sig .tc) (h : r ∉ hostOps0_W) :
    StableHlo.after hostOps0 U (Proc.devRef .tc r) = U (Proc.devRef .tc r) :=
  StableHlo.after_of_writes_sub hostOps0 U hostOps0_writes h
theorem keep1 (U : Valuation τ sig (Elt Ideal)) (r : Ref sig .tc) (h : r ∉ hostOps1_W) :
    StableHlo.after hostOps1 U (Proc.devRef .tc r) = U (Proc.devRef .tc r) :=
  StableHlo.after_of_writes_sub hostOps1 U hostOps1_writes h

/-- The nine argument arrays at launch, at their literal types. -/
abbrev mX : S50000x128.Idx → EReal := m ((c : Thread nD τ).loc main_arg0)
abbrev mEI : IVec S2x600000 32 := m ((c : Thread nD τ).loc main_arg1)
abbrev mET : IVec S600000 32 := m ((c : Thread nD τ).loc main_arg2)
abbrev mWr1 : S128x128.Idx → EReal := m ((c : Thread nD τ).loc main_arg3)
abbrev mWl1 : S4x128x128.Idx → EReal := m ((c : Thread nD τ).loc main_arg4)
abbrev mB1 : S128.Idx → EReal := m ((c : Thread nD τ).loc main_arg5)
abbrev mWr2 : S128x96.Idx → EReal := m ((c : Thread nD τ).loc main_arg6)
abbrev mWl2 : S4x128x96.Idx → EReal := m ((c : Thread nD τ).loc main_arg7)
abbrev mB2 : S96.Idx → EReal := m ((c : Thread nD τ).loc main_arg8)

/-- An argument is untouched by the first stretch and the first launch: read after them, it is the launch memory's. -/
theorem W2_arg (r : Ref sig .tc) (h0 : r ∉ hostOps0_W) (hw : ∀ w, Pipeline.arrRef spec0 w ≠ r) :
    W2 m ρ c (Proc.devRef .tc r) = W0 m ρ c (Proc.devRef .tc r) :=
  (W2_of_ne m ρ c r hw).trans (keep0 (W0 m ρ c) r h0)

/-- The first layer's result, by coordinates: the kernel form of the layer on the launch arrays, cut off below at zero. -/
def h1K : Fin 50000 → Fin 128 → EReal := fun i k =>
  max (layerK (fun i k => mX m c (ix2 i k)) (aggK (msg0 (W0 m ρ c)) (sid0 (W0 m ρ c)))
    (fun k j => mWr1 m c (ix2 k j)) (fun r k j => mWl1 m c (ix3 r k j)) (fun j => mB1 m c (ix1 j)) i k) 0

/-- What the first launch leaves in its result array. -/
theorem W2_v46 (i : Fin 50000) (k : Fin 128) :
    (W2 m ρ c (Proc.devRef .tc main_v46) : S50000x128.Idx → EReal) (ix2 i k) = h1K m ρ c i k := by
  have hA : W2 m ρ c (Proc.devRef .tc main_v46) = (dat0 (V1 m ρ) c).arrAt 3 cfg0.N := W2_arr m ρ c 3
  rw [hA, arr0_apply (V1 m ρ) c i k]
  unfold h1K layerK
  have hb : bias0 (V1 m ρ) c (ix1 k) = mB1 m c (ix1 k) := by
    show (StableHlo.after hostOps0 (W0 m ρ c) (Proc.devRef .tc main_arg5) : S128.Idx → EReal) (ix1 k) = _
    rw [keep0 (W0 m ρ c) main_arg5 (by decide)]
  rw [hb]
  refine congrArg (fun s => max (s + mB1 m c (ix1 k)) 0) ?_
  refine Finset.sum_congr rfl fun k' _ => ?_
  have hf : feat0 (V1 m ρ) c (ix2 i k') = _ := feat0_apply (W0 m ρ c) i k'
  have hw : wcat0 (V1 m ρ) c (ix2 k' k) = _ := wcat0_apply (W0 m ρ c) k' k
  rw [hf, hw]

/-- The first launch's result array as a whole is `h1K` read by coordinates. -/
theorem W2_v46_fun :
    (W2 m ρ c (Proc.devRef .tc main_v46) : S50000x128.Idx → EReal) = fun idx => h1K m ρ c (idx 0) (idx 1) := by
  funext idx
  rw [eq_ix2 idx]
  exact W2_v46 m ρ c (idx 0) (idx 1)

/-- THE KERNEL PROGRAM'S RESULT at node p, feature q. -/
theorem kernel_value_apply (p : Fin 50000) (q : Fin 96) :
    (W4 m ρ c (Proc.devRef .tc main_v93) : S50000x96.Idx → EReal) (ix2 p q)
      = layerK (h1K m ρ c) (aggK (msg1 (W2 m ρ c)) (sid1 (W2 m ρ c)))
          (fun k j => mWr2 m c (ix2 k j)) (fun r k j => mWl2 m c (ix3 r k j)) (fun j => mB2 m c (ix1 j)) p q := by
  have hA : W4 m ρ c (Proc.devRef .tc main_v93) = (dat1 (V3 m ρ) c).arrAt 3 cfg1.N := W4_arr m ρ c 3
  rw [hA, arr1_apply (V3 m ρ) c p q]
  unfold layerK
  have hb : bias1 (V3 m ρ) c (ix1 q) = mB2 m c (ix1 q) := by
    show (StableHlo.after hostOps1 (W2 m ρ c) (Proc.devRef .tc main_arg8) : S96.Idx → EReal) (ix1 q) = _
    rw [keep1 (W2 m ρ c) main_arg8 (by decide), W2_arg m ρ c main_arg8 (by decide) (by decide)]
  rw [hb]
  refine congrArg (fun s => s + mB2 m c (ix1 q)) ?_
  refine Finset.sum_congr rfl fun k' _ => ?_
  have hf : feat1 (V3 m ρ) c (ix2 p k') = _ := feat1_apply (W2 m ρ c) p k'
  have hw : wcat1 (V3 m ρ) c (ix2 k' q) = _ := wcat1_apply (W2 m ρ c) k' q
  rw [hf, hw]
  have h46 : (fun i k => (W2 m ρ c (Proc.devRef .tc main_v46) : S50000x128.Idx → EReal) (ix2 i k)) = h1K m ρ c := by
    funext i k; exact W2_v46 m ρ c i k
  rw [h46, W2_arg m ρ c main_arg6 (by decide) (by decide), W2_arg m ρ c main_arg7 (by decide) (by decide)]

end Cert.KernelIdeal.Hand

end
-- ==== Proof.PreFacts.lean ====
/-
  What the precondition says about the two integer inputs, and why the kernel's combined id does not wrap.

  The precondition is a conjunction; its last two conjuncts are "every destination (row 1 of the edge array)
  is at least 0 and below 50000" and "every relation type is at least 0 and below 4", each an `and` over all
  600000 edges of two signed comparisons. Evaluated to true, each comparison holds at every edge.

  The kernel forms `destination · 4 + type` in 32-bit words. With the destination in [0, 50000) and the type in
  [0, 4) the exact integer `4 · destination + type` lies in [0, 200000), far inside the signed 32-bit range, so
  the word's signed value is that integer: nothing wraps.
-/
import proofs.«403790_j25340307046637_1_alg».proof.Pre_finite_inputs
import Idealize.ShloMosaic.Lib.ReduceAll
import Idealize.ShloMosaic.Lib.ValueIdx
import Idealize.ShloMosaic.Lib.ValueLayout
import Idealize.ShloMosaic.Lib.Pipeline.Value
import Idealize.ShloMosaic.Lib.Affine
import Idealize.ShloMosaic.Lib.StableHlo.Predicate

set_option maxRecDepth 16384

noncomputable section

namespace Cert.PreFacts

open Idealize.ShloMosaic Idealize.ShloMosaic.ValueIdx Cert.Pre_finite_inputs

/-- A word that compares signed-at-least 0 and signed-below `n` has its signed value in [0, n). -/
theorem toInt_range (w n : BitVec 32) (h0 : IntOp.cmpi .sge w 0#32 = 1#1) (h1 : IntOp.cmpi .slt w n = 1#1) :
    0 ≤ w.toInt ∧ w.toInt < n.toInt := by
  simp only [IntOp.cmpi, StableHlo.Predicate.ofBool_eq_one_iff, BitVec.slt, BitVec.sle, decide_eq_true_eq] at h0 h1
  exact ⟨by simpa using h0, h1⟩

/-- The combined id as a 32-bit word has the exact integer `4 · destination + type` as its signed value. -/
theorem sid_toInt (d t : BitVec 32) (hd : 0 ≤ d.toInt ∧ d.toInt < 50000) (ht : 0 ≤ t.toInt ∧ t.toInt < 4) :
    (d * 4#32 + t).toInt = 4 * d.toInt + t.toInt := by
  have h4 : (4#32 : BitVec 32).toInt = 4 := by decide
  rw [BitVec.toInt_add, BitVec.toInt_mul, h4]
  obtain ⟨hd0, hd1⟩ := hd
  obtain ⟨ht0, ht1⟩ := ht
  have e1 : (d.toInt * 4).bmod (2 ^ 32) = d.toInt * 4 := by
    apply Int.bmod_eq_of_le <;> omega
  rw [e1]
  have e2 : (d.toInt * 4 + t.toInt).bmod (2 ^ 32) = d.toInt * 4 + t.toInt := by
    apply Int.bmod_eq_of_le <;> omega
  rw [e2]; ring

variable [Cert.Pre_finite_inputs.Facts]
open Cert.Pre_finite_inputs.Facts

/-- The scalar shape has one index. -/
instance : Subsingleton S_.Idx := ⟨fun a b => funext fun d => d.elim0⟩

/-- Row 1 of the edge array, laid out as a vector, read at edge `e`. -/
theorem dst_apply (a1 : IVec S2x600000 32) (e : Fin 600000) :
    shapeCast S600000 ((extractStridedSlice S1x600000 ![1, 0] · slices_S2x600000_S1x600000_1_0) a1) shapeCasts_S1x600000_S600000 (ix1 e)
      = a1 (ix2 1 e) := by
  rw [shapeCast_1a_a_apply]
  refine extractStridedSlice_apply _ a1 _ _ (ix2 1 e) fun a => ?_
  match a with
  | ⟨0, _⟩ => rfl
  | ⟨1, _⟩ => show e.val = 0 + e.val; omega

/-- THE PRECONDITION DECODED: every destination in [0, 50000), every relation type in [0, 4), as signed integers. -/
theorem ranges_of_pre {F : FTy → Type} [FloatOps F]
    (a0 : FVec F S50000x128 .f32) (a1 : IVec S2x600000 32) (a2 : IVec S600000 32) (a3 : FVec F S128x128 .f32)
    (a4 : FVec F S4x128x128 .f32) (a5 : FVec F S128 .f32) (a6 : FVec F S128x96 .f32) (a7 : FVec F S4x128x96 .f32)
    (a8 : FVec F S96 .f32)
    (h : fn (F := F) a0 a1 a2 a3 a4 a5 a6 a7 a8 = fun _ => 1#1) :
    (∀ e : Fin 600000, 0 ≤ (a1 (ix2 1 e)).toInt ∧ (a1 (ix2 1 e)).toInt < 50000)
      ∧ (∀ e : Fin 600000, 0 ≤ (a2 (ix1 e)).toInt ∧ (a2 (ix1 e)).toInt < 4) := by
  have e := congrFun h ix0
  unfold fn fn_part1 fn_part2 at e
  simp only [andi] at e
  rw [IntOp.andi_eq_one, IntOp.andi_eq_one] at e
  obtain ⟨⟨-, hdst⟩, het⟩ := e
  refine ⟨fun e => ?_, fun e => ?_⟩
  · have g := Host.reduce_andi_all _ _ _ _ ix0 hdst (ix1 e)
    simp only [andi, cmpi] at g
    rw [IntOp.andi_eq_one, dst_apply] at g
    have r := toInt_range _ _ g.1 g.2
    exact ⟨r.1, r.2⟩
  · have g := Host.reduce_andi_all _ _ _ _ ix0 het (ix1 e)
    simp only [andi, cmpi] at g
    rw [IntOp.andi_eq_one] at g
    have r := toInt_range _ _ g.1 g.2
    exact ⟨r.1, r.2⟩

end Cert.PreFacts

end
-- ==== Proof.BridgeRef.lean ====
/-
  The reference's result in the kernel's form.

  The reference program's result at node p, feature q is the reference form of the two layers on its nine
  inputs (read off its run). Under the precondition every destination lies in [0, 50000) and every relation
  type in [0, 4); then the kernel's combined 32-bit id `destination · 4 + type` is the exact integer, and the
  two forms of the two layers agree. So the reference's result is also the KERNEL form of the two layers, with
  the messages gathered the reference's way — which is the kernel's way too: both programs gather the rows
  of the layer's input at the same index words built from row 0 of the edge array.
-/
import proofs.«403790_j25340307046637_1_alg».proof.Proof.Ref.Value
import proofs.«403790_j25340307046637_1_alg».proof.Proof.TwoLayer
import proofs.«403790_j25340307046637_1_alg».proof.Proof.PreFacts

noncomputable section

namespace Cert.Bridge

open Idealize.ShloMosaic Idealize.ShloMosaic.ValueIdx Cert.Spec
open Cert.ReferenceIdeal Cert.ReferenceIdeal.RefValue

variable (x : FVec Ideal S50000x128 .f32) (ei : IVec S2x600000 32) (et : IVec S600000 32)
  (wr1 : FVec Ideal S128x128 .f32) (wl1 : FVec Ideal S4x128x128 .f32) (b1 : FVec Ideal S128 .f32)
  (wr2 : FVec Ideal S128x96 .f32) (wl2 : FVec Ideal S4x128x96 .f32) (b2 : FVec Ideal S96 .f32)

/-- The kernel's combined id of edge `e`, as the signed value of the 32-bit word it computes. -/
def sidW (ei : IVec S2x600000 32) (et : IVec S600000 32) : Fin 600000 → ℤ :=
  fun e => (ei (ix2 1 e) * 4#32 + et (ix1 e)).toInt

/-- The messages of a layer as a function of its input features given by coordinates. -/
def GR (ei : IVec S2x600000 32) (h : Fin 50000 → Fin 128 → EReal) : Fin 600000 → Fin 128 → EReal :=
  msgR (fun idx => h (idx 0) (idx 1)) ei

theorem msgR_eq_GR : msgR x ei = GR ei (fun i k => x (ix2 i k)) := by
  unfold GR
  have hx : x = fun idx => x (ix2 (idx 0) (idx 1)) := by
    funext idx
    exact congrArg x (eq_ix2 idx)
  exact congrArg (fun y => msgR y ei) hx

/-- The reference's result, in the reference's form of the two layers over `GR`. -/
theorem ref_outR (p : Fin 50000) (q : Fin 96) :
    (Read.val_main_v198 (F := Ideal) x ei et wr1 wl1 b1 wr2 wl2 b2 : S50000x96.Idx → EReal) (ix2 p q)
      = outR (GR ei) (fun i k => x (ix2 i k)) (dstR ei) (etR et)
          (fun k j => wr1 (ix2 k j)) (fun r k j => wl1 (ix3 r k j)) (fun j => b1 (ix1 j))
          (fun k j => wr2 (ix2 k j)) (fun r k j => wl2 (ix3 r k j)) (fun j => b2 (ix1 j)) p q := by
  rw [ref_value_apply]
  unfold outR h1R
  rw [msgR_eq_GR]
  rfl

/-- THE REFERENCE'S RESULT IN THE KERNEL'S FORM, for in-range destinations and relation types. -/
theorem ref_outK
    (hdst : ∀ e : Fin 600000, 0 ≤ (ei (ix2 1 e)).toInt ∧ (ei (ix2 1 e)).toInt < 50000)
    (het : ∀ e : Fin 600000, 0 ≤ (et (ix1 e)).toInt ∧ (et (ix1 e)).toInt < 4)
    (p : Fin 50000) (q : Fin 96) :
    (Read.val_main_v198 (F := Ideal) x ei et wr1 wl1 b1 wr2 wl2 b2 : S50000x96.Idx → EReal) (ix2 p q)
      = outK (GR ei) (fun i k => x (ix2 i k)) (sidW ei et)
          (fun k j => wr1 (ix2 k j)) (fun r k j => wl1 (ix3 r k j)) (fun j => b1 (ix1 j))
          (fun k j => wr2 (ix2 k j)) (fun r k j => wl2 (ix3 r k j)) (fun j => b2 (ix1 j)) p q := by
  rw [ref_outR]
  refine (outK_eq_outR (GR ei) _ (dstR ei) (etR et) (sidW ei et) (fun e => ?_) (fun e => het e) _ _ _ _ _ _ p q).symm
  exact Cert.PreFacts.sid_toInt _ _ (hdst e) (het e)

end Cert.Bridge

end
-- ==== Proof.BridgeKernel.lean ====
/-
  The kernel program's result in the same terms as the reference's.

  The kernel program's message rows are gathered by the same operation, at the same index words built from row
  0 of the edge array, as the reference's: so they are the reference's function `GR` of the layer's input
  features (the program's input for the first layer, the first launch's result for the second). Its
  combined ids are the 32-bit words `destination · 4 + type` of the launch arrays in both stretches, since
  nothing writes an argument. Hence its result is the kernel form of the two layers over `GR`.
-/
import proofs.«403790_j25340307046637_1_alg».proof.Proof.KI.Value
import proofs.«403790_j25340307046637_1_alg».proof.Proof.BridgeRef

noncomputable section

namespace Cert.Bridge

open Idealize.ShloMosaic Idealize.ShloMosaic.TcCoe Idealize.ShloMosaic.ValueIdx Idealize.SL.Sem Cert.Spec
open Cert.KernelIdeal.Hand

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel program's gathered rows of a feature array given by coordinates are `GR` of those coordinates. -/
theorem gatherV_GR (h : Cert.KernelIdeal.S50000x128.Idx → EReal) (ei : IVec Cert.KernelIdeal.S2x600000 32)
    (H : Fin 50000 → Fin 128 → EReal) (hh : h = fun idx => H (idx 0) (idx 1)) :
    (fun (e : Fin 600000) (k : Fin 128) => gatherV h ei (ix2 e k)) = GR ei H := by
  subst hh; rfl

/-- The launch array of input features, read by coordinates. -/
theorem mX_fun : (W0 m ρ c (Proc.devRef .tc Cert.KernelIdeal.main_arg0) : Cert.KernelIdeal.S50000x128.Idx → EReal)
    = fun idx => (fun (i : Fin 50000) (k : Fin 128) => mX m c (ix2 i k)) (idx 0) (idx 1) := by
  funext idx
  exact congrArg (mX m c) (eq_ix2 idx)

theorem msg0_GR : msg0 (W0 m ρ c) = GR (mEI m c) (fun i k => mX m c (ix2 i k)) := by
  funext e k
  unfold msg0
  rw [msg0_eq]
  exact congrFun (congrFun (gatherV_GR _ _ _ (mX_fun m ρ c)) e) k

theorem msg1_GR : msg1 (W2 m ρ c) = GR (mEI m c) (h1K m ρ c) := by
  funext e k
  unfold msg1
  rw [msg1_eq, W2_arg m ρ c Cert.KernelIdeal.main_arg1 (by decide) (by decide)]
  exact congrFun (congrFun (gatherV_GR _ _ _ (W2_v46_fun m ρ c)) e) k

theorem sid0_W : sid0 (W0 m ρ c) = sidW (mEI m c) (mET m c) := rfl

theorem sid1_W : sid1 (W2 m ρ c) = sidW (mEI m c) (mET m c) := by
  unfold sid1
  rw [W2_arg m ρ c Cert.KernelIdeal.main_arg1 (by decide) (by decide), W2_arg m ρ c Cert.KernelIdeal.main_arg2 (by decide) (by decide)]
  rfl

/-- THE KERNEL PROGRAM'S RESULT in the kernel form of the two layers over `GR`. -/
theorem kernel_outK (p : Fin 50000) (q : Fin 96) :
    (W4 m ρ c (Proc.devRef .tc Cert.KernelIdeal.main_v93) : Cert.KernelIdeal.S50000x96.Idx → EReal) (ix2 p q)
      = outK (GR (mEI m c)) (fun i k => mX m c (ix2 i k)) (sidW (mEI m c) (mET m c))
          (fun k j => mWr1 m c (ix2 k j)) (fun r k j => mWl1 m c (ix3 r k j)) (fun j => mB1 m c (ix1 j))
          (fun k j => mWr2 m c (ix2 k j)) (fun r k j => mWl2 m c (ix3 r k j)) (fun j => mB2 m c (ix1 j)) p q := by
  rw [kernel_value_apply, msg1_GR, sid1_W]
  have h1 : h1K m ρ c = fun i k => max (layerK (fun i k => mX m c (ix2 i k))
      (aggK (GR (mEI m c) fun i k => mX m c (ix2 i k)) (sidW (mEI m c) (mET m c)))
      (fun k j => mWr1 m c (ix2 k j)) (fun r k j => mWl1 m c (ix3 r k j)) (fun j => mB1 m c (ix1 j)) i k) 0 := by
    unfold h1K
    rw [msg0_GR, sid0_W]
  rw [h1]
  rfl

end Cert.Bridge

end
-- ==== Proof.lean ====
/-
  Two graph-convolution layers, fused: the kernel program against its reference.

  WHAT IS COMPUTED. Nodes carry 128 features; each of 600000 edges has a source, a destination and one of four
  relation types. A layer maps features h to  h·W_root + b + Σ_r mean_r(h)·W_r , where mean_r(h) at node i is the
  mean of the source rows of the edges into i of type r (their sum over the larger of their count and one). The
  first layer's result is cut off below at zero and fed to the second.

  THE TWO PROGRAMS. The reference files the edges under their destination once per relation, weighting each
  message by 1 or 0, and adds five 128-wide contractions. The kernel program files every edge once under the
  combined id 4·destination + type, lays the node's features and its four means side by side (640 numbers),
  stacks the five weight blocks (640 rows), and runs ONE contraction per layer in a pallas_call over 25 row
  tiles, adding the bias (and cutting off at zero in the first layer) inside the call.

  WHY THEY AGREE, and under what. For destinations in [0, 50000) and types in [0, 4) — which the precondition
  states, beside finiteness of the float inputs, of which nothing here makes use — the combined id is an exact
  integer below 200000 and determines the pair (destination, type); so both ways of filing select the same
  edges. A 1/0 weight keeps or removes a message. A sum over 640 = 5·128 indices is the five block sums, and
  sums may be regrouped freely on the extended reals. Outside those ranges the claim fails (a type of 4 at
  destination 0 is filed by the kernel under node 1, type 0, and by the reference nowhere).

  THE FRAMES. Each kernel program runs: two host stretches and two launches; each launch's body loads its three
  input blocks and stores one block; nothing writes an argument. The reference is host operations only.
-/
import proofs.«403790_j25340307046637_1_alg».proof.Defs
import proofs.«403790_j25340307046637_1_alg».proof.Proof.Gen.Kernel
import proofs.«403790_j25340307046637_1_alg».proof.Proof.Gen.KernelIdeal
import proofs.«403790_j25340307046637_1_alg».proof.Proof.Gen.ReferenceIdeal
import proofs.«403790_j25340307046637_1_alg».proof.Proof.Gen.Pre_finite_inputs
import proofs.«403790_j25340307046637_1_alg».proof.Proof.K.Frame
import proofs.«403790_j25340307046637_1_alg».proof.Proof.KI.Frame
import proofs.«403790_j25340307046637_1_alg».proof.Proof.Ref.Value
import proofs.«403790_j25340307046637_1_alg».proof.Proof.BridgeKernel
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its arguments unchanged: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nine arguments and satisfy the precondition, both idealized programs run, and
    end with equal results: the kernel program's result is the kernel form of the two layers on the arguments, the
    reference's is the reference form, and for in-range destinations and relation types (the precondition) the two
    forms are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W4 (F := Ideal) m ρ c (Proc.devRef .tc Cert.KernelIdeal.main_v93),
    Cert.KernelIdeal.Hand.run_main (F := Ideal) m ρ, ?_⟩
  refine (θ_run Cert.ReferenceIdeal.defs _ _).mono (fun _ h c => ⟨(h c).1.trans ?_, (h c).2⟩)
    (Cert.ReferenceIdeal.RefValue.ref_run m' ρ')
  obtain ⟨a0, a1, a2, a3, a4, a5, a6, a7, a8⟩ := hagree c
  rw [a0, a1, a2, a3, a4, a5, a6, a7, a8]
  haveI : Cert.Pre_finite_inputs.Facts := Cert.Pre_finite_inputs.Gen.facts
  obtain ⟨hdst, het⟩ := Cert.PreFacts.ranges_of_pre _ _ _ _ _ _ _ _ _ (hpre c)
  funext idx
  rw [eq_ix2 idx]
  exact (Cert.Bridge.ref_outK _ _ _ _ _ _ _ _ _ hdst het (idx 0) (idx 1)).trans
    (Cert.Bridge.kernel_outK m ρ c (idx 0) (idx 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
